-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S128x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x64x160 : Shape := ⟨4, ![8, 128, 64, 160]⟩
abbrev S128x32x100x2 : Shape := ⟨4, ![128, 32, 100, 2]⟩
abbrev S128 : Shape := ⟨1, ![128]⟩
abbrev S128x25 : Shape := ⟨2, ![128, 25]⟩
abbrev S_ : Shape := ⟨0, ![]⟩

class Facts : Prop where
  bcast_S_S8x128x64x160 : S_.BroadcastsInDim S8x128x64x160 (![] : Fin 0 → Fin S8x128x64x160.rank)
  reducesTo_S8x128x64x160_S_d0_1_2_3 : S8x128x64x160.ReducesTo [0, 1, 2, 3] S_
  h_S_ : 0 < S_.numel
  bcast_S_S128x32x100x2 : S_.BroadcastsInDim S128x32x100x2 (![] : Fin 0 → Fin S128x32x100x2.rank)
  reducesTo_S128x32x100x2_S_d0_1_2_3 : S128x32x100x2.ReducesTo [0, 1, 2, 3] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8x128x64x160 .f32) (main_arg1 : FVec F S128x32x100x2 .f32) (main_arg2 : IVec S128 32) (main_arg3 : IVec S128x25 32) : IVec S_ 1 :=
  let main_v0 : FVec F S8x128x64x160 .f32 := Host.absf main_arg0
  let main_cst : FVec F S_ .f32 := constant S_ .f32 0x7F800000#32
  let main_v1 : FVec F S8x128x64x160 .f32 := broadcastInDim S8x128x64x160 ![] bcast_S_S8x128x64x160 main_cst
  let main_v2 : IVec S8x128x64x160 1 := cmpf .olt main_v0 main_v1
  let main_c : IVec S_ 1 := constantI S_ 1 1#1
  let main_v3 : IVec S_ 1 := (fun x v => Host.reduce IntOp.andi x v reducesTo_S8x128x64x160_S_d0_1_2_3 h_S_) main_v2 main_c
  let main_v4 : FVec F S128x32x100x2 .f32 := Host.absf main_arg1
  let main_cst_0 : FVec F S_ .f32 := constant S_ .f32 0x7F800000#32
  let main_v5 : FVec F S128x32x100x2 .f32 := broadcastInDim S128x32x100x2 ![] bcast_S_S128x32x100x2 main_cst_0
  let main_v6 : IVec S128x32x100x2 1 := cmpf .olt main_v4 main_v5
  let main_c_1 : IVec S_ 1 := constantI S_ 1 1#1
  let main_v7 : IVec S_ 1 := (fun x v => Host.reduce IntOp.andi x v reducesTo_S128x32x100x2_S_d0_1_2_3 h_S_) main_v6 main_c_1
  let main_v8 : IVec S_ 1 := andi main_v3 main_v7
  let main_c_2 : IVec S_ 32 := constantI S_ 32 0#32
  let main_v9 : IVec S128 32 := broadcastInDim S128 ![] bcast_S_S128 main_c_2
  let main_v10 : IVec S128 1 := cmpi .sge main_arg2 main_v9
  let main_c_3 : IVec S_ 32 := constantI S_ 32 8#32
  let main_v11 : IVec S128 32 := broadcastInDim S128 ![] bcast_S_S128 main_c_3
  let main_v12 : IVec S128 1 := cmpi .slt main_arg2 main_v11
  let main_v13 : IVec S128 1 := andi main_v10 main_v12
  let main_c_4 : IVec S_ 1 := constantI S_ 1 1#1
  let main_v14 : IVec S_ 1 := (fun x v => Host.reduce IntOp.andi x v reducesTo_S128_S_d0 h_S_) main_v13 main_c_4
  let main_v15 : IVec S_ 1 := andi main_v8 main_v14
  main_v15
-- ==== Kernel.lean ====
abbrev S8x128x64x160 : Shape := ⟨4, ![8, 128, 64, 160]⟩
abbrev S128x32x100x2 : Shape := ⟨4, ![128, 32, 100, 2]⟩
abbrev S128 : Shape := ⟨1, ![128]⟩
abbrev S128x25 : Shape := ⟨2, ![128, 25]⟩
abbrev S8x64x128x160 : Shape := ⟨4, ![8, 64, 128, 160]⟩
abbrev S8x8192x160 : Shape := ⟨3, ![8, 8192, 160]⟩
abbrev S128x32x100x1 : Shape := ⟨4, ![128, 32, 100, 1]⟩
abbrev S128x32x100 : Shape := ⟨3, ![128, 32, 100]⟩
abbrev S128x1x3200 : Shape := ⟨3, ![128, 1, 3200]⟩
abbrev S128x128x3200 : Shape := ⟨3, ![128, 128, 3200]⟩
abbrev S1x8192x160 : Shape := ⟨3, ![1, 8192, 160]⟩
abbrev S1 : Shape := ⟨1, ![1]⟩
abbrev S1x1x3200 : Shape := ⟨3, ![1, 1, 3200]⟩
abbrev S1x128x3200 : Shape := ⟨3, ![1, 128, 3200]⟩
abbrev S8192x160 : Shape := ⟨2, ![8192, 160]⟩
abbrev S1x1x128 : Shape := ⟨3, ![1, 1, 128]⟩
abbrev S1x128 : Shape := ⟨2, ![1, 128]⟩
abbrev S160x128 : Shape := ⟨2, ![160, 128]⟩
abbrev S64x128 : Shape := ⟨2, ![64, 128]⟩
abbrev S8192x128 : Shape := ⟨2, ![8192, 128]⟩
abbrev S64x128x128 : Shape := ⟨3, ![64, 128, 128]⟩
abbrev S64x1x128 : Shape := ⟨3, ![64, 1, 128]⟩
abbrev S128x128 : Shape := ⟨2, ![128, 128]⟩
abbrev S1x128x128 : Shape := ⟨3, ![1, 128, 128]⟩
abbrev S128x128x32x100 : Shape := ⟨4, ![128, 128, 32, 100]⟩

abbrev nBuf : Space → Nat
  | .hbm => 14
  | .vmem => 8
  | .smem => 1
  | _ => 0

abbrev bufTy : (tb : Table) → Fin (tcTables nBuf tb) → BufTy
  | .hbm, ⟨0, _⟩ => ⟨S8x128x64x160, .f32⟩
  | .hbm, ⟨1, _⟩ => ⟨S128x32x100x2, .f32⟩
  | .hbm, ⟨2, _⟩ => ⟨S128x25, .i32⟩
  | .hbm, ⟨3, _⟩ => ⟨S8x64x128x160, .f32⟩
  | .hbm, ⟨4, _⟩ => ⟨S8x8192x160, .f32⟩
  | .hbm, ⟨5, _⟩ => ⟨S8x8192x160, .bf16⟩
  | .hbm, ⟨6, _⟩ => ⟨S128x32x100x1, .f32⟩
  | .hbm, ⟨7, _⟩ => ⟨S128x32x100, .f32⟩
  | .hbm, ⟨8, _⟩ => ⟨S128x1x3200, .f32⟩
  | .hbm, ⟨9, _⟩ => ⟨S128x32x100x1, .f32⟩
  | .hbm, ⟨10, _⟩ => ⟨S128x32x100, .f32⟩
  | .hbm, ⟨11, _⟩ => ⟨S128x1x3200, .f32⟩
  | .hbm, ⟨12, _⟩ => ⟨S128x128x3200, .f32⟩
  | .hbm, ⟨13, _⟩ => ⟨S128x128x32x100, .f32⟩
  | .local _ .vmem, ⟨0, _⟩ => ⟨S1x8192x160, .bf16⟩
  | .local _ .vmem, ⟨1, _⟩ => ⟨S1x8192x160, .bf16⟩
  | .local _ .vmem, ⟨2, _⟩ => ⟨S1x1x3200, .f32⟩
  | .local _ .vmem, ⟨3, _⟩ => ⟨S1x1x3200, .f32⟩
  | .local _ .vmem, ⟨4, _⟩ => ⟨S1x1x3200, .f32⟩
  | .local _ .vmem, ⟨5, _⟩ => ⟨S1x1x3200, .f32⟩
  | .local _ .vmem, ⟨6, _⟩ => ⟨S1x128x3200, .f32⟩
  | .local _ .vmem, ⟨7, _⟩ => ⟨S1x128x3200, .f32⟩
  | .local _ .smem, ⟨0, _⟩ => ⟨S128, .i32⟩
  | _, _ => ⟨S8x128x64x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c25_i32 : BitVec 32 := 25#32
  let v2 : BitVec 32 := Scalar.addi c0_i32 c25_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v3 : BitVec 32 := Scalar.muli arg6 c128_i32
  v3
def k0_off2 (k0_t1 : Fin k0_t1_loop.trips) : Fin 3 → Nat :=
  let c0_3 : Index := 0#32
  let c0_4 : Index := 0#32
  let c0_i32 : BitVec 32 := 0#32
  let c1_i32 : BitVec 32 := 1#32
  let arg6 : BitVec 32 := Scf.iv c0_i32 c1_i32 k0_t1
  let c128_i32 : BitVec 32 := 128#32
  let v3 : BitVec 32 := Scalar.muli arg6 c128_i32
  let v4 : BitVec 32 := v3
  let v5 : Index := Scalar.indexCast v4
  ![0, 0, v5.toNat]
def k0_off3 (k0_t1 : Fin k0_t1_loop.trips) : Fin 3 → Nat :=
  let c0_40 : Index := 0#32
  let c0_41 : Index := 0#32
  let c0_i32 : BitVec 32 := 0#32
  let c1_i32 : BitVec 32 := 1#32
  let arg6 : BitVec 32 := Scf.iv c0_i32 c1_i32 k0_t1
  let c128_i32 : BitVec 32 := 128#32
  let v3 : BitVec 32 := Scalar.muli arg6 c128_i32
  let v4 : BitVec 32 := v3
  let v121 : Index := Scalar.indexCast v4
  ![0, 0, v121.toNat]
def cc0_transform_0 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x160 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S8x128x64x160_S8x64x128x160_0_2_1_3 : S8x128x64x160.Transposes [0, 2, 1, 3] S8x64x128x160
  shapeCasts_S8x64x128x160_S8x8192x160 : S8x64x128x160.ShapeCasts S8x8192x160
  bitsLt_bf16_f32 : FTy.bits .bf16 < FTy.bits .f32
  slices_S128x32x100x2_S128x32x100x1_0_0_0_0 : S128x32x100x2.Slices ![0, 0, 0, 0] S128x32x100x1
  shapeCasts_S128x32x100x1_S128x32x100 : S128x32x100x1.ShapeCasts S128x32x100
  shapeCasts_S128x32x100_S128x1x3200 : S128x32x100.ShapeCasts S128x1x3200
  slices_S128x32x100x2_S128x32x100x1_0_0_0_1 : S128x32x100x2.Slices ![0, 0, 0, 1] S128x32x100x1
  numel1_S1 : S1.numel = 1
  inb_S1x8192x160_S1x8192x160_0_0_0 : ∀ a, (![0, 0, 0] : Fin 3 → Nat) a + S1x8192x160.size a ≤ S1x8192x160.size a
  h_S1x8192x160 : 0 < S1x8192x160.numel
  shapeCasts_S1x8192x160_S8192x160 : S1x8192x160.ShapeCasts S8192x160
  h_S1x1x128 : 0 < S1x1x128.numel
  shapeCasts_S1x1x128_S1x128 : S1x1x128.ShapeCasts S1x128
  iota_S160x128_d0_w32 : S160x128.Iotas .tc 32 [0]
  iota_S64x128_d0_w32 : S64x128.Iotas .tc 32 [0]
  broadcasts_S1x128_S160x128 : S1x128.Broadcasts S160x128
  shapeCasts_S1x128_S1x128 : S1x128.ShapeCasts S1x128
  broadcasts_S1x128_S64x128 : S1x128.Broadcasts S64x128
  shapeCasts_S8192x128_S64x128x128 : S8192x128.ShapeCasts S64x128x128
  shapeCasts_S64x128_S64x1x128 : S64x128.ShapeCasts S64x1x128
  broadcasts_S64x1x128_S64x128x128 : S64x1x128.Broadcasts S64x128x128
  reduces_S64x128x128_S128x128 : S64x128x128.Reduces [0] S128x128
  h_S1x128x128 : 0 < S1x128x128.numel
  shapeCasts_S1x128x128_S128x128 : S1x128x128.ShapeCasts S128x128
  shapeCasts_S128x128_S1x128x128 : S128x128.ShapeCasts S1x128x128
  shapeCasts_S128x128x3200_S128x128x32x100 : S128x128x3200.ShapeCasts S128x128x32x100
  dot_S8192x160_S160x128_S8192x128_1_0_0_1_n_n_wf : DotDims.WF S8192x160 S160x128 S8192x128 [1] [0] [0] [1] [] []
  hrank0 : 0 < grid0.rank
  k0_off1_inb : ∀ i : grid0.Coords, ∀ a, (k0_off1 i) a + S1.size a ≤ S128.size a
  k0_t1_ok : k0_t1_loop.OK
  k0_mult1_dvd : ∀ k0_t1 : Fin k0_t1_loop.trips, 128 ∣ (k0_mult1 k0_t1).toNat
  k0_off2_inb : ∀ k0_t1 : Fin k0_t1_loop.trips, ∀ a, (k0_off2 k0_t1) a + S1x1x128.size a ≤ S1x1x3200.size a
  k0_off3_inb : ∀ k0_t1 : Fin k0_t1_loop.trips, ∀ a, (k0_off3 k0_t1) a + S1x128x128.size a ≤ S1x128x3200.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x3200.size a ≤ S128x1x3200.size a
  hwx0_1 : ∀ i : grid0.Coords, EltTy.bits .f32 = 32 ∨ (Rect.block (s := S128x1x3200) S1x1x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x3200.size a ≤ S128x1x3200.size a
  hwx0_2 : ∀ i : grid0.Coords, EltTy.bits .f32 = 32 ∨ (Rect.block (s := S128x1x3200) S1x1x3200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x3200.size a ≤ S128x128x3200.size a
  hwx0_3 : ∀ i : grid0.Coords, EltTy.bits .f32 = 32 ∨ (Rect.block (s := S128x128x3200) S1x128x3200.size (cc0_transform_3 i) (hinb0_3 i)).WholeWords (EltTy.packing .f32)

variable [Facts₀]

def dot_S8192x160_S160x128_S8192x128_1_0_0_1_n_n : DotDims S8192x160 S160x128 S8192x128 where
  lhsContracting := [1]
  rhsContracting := [0]
  lhsNonContracting := [0]
  rhsNonContracting := [1]
  lhsBatch := []
  rhsBatch := []
  wf := dot_S8192x160_S160x128_S8192x128_1_0_0_1_n_n_wf

abbrev spec0_0 : Pipeline.WinSpec sig grid0.rank :=
  Pipeline.WinSpec.ofSpec (Memref.whole main_v2) S1x8192x160.size reads0_0 false false 2 stage0_0 sem0_0 nbuf0_0 hstage0_0

abbrev spec0_1 : Pipeline.WinSpec sig grid0.rank :=
  Pipeline.WinSpec.ofSpec (Memref.whole main_v5) S1x1x3200.size reads0_1 false false 2 stage0_1 sem0_1 nbuf0_1 hstage0_1

abbrev spec0_2 : Pipeline.WinSpec sig grid0.rank :=
  Pipeline.WinSpec.ofSpec (Memref.whole main_v8) S1x1x3200.size reads0_2 false false 2 stage0_2 sem0_2 nbuf0_2 hstage0_2

abbrev spec0_3 : Pipeline.WinSpec sig grid0.rank :=
  Pipeline.WinSpec.ofSpec (Memref.whole main_v9) S1x128x3200.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x8192x160.size a ≤ S8x8192x160.size a), EltTy.bits .bf16 = 32 ∨ (Rect.block (s := S8x8192x160) S1x8192x160.size (cc0_transform_0 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S8x128x64x160 : Shape := ⟨4, ![8, 128, 64, 160]⟩
abbrev S128x32x100x2 : Shape := ⟨4, ![128, 32, 100, 2]⟩
abbrev S128 : Shape := ⟨1, ![128]⟩
abbrev S128x25 : Shape := ⟨2, ![128, 25]⟩
abbrev S128x32x100x1 : Shape := ⟨4, ![128, 32, 100, 1]⟩
abbrev S128x32x100 : Shape := ⟨3, ![128, 32, 100]⟩
abbrev S_ : Shape := ⟨0, ![]⟩
abbrev S128x1x1 : Shape := ⟨3, ![128, 1, 1]⟩
abbrev S128x32x100x3 : Shape := ⟨4, ![128, 32, 100, 3]⟩
abbrev S128x32x100x128 : Shape := ⟨4, ![128, 32, 100, 128]⟩
abbrev S128x128x32x100 : Shape := ⟨4, ![128, 128, 32, 100]⟩

abbrev nBuf : Space → Nat
  | .hbm => 319
  | .vmem => 0
  | .smem => 0
  | _ => 0

abbrev hbmTy0_0 (i : Nat) : BufTy := match i % 128 with
  | 0 => ⟨S8x128x64x160, .f32⟩
  | 1 => ⟨S128x32x100x2, .f32⟩
  | 2 => ⟨S128, .i32⟩
  | 3 => ⟨S128x25, .i32⟩
  | 4 => ⟨S128x32x100x1, .f32⟩
  | 5 => ⟨S128x32x100, .f32⟩
  | 6 => ⟨S_, .f32⟩
  | 7 => ⟨S128x32x100, .f32⟩
  | 8 => ⟨S128x32x100, .f32⟩
  | 9 => ⟨S_, .f32⟩
  | 10 => ⟨S128x32x100, .f32⟩
  | 11 => ⟨S128x32x100, .f32⟩
  | 12 => ⟨S_, .f32⟩
  | 13 => ⟨S128x32x100, .f32⟩
  | 14 => ⟨S128x32x100, .f32⟩
  | 15 => ⟨S128x32x100x1, .f32⟩
  | 16 => ⟨S128x32x100, .f32⟩
  | 17 => ⟨S_, .f32⟩
  | 18 => ⟨S128x32x100, .f32⟩
  | 19 => ⟨S128x32x100, .f32⟩
  | 20 => ⟨S_, .f32⟩
  | 21 => ⟨S128x32x100, .f32⟩
  | 22 => ⟨S128x32x100, .f32⟩
  | 23 => ⟨S_, .f32⟩
  | 24 => ⟨S128x32x100, .f32⟩
  | 25 => ⟨S128x32x100, .f32⟩
  | 26 => ⟨S128x32x100, .f32⟩
  | 27 => ⟨S128x32x100, .f32⟩
  | 28 => ⟨S_, .f32⟩
  | 29 => ⟨S128x32x100, .f32⟩
  | 30 => ⟨S128x32x100, .f32⟩
  | 31 => ⟨S_, .f32⟩
  | 32 => ⟨S128x32x100, .f32⟩
  | 33 => ⟨S128x32x100, .f32⟩
  | 34 => ⟨S128x1x1, .i32⟩
  | 35 => ⟨S128x32x100, .f32⟩
  | 36 => ⟨S128x32x100, .f32⟩
  | 37 => ⟨S128x32x100, .f32⟩
  | 38 => ⟨S128x32x100x1, .f32⟩
  | 39 => ⟨S128x32x100, .f32⟩
  | 40 => ⟨S128x32x100, .f32⟩
  | 41 => ⟨S128x32x100, .f32⟩
  | 42 => ⟨S128x32x100x1, .f32⟩
  | 43 => ⟨S128x32x100, .f32⟩
  | 44 => ⟨S128x32x100, .f32⟩
  | 45 => ⟨S128x32x100, .f32⟩
  | 46 => ⟨S128x32x100x1, .f32⟩
  | 47 => ⟨S128x32x100, .f32⟩
  | 48 => ⟨S128x32x100, .f32⟩
  | 49 => ⟨S128x32x100, .f32⟩
  | 50 => ⟨S128x32x100x1, .f32⟩
  | 51 => ⟨S_, .f32⟩
  | 52 => ⟨S128x32x100, .f32⟩
  | 53 => ⟨S128x32x100, .i1⟩
  | 54 => ⟨S_, .f32⟩
  | 55 => ⟨S128x32x100, .f32⟩
  | 56 => ⟨S128x32x100, .i1⟩
  | 57 => ⟨S128x32x100, .i1⟩
  | 58 => ⟨S_, .f32⟩
  | 59 => ⟨S128x32x100, .f32⟩
  | 60 => ⟨S128x32x100, .i1⟩
  | 61 => ⟨S128x32x100, .i1⟩
  | 62 => ⟨S_, .f32⟩
  | 63 => ⟨S128x32x100, .f32⟩
  | 64 => ⟨S128x32x100, .i1⟩
  | 65 => ⟨S128x32x100, .i1⟩
  | 66 => ⟨S_, .i32⟩
  | 67 => ⟨S_, .i32⟩
  | 68 => ⟨S_, .f32⟩
  | 69 => ⟨S128x32x100, .f32⟩
  | 70 => ⟨S128x32x100, .f32⟩
  | 71 => ⟨S_, .f32⟩
  | 72 => ⟨S128x32x100, .f32⟩
  | 73 => ⟨S128x32x100, .f32⟩
  | 74 => ⟨S128x32x100, .i32⟩
  | 75 => ⟨S_, .i32⟩
  | 76 => ⟨S_, .i32⟩
  | 77 => ⟨S_, .f32⟩
  | 78 => ⟨S128x32x100, .f32⟩
  | 79 => ⟨S128x32x100, .f32⟩
  | 80 => ⟨S_, .f32⟩
  | 81 => ⟨S128x32x100, .f32⟩
  | 82 => ⟨S128x32x100, .f32⟩
  | 83 => ⟨S128x32x100, .i32⟩
  | 84 => ⟨S_, .i32⟩
  | 85 => ⟨S128x1x1, .i32⟩
  | 86 => ⟨S128x1x1, .i1⟩
  | 87 => ⟨S_, .i32⟩
  | 88 => ⟨S128x1x1, .i32⟩
  | 89 => ⟨S128x1x1, .i32⟩
  | 90 => ⟨S128x1x1, .i32⟩
  | 91 => ⟨S_, .i32⟩
  | 92 => ⟨S128x32x100, .i32⟩
  | 93 => ⟨S128x32x100, .i1⟩
  | 94 => ⟨S_, .i32⟩
  | 95 => ⟨S128x32x100, .i32⟩
  | 96 => ⟨S128x32x100, .i32⟩
  | 97 => ⟨S128x32x100, .i32⟩
  | 98 => ⟨S_, .i32⟩
  | 99 => ⟨S128x32x100, .i32⟩
  | 100 => ⟨S128x32x100, .i1⟩
  | 101 => ⟨S_, .i32⟩
  | 102 => ⟨S128x32x100, .i32⟩
  | 103 => ⟨S128x32x100, .i32⟩
  | 104 => ⟨S128x32x100, .i32⟩
  | 105 => ⟨S128x32x100, .i32⟩
  | 106 => ⟨S128x32x100x1, .i32⟩
  | 107 => ⟨S128x32x100x1, .i32⟩
  | 108 => ⟨S128x32x100x1, .i32⟩
  | 109 => ⟨S128x32x100x3, .i32⟩
  | 110 => ⟨S128x32x100x128, .f32⟩
  | 111 => ⟨S128x32x100x1, .i1⟩
  | 112 => ⟨S128x32x100x1, .f32⟩
  | 113 => ⟨S128x32x100x128, .f32⟩
  | 114 => ⟨S128x32x100x128, .f32⟩
  | 115 => ⟨S128x32x100x128, .f32⟩
  | 116 => ⟨S128x32x100x128, .f32⟩
  | 117 => ⟨S_, .f32⟩
  | 118 => ⟨S128x32x100, .f32⟩
  | 119 => ⟨S128x32x100, .i1⟩
  | 120 => ⟨S_, .f32⟩
  | 121 => ⟨S128x32x100, .f32⟩
  | 122 => ⟨S128x32x100, .i1⟩
  | 123 => ⟨S128x32x100, .i1⟩
  | 124 => ⟨S_, .f32⟩
  | 125 => ⟨S128x32x100, .f32⟩
  | 126 => ⟨S128x32x100, .i1⟩
  | 127 => ⟨S128x32x100, .i1⟩
  | _ => ⟨S8x128x64x160, .f32⟩

abbrev hbmTy0_1 (i : Nat) : BufTy := match i % 128 with
  | 0 => ⟨S_, .f32⟩
  | 1 => ⟨S128x32x100, .f32⟩
  | 2 => ⟨S128x32x100, .i1⟩
  | 3 => ⟨S128x32x100, .i1⟩
  | 4 => ⟨S_, .i32⟩
  | 5 => ⟨S_, .i32⟩
  | 6 => ⟨S_, .f32⟩
  | 7 => ⟨S128x32x100, .f32⟩
  | 8 => ⟨S128x32x100, .f32⟩
  | 9 => ⟨S_, .f32⟩
  | 10 => ⟨S128x32x100, .f32⟩
  | 11 => ⟨S128x32x100, .f32⟩
  | 12 => ⟨S128x32x100, .i32⟩
  | 13 => ⟨S_, .i32⟩
  | 14 => ⟨S_, .i32⟩
  | 15 => ⟨S_, .f32⟩
  | 16 => ⟨S128x32x100, .f32⟩
  | 17 => ⟨S128x32x100, .f32⟩
  | 18 => ⟨S_, .f32⟩
  | 19 => ⟨S128x32x100, .f32⟩
  | 20 => ⟨S128x32x100, .f32⟩
  | 21 => ⟨S128x32x100, .i32⟩
  | 22 => ⟨S_, .i32⟩
  | 23 => ⟨S128x1x1, .i32⟩
  | 24 => ⟨S128x1x1, .i1⟩
  | 25 => ⟨S_, .i32⟩
  | 26 => ⟨S128x1x1, .i32⟩
  | 27 => ⟨S128x1x1, .i32⟩
  | 28 => ⟨S128x1x1, .i32⟩
  | 29 => ⟨S_, .i32⟩
  | 30 => ⟨S128x32x100, .i32⟩
  | 31 => ⟨S128x32x100, .i1⟩
  | 32 => ⟨S_, .i32⟩
  | 33 => ⟨S128x32x100, .i32⟩
  | 34 => ⟨S128x32x100, .i32⟩
  | 35 => ⟨S128x32x100, .i32⟩
  | 36 => ⟨S_, .i32⟩
  | 37 => ⟨S128x32x100, .i32⟩
  | 38 => ⟨S128x32x100, .i1⟩
  | 39 => ⟨S_, .i32⟩
  | 40 => ⟨S128x32x100, .i32⟩
  | 41 => ⟨S128x32x100, .i32⟩
  | 42 => ⟨S128x32x100, .i32⟩
  | 43 => ⟨S128x32x100, .i32⟩
  | 44 => ⟨S128x32x100x1, .i32⟩
  | 45 => ⟨S128x32x100x1, .i32⟩
  | 46 => ⟨S128x32x100x1, .i32⟩
  | 47 => ⟨S128x32x100x3, .i32⟩
  | 48 => ⟨S128x32x100x128, .f32⟩
  | 49 => ⟨S128x32x100x1, .i1⟩
  | 50 => ⟨S128x32x100x1, .f32⟩
  | 51 => ⟨S128x32x100x128, .f32⟩
  | 52 => ⟨S128x32x100x128, .f32⟩
  | 53 => ⟨S128x32x100x128, .f32⟩
  | 54 => ⟨S128x32x100x128, .f32⟩
  | 55 => ⟨S128x32x100x128, .f32⟩
  | 56 => ⟨S_, .f32⟩
  | 57 => ⟨S128x32x100, .f32⟩
  | 58 => ⟨S128x32x100, .i1⟩
  | 59 => ⟨S_, .f32⟩
  | 60 => ⟨S128x32x100, .f32⟩
  | 61 => ⟨S128x32x100, .i1⟩
  | 62 => ⟨S128x32x100, .i1⟩
  | 63 => ⟨S_, .f32⟩
  | 64 => ⟨S128x32x100, .f32⟩
  | 65 => ⟨S128x32x100, .i1⟩
  | 66 => ⟨S128x32x100, .i1⟩
  | 67 => ⟨S_, .f32⟩
  | 68 => ⟨S128x32x100, .f32⟩
  | 69 => ⟨S128x32x100, .i1⟩
  | 70 => ⟨S128x32x100, .i1⟩
  | 71 => ⟨S_, .i32⟩
  | 72 => ⟨S_, .i32⟩
  | 73 => ⟨S_, .f32⟩
  | 74 => ⟨S128x32x100, .f32⟩
  | 75 => ⟨S128x32x100, .f32⟩
  | 76 => ⟨S_, .f32⟩
  | 77 => ⟨S128x32x100, .f32⟩
  | 78 => ⟨S128x32x100, .f32⟩
  | 79 => ⟨S128x32x100, .i32⟩
  | 80 => ⟨S_, .i32⟩
  | 81 => ⟨S_, .i32⟩
  | 82 => ⟨S_, .f32⟩
  | 83 => ⟨S128x32x100, .f32⟩
  | 84 => ⟨S128x32x100, .f32⟩
  | 85 => ⟨S_, .f32⟩
  | 86 => ⟨S128x32x100, .f32⟩
  | 87 => ⟨S128x32x100, .f32⟩
  | 88 => ⟨S128x32x100, .i32⟩
  | 89 => ⟨S_, .i32⟩
  | 90 => ⟨S128x1x1, .i32⟩
  | 91 => ⟨S128x1x1, .i1⟩
  | 92 => ⟨S_, .i32⟩
  | 93 => ⟨S128x1x1, .i32⟩
  | 94 => ⟨S128x1x1, .i32⟩
  | 95 => ⟨S128x1x1, .i32⟩
  | 96 => ⟨S_, .i32⟩
  | 97 => ⟨S128x32x100, .i32⟩
  | 98 => ⟨S128x32x100, .i1⟩
  | 99 => ⟨S_, .i32⟩
  | 100 => ⟨S128x32x100, .i32⟩
  | 101 => ⟨S128x32x100, .i32⟩
  | 102 => ⟨S128x32x100, .i32⟩
  | 103 => ⟨S_, .i32⟩
  | 104 => ⟨S128x32x100, .i32⟩
  | 105 => ⟨S128x32x100, .i1⟩
  | 106 => ⟨S_, .i32⟩
  | 107 => ⟨S128x32x100, .i32⟩
  | 108 => ⟨S128x32x100, .i32⟩
  | 109 => ⟨S128x32x100, .i32⟩
  | 110 => ⟨S128x32x100, .i32⟩
  | 111 => ⟨S128x32x100x1, .i32⟩
  | 112 => ⟨S128x32x100x1, .i32⟩
  | 113 => ⟨S128x32x100x1, .i32⟩
  | 114 => ⟨S128x32x100x3, .i32⟩
  | 115 => ⟨S128x32x100x128, .f32⟩
  | 116 => ⟨S128x32x100x1, .i1⟩
  | 117 => ⟨S128x32x100x1, .f32⟩
  | 118 => ⟨S128x32x100x128, .f32⟩
  | 119 => ⟨S128x32x100x128, .f32⟩
  | 120 => ⟨S128x32x100x128, .f32⟩
  | 121 => ⟨S128x32x100x128, .f32⟩
  | 122 => ⟨S128x32x100x128, .f32⟩
  | 123 => ⟨S_, .f32⟩
  | 124 => ⟨S128x32x100, .f32⟩
  | 125 => ⟨S128x32x100, .i1⟩
  | 126 => ⟨S_, .f32⟩
  | 127 => ⟨S128x32x100, .f32⟩
  | _ => ⟨S8x128x64x160, .f32⟩

abbrev hbmTy0_2 (i : Nat) : BufTy := match i % 128 with
  | 0 => ⟨S128x32x100, .i1⟩
  | 1 => ⟨S128x32x100, .i1⟩
  | 2 => ⟨S_, .f32⟩
  | 3 => ⟨S128x32x100, .f32⟩
  | 4 => ⟨S128x32x100, .i1⟩
  | 5 => ⟨S128x32x100, .i1⟩
  | 6 => ⟨S_, .f32⟩
  | 7 => ⟨S128x32x100, .f32⟩
  | 8 => ⟨S128x32x100, .i1⟩
  | 9 => ⟨S128x32x100, .i1⟩
  | 10 => ⟨S_, .i32⟩
  | 11 => ⟨S_, .i32⟩
  | 12 => ⟨S_, .f32⟩
  | 13 => ⟨S128x32x100, .f32⟩
  | 14 => ⟨S128x32x100, .f32⟩
  | 15 => ⟨S_, .f32⟩
  | 16 => ⟨S128x32x100, .f32⟩
  | 17 => ⟨S128x32x100, .f32⟩
  | 18 => ⟨S128x32x100, .i32⟩
  | 19 => ⟨S_, .i32⟩
  | 20 => ⟨S_, .i32⟩
  | 21 => ⟨S_, .f32⟩
  | 22 => ⟨S128x32x100, .f32⟩
  | 23 => ⟨S128x32x100, .f32⟩
  | 24 => ⟨S_, .f32⟩
  | 25 => ⟨S128x32x100, .f32⟩
  | 26 => ⟨S128x32x100, .f32⟩
  | 27 => ⟨S128x32x100, .i32⟩
  | 28 => ⟨S_, .i32⟩
  | 29 => ⟨S128x1x1, .i32⟩
  | 30 => ⟨S128x1x1, .i1⟩
  | 31 => ⟨S_, .i32⟩
  | 32 => ⟨S128x1x1, .i32⟩
  | 33 => ⟨S128x1x1, .i32⟩
  | 34 => ⟨S128x1x1, .i32⟩
  | 35 => ⟨S_, .i32⟩
  | 36 => ⟨S128x32x100, .i32⟩
  | 37 => ⟨S128x32x100, .i1⟩
  | 38 => ⟨S_, .i32⟩
  | 39 => ⟨S128x32x100, .i32⟩
  | 40 => ⟨S128x32x100, .i32⟩
  | 41 => ⟨S128x32x100, .i32⟩
  | 42 => ⟨S_, .i32⟩
  | 43 => ⟨S128x32x100, .i32⟩
  | 44 => ⟨S128x32x100, .i1⟩
  | 45 => ⟨S_, .i32⟩
  | 46 => ⟨S128x32x100, .i32⟩
  | 47 => ⟨S128x32x100, .i32⟩
  | 48 => ⟨S128x32x100, .i32⟩
  | 49 => ⟨S128x32x100, .i32⟩
  | 50 => ⟨S128x32x100x1, .i32⟩
  | 51 => ⟨S128x32x100x1, .i32⟩
  | 52 => ⟨S128x32x100x1, .i32⟩
  | 53 => ⟨S128x32x100x3, .i32⟩
  | 54 => ⟨S128x32x100x128, .f32⟩
  | 55 => ⟨S128x32x100x1, .i1⟩
  | 56 => ⟨S128x32x100x1, .f32⟩
  | 57 => ⟨S128x32x100x128, .f32⟩
  | 58 => ⟨S128x32x100x128, .f32⟩
  | 59 => ⟨S128x32x100x128, .f32⟩
  | 60 => ⟨S128x32x100x128, .f32⟩
  | 61 => ⟨S128x32x100x128, .f32⟩
  | 62 => ⟨S128x128x32x100, .f32⟩
  | _ => ⟨S8x128x64x160, .f32⟩

abbrev hbmTy (i : Nat) : BufTy := match i / 128 with
  | 0 => hbmTy0_0 i
  | 1 => hbmTy0_1 i
  | 2 => hbmTy0_2 i
  | _ => ⟨S8x128x64x160, .f32⟩

abbrev bufTy : (tb : Table) → Fin (tcTables nBuf tb) → BufTy
  | .hbm, ⟨i, _⟩ => hbmTy i
  | _, _ => ⟨S8x128x64x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c : Ref sig .tc := ⟨.hbm, 66, rfl⟩
abbrev main_c_11 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_c_13 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v52 : Ref sig .tc := ⟨.hbm, 82, rfl⟩
abbrev main_v53 : Ref sig .tc := ⟨.hbm, 83, rfl⟩
abbrev main_c_14 : Ref sig .tc := ⟨.hbm, 84, rfl⟩
abbrev main_v54 : Ref sig .tc := ⟨.hbm, 85, rfl⟩
abbrev main_v55 : Ref sig .tc := ⟨.hbm, 86, rfl⟩
abbrev main_c_15 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_16 : Ref sig .tc := ⟨.hbm, 91, rfl⟩
abbrev main_v59 : Ref sig .tc := ⟨.hbm, 92, rfl⟩
abbrev main_v60 : Ref sig .tc := ⟨.hbm, 93, rfl⟩
abbrev main_c_17 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_18 : Ref sig .tc := ⟨.hbm, 98, rfl⟩
abbrev main_v64 : Ref sig .tc := ⟨.hbm, 99, rfl⟩
abbrev main_v65 : Ref sig .tc := ⟨.hbm, 100, rfl⟩
abbrev main_c_19 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_20 : Ref sig .tc := ⟨.hbm, 117, rfl⟩
abbrev main_v81 : Ref sig .tc := ⟨.hbm, 118, rfl⟩
abbrev main_v82 : Ref sig .tc := ⟨.hbm, 119, rfl⟩
abbrev main_cst_21 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_22 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_23 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_24 : Ref sig .tc := ⟨.hbm, 132, rfl⟩
abbrev main_c_25 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_v92 : Ref sig .tc := ⟨.hbm, 139, rfl⟩
abbrev main_v93 : Ref sig .tc := ⟨.hbm, 140, rfl⟩
abbrev main_c_26 : Ref sig .tc := ⟨.hbm, 141, rfl⟩
abbrev main_c_27 : Ref sig .tc := ⟨.hbm, 142, rfl⟩
abbrev main_call3_v0 : Ref sig .tc := ⟨.hbm, 143, rfl⟩
abbrev main_call3_v1 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_v94 : Ref sig .tc := ⟨.hbm, 148, rfl⟩
abbrev main_v95 : Ref sig .tc := ⟨.hbm, 149, rfl⟩
abbrev main_c_28 : Ref sig .tc := ⟨.hbm, 150, rfl⟩
abbrev main_v96 : Ref sig .tc := ⟨.hbm, 151, rfl⟩
abbrev main_v97 : Ref sig .tc := ⟨.hbm, 152, rfl⟩
abbrev main_c_29 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_c_30 : Ref sig .tc := ⟨.hbm, 157, rfl⟩
abbrev main_v101 : Ref sig .tc := ⟨.hbm, 158, rfl⟩
abbrev main_v102 : Ref sig .tc := ⟨.hbm, 159, rfl⟩
abbrev main_c_31 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_c_32 : Ref sig .tc := ⟨.hbm, 164, rfl⟩
abbrev main_v106 : Ref sig .tc := ⟨.hbm, 165, rfl⟩
abbrev main_v107 : Ref sig .tc := ⟨.hbm, 166, rfl⟩
abbrev main_c_33 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_cst_34 : Ref sig .tc := ⟨.hbm, 184, rfl⟩
abbrev main_v124 : Ref sig .tc := ⟨.hbm, 185, rfl⟩
abbrev main_v125 : Ref sig .tc := ⟨.hbm, 186, rfl⟩
abbrev main_cst_35 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_36 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_cst_37 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_c_38 : Ref sig .tc := ⟨.hbm, 199, rfl⟩
abbrev main_c_39 : Ref sig .tc := ⟨.hbm, 200, rfl⟩
abbrev main_call4_v0 : Ref sig .tc := ⟨.hbm, 201, rfl⟩
abbrev main_call4_v1 : Ref sig .tc := ⟨.hbm, 202, rfl⟩
abbrev main_call4_v2 : Ref sig .tc := ⟨.hbm, 203, rfl⟩
abbrev main_call4_v3 : Ref sig .tc := ⟨.hbm, 204, rfl⟩
abbrev main_call4_v4 : Ref sig .tc := ⟨.hbm, 205, rfl⟩
abbrev main_v135 : Ref sig .tc := ⟨.hbm, 206, rfl⟩
abbrev main_v136 : Ref sig .tc := ⟨.hbm, 207, rfl⟩
abbrev main_c_40 : Ref sig .tc := ⟨.hbm, 208, rfl⟩
abbrev main_c_41 : Ref sig .tc := ⟨.hbm, 209, rfl⟩
abbrev main_call5_v0 : Ref sig .tc := ⟨.hbm, 210, rfl⟩
abbrev main_call5_v1 : Ref sig .tc := ⟨.hbm, 211, rfl⟩
abbrev main_call5_v2 : Ref sig .tc := ⟨.hbm, 212, rfl⟩
abbrev main_call5_v3 : Ref sig .tc := ⟨.hbm, 213, rfl⟩
abbrev main_call5_v4 : Ref sig .tc := ⟨.hbm, 214, rfl⟩
abbrev main_v137 : Ref sig .tc := ⟨.hbm, 215, rfl⟩
abbrev main_v138 : Ref sig .tc := ⟨.hbm, 216, rfl⟩
abbrev main_c_42 : Ref sig .tc := ⟨.hbm, 217, rfl⟩
abbrev main_v139 : Ref sig .tc := ⟨.hbm, 218, rfl⟩
abbrev main_v140 : Ref sig .tc := ⟨.hbm, 219, rfl⟩
abbrev main_c_43 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_c_44 : Ref sig .tc := ⟨.hbm, 224, rfl⟩
abbrev main_v144 : Ref sig .tc := ⟨.hbm, 225, rfl⟩
abbrev main_v145 : Ref sig .tc := ⟨.hbm, 226, rfl⟩
abbrev main_c_45 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_c_46 : Ref sig .tc := ⟨.hbm, 231, rfl⟩
abbrev main_v149 : Ref sig .tc := ⟨.hbm, 232, rfl⟩
abbrev main_v150 : Ref sig .tc := ⟨.hbm, 233, rfl⟩
abbrev main_c_47 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_cst_48 : Ref sig .tc := ⟨.hbm, 251, rfl⟩
abbrev main_v167 : Ref sig .tc := ⟨.hbm, 252, rfl⟩
abbrev main_v168 : Ref sig .tc := ⟨.hbm, 253, rfl⟩
abbrev main_cst_49 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_cst_50 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_cst_51 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_c_52 : Ref sig .tc := ⟨.hbm, 266, rfl⟩
abbrev main_c_53 : Ref sig .tc := ⟨.hbm, 267, rfl⟩
abbrev main_call6_v0 : Ref sig .tc := ⟨.hbm, 268, rfl⟩
abbrev main_call6_v1 : Ref sig .tc := ⟨.hbm, 269, rfl⟩
abbrev main_call6_v2 : Ref sig .tc := ⟨.hbm, 270, rfl⟩
abbrev main_call6_v3 : Ref sig .tc := ⟨.hbm, 271, rfl⟩
abbrev main_call6_v4 : Ref sig .tc := ⟨.hbm, 272, rfl⟩
abbrev main_v178 : Ref sig .tc := ⟨.hbm, 273, rfl⟩
abbrev main_v179 : Ref sig .tc := ⟨.hbm, 274, rfl⟩
abbrev main_c_54 : Ref sig .tc := ⟨.hbm, 275, rfl⟩
abbrev main_c_55 : Ref sig .tc := ⟨.hbm, 276, rfl⟩
abbrev main_call7_v0 : Ref sig .tc := ⟨.hbm, 277, rfl⟩
abbrev main_call7_v1 : Ref sig .tc := ⟨.hbm, 278, rfl⟩
abbrev main_call7_v2 : Ref sig .tc := ⟨.hbm, 279, rfl⟩
abbrev main_call7_v3 : Ref sig .tc := ⟨.hbm, 280, rfl⟩
abbrev main_call7_v4 : Ref sig .tc := ⟨.hbm, 281, rfl⟩
abbrev main_v180 : Ref sig .tc := ⟨.hbm, 282, rfl⟩
abbrev main_v181 : Ref sig .tc := ⟨.hbm, 283, rfl⟩
abbrev main_c_56 : Ref sig .tc := ⟨.hbm, 284, rfl⟩
abbrev main_v182 : Ref sig .tc := ⟨.hbm, 285, rfl⟩
abbrev main_v183 : Ref sig .tc := ⟨.hbm, 286, rfl⟩
abbrev main_c_57 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_c_58 : Ref sig .tc := ⟨.hbm, 291, rfl⟩
abbrev main_v187 : Ref sig .tc := ⟨.hbm, 292, rfl⟩
abbrev main_v188 : Ref sig .tc := ⟨.hbm, 293, rfl⟩
abbrev main_c_59 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_c_60 : Ref sig .tc := ⟨.hbm, 298, rfl⟩
abbrev main_v192 : Ref sig .tc := ⟨.hbm, 299, rfl⟩
abbrev main_v193 : Ref sig .tc := ⟨.hbm, 300, rfl⟩
abbrev main_c_61 : Ref sig .tc := ⟨.hbm, 301, rfl⟩
abbrev main_v194 : Ref sig .tc := ⟨.hbm, 302, rfl⟩
abbrev main_v195 : Ref sig .tc := ⟨.hbm, 303, rfl⟩
abbrev main_v196 : Ref sig .tc := ⟨.hbm, 304, rfl⟩
abbrev main_v197 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_v205 : Ref sig .tc := ⟨.hbm, 313, rfl⟩
abbrev main_v206 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩

abbrev nD : Nat := 1
abbrev τ : Topo := Topo.v7x

variable {F : FTy → Type} [FloatOps F]

class Facts₀ : Prop where
  slices_S128x32x100x2_S128x32x100x1_0_0_0_0 : S128x32x100x2.Slices ![0, 0, 0, 0] S128x32x100x1
  shapeCasts_S128x32x100x1_S128x32x100 : S128x32x100x1.ShapeCasts S128x32x100
  bcast_S_S128x32x100 : S_.BroadcastsInDim S128x32x100 (![] : Fin 0 → Fin S128x32x100.rank)
  slices_S128x32x100x2_S128x32x100x1_0_0_0_1 : S128x32x100x2.Slices ![0, 0, 0, 1] S128x32x100x1
  bcast_S128_S128x1x1_0 : S128.BroadcastsInDim S128x1x1 (![0] : Fin 1 → Fin S128x1x1.rank)
  bcast_S128x32x100_S128x32x100x1_0_1_2 : S128x32x100.BroadcastsInDim S128x32x100x1 (![0, 1, 2] : Fin 3 → Fin S128x32x100x1.rank)
  bcast_S_S128x1x1 : S_.BroadcastsInDim S128x1x1 (![] : Fin 0 → Fin S128x1x1.rank)
  bcast_S128x1x1_S128x32x100_0_1_2 : S128x1x1.BroadcastsInDim S128x32x100 (![0, 1, 2] : Fin 3 → Fin S128x32x100.rank)
  concatenates_S128x32x100x1_S128x32x100x1_S128x32x100x1_S128x32x100x3_d3 : Shape.Concatenates [S128x32x100x1, S128x32x100x1, S128x32x100x1] S128x32x100x3 3
  bcast_S128x32x100x1_S128x32x100x128_0_1_2_3 : S128x32x100x1.BroadcastsInDim S128x32x100x128 (![0, 1, 2, 3] : Fin 4 → Fin S128x32x100x128.rank)
  transposes_S128x32x100x128_S128x128x32x100_0_3_1_2 : S128x32x100x128.Transposes [0, 3, 1, 2] S128x128x32x100
  gather_S8x128x64x160_S128x32x100x3_S128x32x100x128_3_023_n_n_023_3_112811_wf : GatherDims.WF S8x128x64x160 S128x32x100x3 S128x32x100x128 [3] [0, 2, 3] [] [0, 2, 3] [] 3 ![1, 128, 1, 1]

variable [Facts₀]

def gather_S8x128x64x160_S128x32x100x3_S128x32x100x128_3_023_n_n_023_3_112811 : GatherDims S8x128x64x160 S128x32x100x3 S128x32x100x128 where
  offsetDims := [3]
  collapsedSliceDims := [0, 2, 3]
  operandBatchingDims := []
  startIndicesBatchingDims := []
  startIndexMap := [0, 2, 3]
  indexVectorDim := 3
  sliceSizes := ![1, 128, 1, 1]
  wf := gather_S8x128x64x160_S128x32x100x3_S128x32x100x128_3_023_n_n_023_3_112811_wf

class Facts : Prop extends Facts₀ where

variable [Facts]
-- ==== Proof.Spec.lean ====
/-
  Bilinear sampling of a [64 x 160] image at one query point, over the reals, in the two arrangements the two
  programs use, and the result array both programs are shown to hold.

  A query's normalised coordinates (gx, gy) in the plane become pixel coordinates tx = (gx + 1)·80 − 1/2 and
  ty = (gy + 1)·32 − 1/2. With x0 = ⌊tx⌋, x1 = x0 + 1 (and y0, y1 likewise) the sample is the sum over the four
  corners (yc, xc) of  image[clamp yc, clamp xc] · [xc and yc inside the image] · wx(xc) · wy(yc),  where
  wx(x0) = x1 − tx, wx(x1) = tx − x0 (and the same for y). That is the FOUR-CORNER form.

  The weight of a corner is a product of a factor that depends on the column only and one that depends on the row
  only, and so is "inside": so the same number is  Σ_h (Σ_w image[h, w] · tapx(w)) · tapy(h)  where the tap of
  position p on an axis is the sum of the weights of the (at most two) corners that clamp to p. That is the
  SEPARABLE form. When two corners clamp to one position (only at the border) their taps add at that position;
  by linearity of the sum over positions the separable form is still the sum of the four corner terms.
-/
import Idealize.ShloMosaic.PureOps.Ideal
import Idealize.ShloMosaic.Lib.ValueIdx

noncomputable section

open scoped BigOperators

namespace Cert.Bilinear

open Idealize.ShloMosaic Idealize.ShloMosaic.ValueIdx

/-- The pixel coordinate of a normalised coordinate `g` on an axis of half-extent `s`: `(g + 1)·s − 1/2`. -/
def pix (s g : ℝ) : ℝ := (g + 1) * s - 1 / 2

/-- The integer pixel `z` lies on an axis whose last position is `n`. -/
def inside (n : ℕ) (z : ℤ) : Prop := 0 ≤ z ∧ z ≤ (n : ℤ)

instance (n : ℕ) (z : ℤ) : Decidable (inside n z) := by unfold inside; infer_instance

/-- The integer pixel `z` clamped onto the axis `0 … n`, as a natural number. -/
def clampN (n : ℕ) (z : ℤ) : ℕ := (max 0 (min (n : ℤ) z)).toNat

theorem clampN_le (n : ℕ) (z : ℤ) : clampN n z ≤ n := by
  unfold clampN
  omega

/-- The weight the pixel coordinate `t` puts on its lower neighbour `⌊t⌋` (zero when that neighbour is off the axis). -/
def wLo (n : ℕ) (t : ℝ) : ℝ := if inside n ⌊t⌋ then ((⌊t⌋ : ℝ) + 1 - t) else 0
/-- The weight it puts on its upper neighbour `⌊t⌋ + 1` (zero when that neighbour is off the axis). -/
def wHi (n : ℕ) (t : ℝ) : ℝ := if inside n (⌊t⌋ + 1) then (t - (⌊t⌋ : ℝ)) else 0

/-- The TAP of position `p` of an axis `0 … n` for the pixel coordinate `t`: the weight of each of the two
    neighbours of `t` that clamps to `p`. -/
def tap (n : ℕ) (t : ℝ) (p : ℕ) : ℝ :=
  (if p = clampN n ⌊t⌋ then wLo n t else 0) + (if p = clampN n (⌊t⌋ + 1) then wHi n t else 0)

/-- THE SEPARABLE FORM: columns contracted first against the column taps, then rows against the row taps. -/
def sepForm (v : ℕ → ℕ → ℝ) (tx ty : ℝ) : ℝ :=
  ∑ h : Fin 64, (∑ w : Fin 160, v h.val w.val * tap 159 tx w.val) * tap 63 ty h.val

/-- One corner's pixel: the image at the clamped corner, times 1 or 0 as the corner is inside the image or not. -/
def corner (v : ℕ → ℕ → ℝ) (zy zx : ℤ) : ℝ :=
  v (clampN 63 zy) (clampN 159 zx) * (if inside 159 zx ∧ inside 63 zy then 1 else 0)

/-- THE FOUR-CORNER FORM. -/
def cornerForm (v : ℕ → ℕ → ℝ) (tx ty : ℝ) : ℝ :=
  corner v ⌊ty⌋ ⌊tx⌋ * (((⌊tx⌋ : ℝ) + 1 - tx) * ((⌊ty⌋ : ℝ) + 1 - ty))
  + corner v ⌊ty⌋ (⌊tx⌋ + 1) * ((tx - (⌊tx⌋ : ℝ)) * ((⌊ty⌋ : ℝ) + 1 - ty))
  + corner v (⌊ty⌋ + 1) ⌊tx⌋ * (((⌊tx⌋ : ℝ) + 1 - tx) * (ty - (⌊ty⌋ : ℝ)))
  + corner v (⌊ty⌋ + 1) (⌊tx⌋ + 1) * ((tx - (⌊tx⌋ : ℝ)) * (ty - (⌊ty⌋ : ℝ)))

/-! ## The result array -/

/-- The feature map, the sampling grids, the per-instance image numbers and the result, by their extents. -/
abbrev SFeat : Shape := ⟨4, ![8, 128, 64, 160]⟩
abbrev SGrid : Shape := ⟨4, ![128, 32, 100, 2]⟩
abbrev SIdx : Shape := ⟨1, ![128]⟩
abbrev SOut : Shape := ⟨4, ![128, 128, 32, 100]⟩

/-- Image `b`, channel `c` of the feature map as a real-valued function of (row, column); zero off the image. -/
def img (fm : SFeat.Idx → EReal) (b : Fin 8) (c : Fin 128) (h w : ℕ) : ℝ :=
  if hh : h < 64 ∧ w < 160 then (fm (ix4 b c ⟨h, hh.1⟩ ⟨w, hh.2⟩)).toReal else 0

/-- The image number of instance `n`: its word read unsigned (taken below 8; under the precondition it is). -/
def imgOf (bi : SIdx.Idx → BitVec 32) (n : Fin 128) : Fin 8 := ⟨(bi (ix1 n)).toNat % 8, Nat.mod_lt _ (by decide)⟩

/-- THE RESULT: element (n, c, gh, gw) is channel `c` of image `imgOf n` sampled bilinearly at the grid point
    (gh, gw) of instance `n`. -/
def G (fm : SFeat.Idx → EReal) (gr : SGrid.Idx → EReal) (bi : SIdx.Idx → BitVec 32) : SOut.Idx → EReal :=
  fun j => ((cornerForm (img fm (imgOf bi (j 0)) (j 1))
      (pix 80 (gr (ix4 (j 0) (j 2) (j 3) (0 : Fin 2))).toReal)
      (pix 32 (gr (ix4 (j 0) (j 2) (j 3) (1 : Fin 2))).toReal) : ℝ) : EReal)

end Cert.Bilinear

end
-- ==== Proof.RefLane.lean ====
/-
  The reference's per-query quantities, read at one query (n, gh, gw), at the extended reals, for finite grids:
  the pixel coordinates tx = (gx + 1)·80 − 1/2 and ty = (gy + 1)·32 − 1/2, their floors and the floors plus one, the
  four products of a column weight and a row weight, the four "corner inside the image" bits, and the eight clamped
  corner positions as 32-bit words.
-/
import proofs.«401064_j4922032521570_3_alg».proof.Proof.RefRead
import proofs.«401064_j4922032521570_3_alg».proof.Proof.Spec

noncomputable section

namespace Cert.ReferenceIdeal.RefValue

open Cert.ReferenceIdeal Cert.ReferenceIdeal.ReadP Idealize.ShloMosaic Idealize.ShloMosaic.ValueIdx Cert.Bilinear

/-! ## Facts about single numbers

The constants the program spells, as reals; the coordinate formula, the floor plus one and the two differences with the
coercion from the reals pushed outward; an order compare of two integer-valued numbers as the compare of the integers;
the clip of an integer-valued number onto 0 … n, which is again an integer, and its conversion to a 32-bit word. -/

theorem c_one : Ideal.ofBits .f32 0x3F800000#32 = ((1 : ℝ) : EReal) := by
  simp [Ideal.ofBits, Ideal.ieee, -EReal.coe_mul]; norm_num
theorem c_80 : Ideal.ofBits .f32 0x42A00000#32 = ((80 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_32 : Ideal.ofBits .f32 0x42000000#32 = ((32 : ℝ) : EReal) := by
  simp [Ideal.ofBits, Ideal.ieee, -EReal.coe_mul]; norm_num
theorem c_159 : Ideal.ofBits .f32 0x431F0000#32 = ((159 : ℝ) : EReal) := by
  simp [Ideal.ofBits, Ideal.ieee, -EReal.coe_mul]; norm_num
theorem c_63 : Ideal.ofBits .f32 0x427C0000#32 = ((63 : ℝ) : EReal) := by
  simp [Ideal.ofBits, Ideal.ieee, -EReal.coe_mul]; norm_num
theorem c_zero : Ideal.ofBits .f32 0x00000000#32 = ((0 : ℝ) : EReal) := by
  simp [Ideal.ofBits, Ideal.ieee]

/-- (g + 1)·s − 1/2 computed at the extended reals from a real g is the real pixel coordinate. -/
theorem pix_coe (s g : ℝ) :
    ((g : EReal) + ((1 : ℝ) : EReal)) * ((s : ℝ) : EReal) - ((1 / 2 : ℝ) : EReal) = ((pix s g : ℝ) : EReal) := by
  rw [pix, EReal.coe_sub, EReal.coe_mul, EReal.coe_add]

/-- An integer plus one, added as numbers, is the next integer. -/
theorem succ_coe (z : ℤ) : (((z : ℤ) : ℝ) : EReal) + ((1 : ℝ) : EReal) = (((z + 1 : ℤ) : ℝ) : EReal) := by
  rw [← EReal.coe_add, Int.cast_add, Int.cast_one]

/-- The upper neighbour minus the coordinate. -/
theorem hi_sub (z : ℤ) (t : ℝ) : (((z + 1 : ℤ) : ℝ) : EReal) - (t : EReal) = ((((z : ℤ) : ℝ) + 1 - t : ℝ) : EReal) := by
  rw [← EReal.coe_sub, Int.cast_add, Int.cast_one]

/-- The coordinate minus the lower neighbour. -/
theorem lo_sub (z : ℤ) (t : ℝ) : (t : EReal) - (((z : ℤ) : ℝ) : EReal) = ((t - ((z : ℤ) : ℝ) : ℝ) : EReal) :=
  (EReal.coe_sub _ _).symm

/-- "z ≥ k" on integer-valued numbers is the integer compare. -/
theorem cmpz_ge (z k : ℤ) :
    Ideal.cmp .oge (((z : ℤ) : ℝ) : EReal) (((k : ℤ) : ℝ) : EReal) = BitVec.ofBool (decide (k ≤ z)) := by
  show BitVec.ofBool (decide ((((k : ℤ) : ℝ) : EReal) ≤ (((z : ℤ) : ℝ) : EReal))) = _
  congr 1
  rw [decide_eq_decide, EReal.coe_le_coe_iff, Int.cast_le]

/-- "z ≤ k" on integer-valued numbers is the integer compare. -/
theorem cmpz_le (z k : ℤ) :
    Ideal.cmp .ole (((z : ℤ) : ℝ) : EReal) (((k : ℤ) : ℝ) : EReal) = BitVec.ofBool (decide (z ≤ k)) := by
  show BitVec.ofBool (decide ((((z : ℤ) : ℝ) : EReal) ≤ (((k : ℤ) : ℝ) : EReal))) = _
  congr 1
  rw [decide_eq_decide, EReal.coe_le_coe_iff, Int.cast_le]

/-- The bitwise "and" of two truth bits is the bit of the conjunction. -/
theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

/-- The four compares of one corner, conjoined in the order the program conjoins them
    ((column ≥ 0 and column ≤ 159) and row ≥ 0) and row ≤ 63, say that the corner is inside the image. -/
theorem inside_bits (zx zy : ℤ) :
    IntOp.andi (IntOp.andi (IntOp.andi
        (Ideal.cmp .oge (((zx : ℤ) : ℝ) : EReal) ((0 : ℝ) : EReal))
        (Ideal.cmp .ole (((zx : ℤ) : ℝ) : EReal) ((159 : ℝ) : EReal)))
        (Ideal.cmp .oge (((zy : ℤ) : ℝ) : EReal) ((0 : ℝ) : EReal)))
        (Ideal.cmp .ole (((zy : ℤ) : ℝ) : EReal) ((63 : ℝ) : EReal))
      = BitVec.ofBool (decide (inside 159 zx ∧ inside 63 zy)) := by
  have h0 : ((0 : ℝ) : EReal) = (((0 : ℤ) : ℝ) : EReal) := by rw [Int.cast_zero]
  have h159 : ((159 : ℝ) : EReal) = (((159 : ℤ) : ℝ) : EReal) := by rw [Int.cast_ofNat]
  have h63 : ((63 : ℝ) : EReal) = (((63 : ℤ) : ℝ) : EReal) := by rw [Int.cast_ofNat]
  rw [h0, h159, h63, cmpz_ge, cmpz_le, cmpz_ge, cmpz_le, andi_ofBool, andi_ofBool, andi_ofBool]
  congr 1
  rw [decide_eq_decide]
  unfold inside
  omega

/-- The clip of an integer z onto 0 … n, min n (max 0 z), is the clamped integer (a natural number). -/
theorem clip_eq (n : ℕ) (z : ℤ) :
    min ((n : ℝ) : EReal) (max ((0 : ℝ) : EReal) (((z : ℤ) : ℝ) : EReal)) = (((clampN n z : ℕ) : ℝ) : EReal) := by
  have h1 : max ((0 : ℝ) : EReal) (((z : ℤ) : ℝ) : EReal) = ((max (0 : ℝ) (z : ℝ) : ℝ) : EReal) :=
    (EReal.coe_strictMono.monotone.map_max).symm
  rw [h1, ← EReal.coe_strictMono.monotone.map_min]
  congr 1
  have h2 : ((clampN n z : ℕ) : ℤ) = min (n : ℤ) (max 0 z) := by unfold clampN; omega
  rw [← Int.cast_natCast (R := ℝ) (clampN n z), h2]
  push_cast
  rfl

/-- A natural number below 2^31, converted to a signed 32-bit word: rounding toward zero leaves it, the clamp to the
    word's range leaves it, and the word of a natural number is that number. -/
theorem fptosi_nat (m : ℕ) (hm : m < 2 ^ 31) : Ideal.fptosi 32 (((m : ℝ)) : EReal) = BitVec.ofNat 32 m := by
  rw [Ideal.fptosi, Ideal.toIntClamped_coe, if_pos (Nat.cast_nonneg m)]
  have : ⌊(m : ℝ)⌋ = (m : ℤ) := Int.floor_natCast m
  rw [this, ← BitVec.ofInt_natCast]
  congr 1
  omega

/-- The clip of an integer-valued number onto 0 … n, converted to a word, is the clamped integer. -/
theorem clip_word (n : ℕ) (hn : n < 2 ^ 31) (z : ℤ) :
    Ideal.fptosi 32 (min ((n : ℝ) : EReal) (max ((0 : ℝ) : EReal) (((z : ℤ) : ℝ) : EReal)))
      = BitVec.ofNat 32 (clampN n z) := by
  rw [clip_eq, fptosi_nat _ (lt_of_le_of_lt (clampN_le n z) hn)]

/-- The words 0, 159 and 63 read as signed numbers. -/
theorem sitofp_0 : FloatOps.sitofp (F := Ideal) .f32 (0#32) = ((0 : ℝ) : EReal) := by
  show ((((0#32 : BitVec 32).toInt : ℤ) : ℝ) : EReal) = _
  have h : (0#32 : BitVec 32).toInt = 0 := by decide
  rw [h, Int.cast_zero]
theorem sitofp_159 : FloatOps.sitofp (F := Ideal) .f32 (159#32) = (((159 : ℕ) : ℝ) : EReal) := by
  show ((((159#32 : BitVec 32).toInt : ℤ) : ℝ) : EReal) = _
  have h : (159#32 : BitVec 32).toInt = ((159 : ℕ) : ℤ) := by decide
  rw [h, Int.cast_natCast]
theorem sitofp_63 : FloatOps.sitofp (F := Ideal) .f32 (63#32) = (((63 : ℕ) : ℝ) : EReal) := by
  show ((((63#32 : BitVec 32).toInt : ℤ) : ℝ) : EReal) = _
  have h : (63#32 : BitVec 32).toInt = ((63 : ℕ) : ℤ) := by decide
  rw [h, Int.cast_natCast]

/-! ## Where a query's two grid numbers sit

The column coordinate of query (n, gh, gw) is read through a slice of the last axis at 0 and a reshape that drops that
axis; in row-major order the reshape sends (n, gh, gw) to (n, gh, gw, 0), so the element read is (n, gh, gw, 0) of the
grids. Likewise the row coordinate is element (n, gh, gw, 1). -/

theorem idx_x (n : Fin 128) (gh : Fin 32) (gw : Fin 100) :
    idx_main_v0 (idx_main_v1 (ix3 n gh gw)) = ix4 n gh gw (0 : Fin 2) := by
  have hn : n.val < 128 := n.isLt
  have hh : gh.val < 32 := gh.isLt
  have hw : gw.val < 100 := gw.isLt
  funext a
  match a with
  | ⟨0, _⟩ => exact Fin.ext (by show ((n.val * 32 + gh.val) * 100 + gw.val) / 3200 = n.val; omega)
  | ⟨1, _⟩ => exact Fin.ext (by show ((n.val * 32 + gh.val) * 100 + gw.val) / 100 % 32 = gh.val; omega)
  | ⟨2, _⟩ => exact Fin.ext (by show ((n.val * 32 + gh.val) * 100 + gw.val) / 1 % 100 = gw.val; omega)
  | ⟨3, _⟩ => exact Fin.ext (by show (0 : Nat) = 0; rfl)

theorem idx_y (n : Fin 128) (gh : Fin 32) (gw : Fin 100) :
    idx_main_v8 (idx_main_v9 (ix3 n gh gw)) = ix4 n gh gw (1 : Fin 2) := by
  have hn : n.val < 128 := n.isLt
  have hh : gh.val < 32 := gh.isLt
  have hw : gw.val < 100 := gw.isLt
  funext a
  match a with
  | ⟨0, _⟩ => exact Fin.ext (by show ((n.val * 32 + gh.val) * 100 + gw.val) / 3200 = n.val; omega)
  | ⟨1, _⟩ => exact Fin.ext (by show ((n.val * 32 + gh.val) * 100 + gw.val) / 100 % 32 = gh.val; omega)
  | ⟨2, _⟩ => exact Fin.ext (by show ((n.val * 32 + gh.val) * 100 + gw.val) / 1 % 100 = gw.val; omega)
  | ⟨3, _⟩ => exact Fin.ext (by show 1 + (0 : Nat) = 1; rfl)

/-- Query (n, gh, gw)'s pixel coordinates. -/
def tx (gr : FVec Ideal S128x32x100x2 .f32) (n : Fin 128) (gh : Fin 32) (gw : Fin 100) : ℝ :=
  pix 80 (gr (ix4 n gh gw (0 : Fin 2))).toReal
def ty (gr : FVec Ideal S128x32x100x2 .f32) (n : Fin 128) (gh : Fin 32) (gw : Fin 100) : ℝ :=
  pix 32 (gr (ix4 n gh gw (1 : Fin 2))).toReal

variable (gr : FVec Ideal S128x32x100x2 .f32) (hg : ∀ i, ∃ r : ℝ, gr i = (r : EReal))
variable (n : Fin 128) (gh : Fin 32) (gw : Fin 100)
include hg

/-! ## The pixel coordinates, their floors, and the floors plus one -/

theorem v7_at : val_main_v7 (F := Ideal) gr (ix3 n gh gw) = ((tx gr n gh gw : ℝ) : EReal) := by
  obtain ⟨r, hr⟩ := hg (ix4 n gh gw (0 : Fin 2))
  rw [val_main_v7_apply, val_main_v5_apply, val_main_v3_apply, val_main_v1_apply, val_main_v0_apply, idx_x,
    val_main_v2_apply, val_main_cst_apply, val_main_v4_apply, val_main_cst_0_apply, val_main_v6_apply,
    val_main_cst_1_apply, Ideal.subf_def, Ideal.mulf_def, Ideal.addf_def, Ideal.ofBits_def, Ideal.ofBits_def,
    Ideal.ofBits_def, c_one, c_80, c_half, tx, hr, EReal.toReal_coe, pix_coe]
theorem v15_at : val_main_v15 (F := Ideal) gr (ix3 n gh gw) = ((ty gr n gh gw : ℝ) : EReal) := by
  obtain ⟨r, hr⟩ := hg (ix4 n gh gw (1 : Fin 2))
  rw [val_main_v15_apply, val_main_v13_apply, val_main_v11_apply, val_main_v9_apply, val_main_v8_apply, idx_y,
    val_main_v10_apply, val_main_cst_2_apply, val_main_v12_apply, val_main_cst_3_apply, val_main_v14_apply,
    val_main_cst_4_apply, Ideal.subf_def, Ideal.mulf_def, Ideal.addf_def, Ideal.ofBits_def, Ideal.ofBits_def,
    Ideal.ofBits_def, c_one, c_32, c_half, ty, hr, EReal.toReal_coe, pix_coe]
theorem v16_at : val_main_v16 (F := Ideal) gr (ix3 n gh gw) = (((⌊tx gr n gh gw⌋ : ℤ) : ℝ) : EReal) := by
  rw [val_main_v16_apply, v7_at gr hg, Ideal.hostUnary_floor_def, Ideal.liftRound_coe]
theorem v17_at : val_main_v17 (F := Ideal) gr (ix3 n gh gw) = (((⌊ty gr n gh gw⌋ : ℤ) : ℝ) : EReal) := by
  rw [val_main_v17_apply, v15_at gr hg, Ideal.hostUnary_floor_def, Ideal.liftRound_coe]
theorem v19_at : val_main_v19 (F := Ideal) gr (ix3 n gh gw) = (((⌊tx gr n gh gw⌋ + 1 : ℤ) : ℝ) : EReal) := by
  rw [val_main_v19_apply, v16_at gr hg, val_main_v18_apply, val_main_cst_5_apply, Ideal.addf_def, Ideal.ofBits_def,
    c_one, succ_coe]
theorem v21_at : val_main_v21 (F := Ideal) gr (ix3 n gh gw) = (((⌊ty gr n gh gw⌋ + 1 : ℤ) : ℝ) : EReal) := by
  rw [val_main_v21_apply, v17_at gr hg, val_main_v20_apply, val_main_cst_6_apply, Ideal.addf_def, Ideal.ofBits_def,
    c_one, succ_coe]

/-! ## The four weights: (column weight) · (row weight) -/

/-! The eight differences the weights are made of: upper neighbour minus coordinate, coordinate minus lower neighbour. -/

theorem v23_at : val_main_v23 (F := Ideal) gr (ix3 n gh gw)
    = ((((⌊tx gr n gh gw⌋ : ℤ) : ℝ) + 1 - tx gr n gh gw : ℝ) : EReal) := by
  rw [val_main_v23_apply, v19_at gr hg, v7_at gr hg, Ideal.subf_def, hi_sub]
theorem v24_at : val_main_v24 (F := Ideal) gr (ix3 n gh gw)
    = ((((⌊ty gr n gh gw⌋ : ℤ) : ℝ) + 1 - ty gr n gh gw : ℝ) : EReal) := by
  rw [val_main_v24_apply, v21_at gr hg, v15_at gr hg, Ideal.subf_def, hi_sub]
theorem v27_at : val_main_v27 (F := Ideal) gr (ix3 n gh gw)
    = ((tx gr n gh gw - ((⌊tx gr n gh gw⌋ : ℤ) : ℝ) : ℝ) : EReal) := by
  rw [val_main_v27_apply, v7_at gr hg, v16_at gr hg, Ideal.subf_def, lo_sub]
theorem v28_at : val_main_v28 (F := Ideal) gr (ix3 n gh gw)
    = ((((⌊ty gr n gh gw⌋ : ℤ) : ℝ) + 1 - ty gr n gh gw : ℝ) : EReal) := by
  rw [val_main_v28_apply, v21_at gr hg, v15_at gr hg, Ideal.subf_def, hi_sub]
theorem v31_at : val_main_v31 (F := Ideal) gr (ix3 n gh gw)
    = ((((⌊tx gr n gh gw⌋ : ℤ) : ℝ) + 1 - tx gr n gh gw : ℝ) : EReal) := by
  rw [val_main_v31_apply, v19_at gr hg, v7_at gr hg, Ideal.subf_def, hi_sub]
theorem v32_at : val_main_v32 (F := Ideal) gr (ix3 n gh gw)
    = ((ty gr n gh gw - ((⌊ty gr n gh gw⌋ : ℤ) : ℝ) : ℝ) : EReal) := by
  rw [val_main_v32_apply, v15_at gr hg, v17_at gr hg, Ideal.subf_def, lo_sub]
theorem v35_at : val_main_v35 (F := Ideal) gr (ix3 n gh gw)
    = ((tx gr n gh gw - ((⌊tx gr n gh gw⌋ : ℤ) : ℝ) : ℝ) : EReal) := by
  rw [val_main_v35_apply, v7_at gr hg, v16_at gr hg, Ideal.subf_def, lo_sub]
theorem v36_at : val_main_v36 (F := Ideal) gr (ix3 n gh gw)
    = ((ty gr n gh gw - ((⌊ty gr n gh gw⌋ : ℤ) : ℝ) : ℝ) : EReal) := by
  rw [val_main_v36_apply, v15_at gr hg, v17_at gr hg, Ideal.subf_def, lo_sub]

theorem v25_at : val_main_v25 (F := Ideal) gr (ix3 n gh gw)
    = (((((⌊tx gr n gh gw⌋ : ℤ) : ℝ) + 1 - tx gr n gh gw) * (((⌊ty gr n gh gw⌋ : ℤ) : ℝ) + 1 - ty gr n gh gw) : ℝ) : EReal) := by
  rw [val_main_v25_apply, v23_at gr hg, v24_at gr hg, Ideal.mulf_def, ← EReal.coe_mul]
theorem v29_at : val_main_v29 (F := Ideal) gr (ix3 n gh gw)
    = (((tx gr n gh gw - ((⌊tx gr n gh gw⌋ : ℤ) : ℝ)) * (((⌊ty gr n gh gw⌋ : ℤ) : ℝ) + 1 - ty gr n gh gw) : ℝ) : EReal) := by
  rw [val_main_v29_apply, v27_at gr hg, v28_at gr hg, Ideal.mulf_def, ← EReal.coe_mul]
theorem v33_at : val_main_v33 (F := Ideal) gr (ix3 n gh gw)
    = (((((⌊tx gr n gh gw⌋ : ℤ) : ℝ) + 1 - tx gr n gh gw) * (ty gr n gh gw - ((⌊ty gr n gh gw⌋ : ℤ) : ℝ)) : ℝ) : EReal) := by
  rw [val_main_v33_apply, v31_at gr hg, v32_at gr hg, Ideal.mulf_def, ← EReal.coe_mul]
theorem v37_at : val_main_v37 (F := Ideal) gr (ix3 n gh gw)
    = (((tx gr n gh gw - ((⌊tx gr n gh gw⌋ : ℤ) : ℝ)) * (ty gr n gh gw - ((⌊ty gr n gh gw⌋ : ℤ) : ℝ)) : ℝ) : EReal) := by
  rw [val_main_v37_apply, v35_at gr hg, v36_at gr hg, Ideal.mulf_def, ← EReal.coe_mul]

/-! ## The four "corner inside the image" bits: corner (row, column) = (y0, x0), (y0, x1), (y1, x0), (y1, x1) -/

theorem v49_at : val_main_v49 (F := Ideal) gr (ix3 n gh gw)
    = BitVec.ofBool (decide (inside 159 ⌊tx gr n gh gw⌋ ∧ inside 63 ⌊ty gr n gh gw⌋)) := by
  rw [val_main_v49_apply, val_main_v46_apply, val_main_v43_apply, val_main_v40_apply, val_main_v42_apply,
    val_main_v45_apply, val_main_v48_apply, v16_at gr hg, v17_at gr hg,
    val_main_v39_apply, val_main_cst_7_apply, val_main_v41_apply, val_main_cst_8_apply,
    val_main_v44_apply, val_main_cst_9_apply, val_main_v47_apply, val_main_cst_10_apply,
    Ideal.ofBits_def, Ideal.ofBits_def, Ideal.ofBits_def, c_zero, c_159, c_63]
  exact inside_bits _ _
theorem v91_at : val_main_v91 (F := Ideal) gr (ix3 n gh gw)
    = BitVec.ofBool (decide (inside 159 (⌊tx gr n gh gw⌋ + 1) ∧ inside 63 ⌊ty gr n gh gw⌋)) := by
  rw [val_main_v91_apply, val_main_v88_apply, val_main_v85_apply, val_main_v82_apply, val_main_v84_apply,
    val_main_v87_apply, val_main_v90_apply, v19_at gr hg, v17_at gr hg,
    val_main_v81_apply, val_main_cst_20_apply, val_main_v83_apply, val_main_cst_21_apply,
    val_main_v86_apply, val_main_cst_22_apply, val_main_v89_apply, val_main_cst_23_apply,
    Ideal.ofBits_def, Ideal.ofBits_def, Ideal.ofBits_def, c_zero, c_159, c_63]
  exact inside_bits _ _
theorem v134_at : val_main_v134 (F := Ideal) gr (ix3 n gh gw)
    = BitVec.ofBool (decide (inside 159 ⌊tx gr n gh gw⌋ ∧ inside 63 (⌊ty gr n gh gw⌋ + 1))) := by
  rw [val_main_v134_apply, val_main_v131_apply, val_main_v128_apply, val_main_v125_apply, val_main_v127_apply,
    val_main_v130_apply, val_main_v133_apply, v16_at gr hg, v21_at gr hg,
    val_main_v124_apply, val_main_cst_34_apply, val_main_v126_apply, val_main_cst_35_apply,
    val_main_v129_apply, val_main_cst_36_apply, val_main_v132_apply, val_main_cst_37_apply,
    Ideal.ofBits_def, Ideal.ofBits_def, Ideal.ofBits_def, c_zero, c_159, c_63]
  exact inside_bits _ _
theorem v177_at : val_main_v177 (F := Ideal) gr (ix3 n gh gw)
    = BitVec.ofBool (decide (inside 159 (⌊tx gr n gh gw⌋ + 1) ∧ inside 63 (⌊ty gr n gh gw⌋ + 1))) := by
  rw [val_main_v177_apply, val_main_v174_apply, val_main_v171_apply, val_main_v168_apply, val_main_v170_apply,
    val_main_v173_apply, val_main_v176_apply, v19_at gr hg, v21_at gr hg,
    val_main_v167_apply, val_main_cst_48_apply, val_main_v169_apply, val_main_cst_49_apply,
    val_main_v172_apply, val_main_cst_50_apply, val_main_v175_apply, val_main_cst_51_apply,
    Ideal.ofBits_def, Ideal.ofBits_def, Ideal.ofBits_def, c_zero, c_159, c_63]
  exact inside_bits _ _

/-! ## The eight clamped positions, as words: for each corner its column (0 … 159) and its row (0 … 63) -/

theorem v51_at : val_main_v51 (F := Ideal) gr (ix3 n gh gw) = BitVec.ofNat 32 (clampN 159 ⌊tx gr n gh gw⌋) := by
  rw [val_main_v51_apply, val_main_v50_apply, val_main_call0_v4_apply, val_main_call0_v3_apply, val_main_c_11_apply,
    val_main_call0_v2_apply, val_main_call0_v1_apply, val_main_call0_v0_apply, val_main_c_apply, v16_at gr hg,
    Ideal.minimumf_def, Ideal.maximumf_def, sitofp_159, sitofp_0]
  exact clip_word 159 (by norm_num) _
theorem v53_at : val_main_v53 (F := Ideal) gr (ix3 n gh gw) = BitVec.ofNat 32 (clampN 63 ⌊ty gr n gh gw⌋) := by
  rw [val_main_v53_apply, val_main_v52_apply, val_main_call1_v4_apply, val_main_call1_v3_apply, val_main_c_13_apply,
    val_main_call1_v2_apply, val_main_call1_v1_apply, val_main_call1_v0_apply, val_main_c_12_apply, v17_at gr hg,
    Ideal.minimumf_def, Ideal.maximumf_def, sitofp_63, sitofp_0]
  exact clip_word 63 (by norm_num) _
theorem v93_at : val_main_v93 (F := Ideal) gr (ix3 n gh gw) = BitVec.ofNat 32 (clampN 159 (⌊tx gr n gh gw⌋ + 1)) := by
  rw [val_main_v93_apply, val_main_v92_apply, val_main_call2_v4_apply, val_main_call2_v3_apply, val_main_c_25_apply,
    val_main_call2_v2_apply, val_main_call2_v1_apply, val_main_call2_v0_apply, val_main_c_24_apply, v19_at gr hg,
    Ideal.minimumf_def, Ideal.maximumf_def, sitofp_159, sitofp_0]
  exact clip_word 159 (by norm_num) _
theorem v95_at : val_main_v95 (F := Ideal) gr (ix3 n gh gw) = BitVec.ofNat 32 (clampN 63 ⌊ty gr n gh gw⌋) := by
  rw [val_main_v95_apply, val_main_v94_apply, val_main_call3_v4_apply, val_main_call3_v3_apply, val_main_c_27_apply,
    val_main_call3_v2_apply, val_main_call3_v1_apply, val_main_call3_v0_apply, val_main_c_26_apply, v17_at gr hg,
    Ideal.minimumf_def, Ideal.maximumf_def, sitofp_63, sitofp_0]
  exact clip_word 63 (by norm_num) _
theorem v136_at : val_main_v136 (F := Ideal) gr (ix3 n gh gw) = BitVec.ofNat 32 (clampN 159 ⌊tx gr n gh gw⌋) := by
  rw [val_main_v136_apply, val_main_v135_apply, val_main_call4_v4_apply, val_main_call4_v3_apply, val_main_c_39_apply,
    val_main_call4_v2_apply, val_main_call4_v1_apply, val_main_call4_v0_apply, val_main_c_38_apply, v16_at gr hg,
    Ideal.minimumf_def, Ideal.maximumf_def, sitofp_159, sitofp_0]
  exact clip_word 159 (by norm_num) _
theorem v138_at : val_main_v138 (F := Ideal) gr (ix3 n gh gw) = BitVec.ofNat 32 (clampN 63 (⌊ty gr n gh gw⌋ + 1)) := by
  rw [val_main_v138_apply, val_main_v137_apply, val_main_call5_v4_apply, val_main_call5_v3_apply, val_main_c_41_apply,
    val_main_call5_v2_apply, val_main_call5_v1_apply, val_main_call5_v0_apply, val_main_c_40_apply, v21_at gr hg,
    Ideal.minimumf_def, Ideal.maximumf_def, sitofp_63, sitofp_0]
  exact clip_word 63 (by norm_num) _
theorem v179_at : val_main_v179 (F := Ideal) gr (ix3 n gh gw) = BitVec.ofNat 32 (clampN 159 (⌊tx gr n gh gw⌋ + 1)) := by
  rw [val_main_v179_apply, val_main_v178_apply, val_main_call6_v4_apply, val_main_call6_v3_apply, val_main_c_53_apply,
    val_main_call6_v2_apply, val_main_call6_v1_apply, val_main_call6_v0_apply, val_main_c_52_apply, v19_at gr hg,
    Ideal.minimumf_def, Ideal.maximumf_def, sitofp_159, sitofp_0]
  exact clip_word 159 (by norm_num) _
theorem v181_at : val_main_v181 (F := Ideal) gr (ix3 n gh gw) = BitVec.ofNat 32 (clampN 63 (⌊ty gr n gh gw⌋ + 1)) := by
  rw [val_main_v181_apply, val_main_v180_apply, val_main_call7_v4_apply, val_main_call7_v3_apply, val_main_c_55_apply,
    val_main_call7_v2_apply, val_main_call7_v1_apply, val_main_call7_v0_apply, val_main_c_54_apply, v21_at gr hg,
    Ideal.minimumf_def, Ideal.maximumf_def, sitofp_63, sitofp_0]
  exact clip_word 63 (by norm_num) _

end Cert.ReferenceIdeal.RefValue

end
-- ==== Proof.RefGather.lean ====
/-
  The reference's four gathers read at one query and one channel. Each gathers, from the feature map [8, 128, 64, 160],
  the 128 channels at (image, row, column) = the three words of the index table at the query: the image number of the
  instance, the corner's clamped row, the corner's clamped column, each first wrapped (a negative word has the axis
  extent added) and then clamped onto its axis by the gather. For an image number in [0, 8) and positions already on
  their axes, neither the wrap nor the clamp changes anything.
-/
import proofs.«401064_j4922032521570_3_alg».proof.Proof.RefLane
import Idealize.ShloMosaic.Lib.StableHlo.Predicate

noncomputable section

namespace Cert.ReferenceIdeal.RefValue

open Cert.ReferenceIdeal Cert.ReferenceIdeal.ReadP Idealize.ShloMosaic Idealize.ShloMosaic.ValueIdx Cert.Bilinear

/-- A word read as a signed integer and clamped onto an axis 0 … n, the gather's way. -/
def clampWord (n : ℕ) (w : BitVec 32) : ℕ := min w.toInt.toNat n

theorem clampWord_le (n : ℕ) (w : BitVec 32) : clampWord n w ≤ n := Nat.min_le_right _ _

/-- The gather's dimension numbers, under a short name. -/
private abbrev GD : GatherDims S8x128x64x160 S128x32x100x3 S128x32x100x128 :=
  gather_S8x128x64x160_S128x32x100x3_S128x32x100x128_3_023_n_n_023_3_112811

/-- Where the gather reads component c of the start index of result element (n, gh, gw, ch): the table at (n, gh, gw, c). -/
private theorem siIdx_at (n : Fin 128) (gh : Fin 32) (gw : Fin 100) (ch : Fin 128) (c : Fin 3) :
    GD.siIdx (ix4 n gh gw ch) c = ix4 n gh gw c := by
  funext b
  apply Fin.ext
  match b with
  | ⟨0, _⟩ => rfl
  | ⟨1, _⟩ => rfl
  | ⟨2, _⟩ => rfl
  | ⟨3, _⟩ => rfl

/-- The slice's start on the three axes the start index addresses (image, row, column): component 0, 1, 2 of the
    start index, read signed and clamped onto the axis (the slice is one wide there); on the channel axis it is 0. -/
private theorem start_img (j : S128x32x100x128.Idx) (idx : IVec S128x32x100x3 32) :
    GD.start j idx (0 : Fin 4) = clampWord 7 (idx (GD.siIdx j (0 : Fin 3))) := by
  unfold GatherDims.start
  rw [dif_pos (by decide)]
  rfl
private theorem start_row (j : S128x32x100x128.Idx) (idx : IVec S128x32x100x3 32) :
    GD.start j idx (2 : Fin 4) = clampWord 63 (idx (GD.siIdx j (1 : Fin 3))) := by
  unfold GatherDims.start
  rw [dif_pos (by decide)]
  rfl
private theorem start_col (j : S128x32x100x128.Idx) (idx : IVec S128x32x100x3 32) :
    GD.start j idx (3 : Fin 4) = clampWord 159 (idx (GD.siIdx j (2 : Fin 3))) := by
  unfold GatherDims.start
  rw [dif_pos (by decide)]
  rfl
private theorem start_chan (j : S128x32x100x128.Idx) (idx : IVec S128x32x100x3 32) :
    GD.start j idx (1 : Fin 4) = 0 := by
  unfold GatherDims.start
  rw [dif_neg (by decide)]

/-- The offset inside the slice: the result's last coordinate on the channel axis, nothing on the collapsed axes. -/
private theorem off_chan (j : S128x32x100x128.Idx) : GD.offCoord j (1 : Fin 4) = (j 3).val := by
  unfold GatherDims.offCoord
  rw [dif_pos (by decide)]
  rfl
private theorem off_img (j : S128x32x100x128.Idx) : GD.offCoord j (0 : Fin 4) = 0 :=
  GatherDims.offCoord_eq_zero _ _ _ (by decide)
private theorem off_row (j : S128x32x100x128.Idx) : GD.offCoord j (2 : Fin 4) = 0 :=
  GatherDims.offCoord_eq_zero _ _ _ (by decide)
private theorem off_col (j : S128x32x100x128.Idx) : GD.offCoord j (3 : Fin 4) = 0 :=
  GatherDims.offCoord_eq_zero _ _ _ (by decide)

/-- THE GATHER AT (n, gh, gw, ch): the operand at (the table's three words at the query, clamped), channel ch. -/
theorem gather_at {α : Type} (x : S8x128x64x160.Idx → α) (idx : IVec S128x32x100x3 32)
    (n : Fin 128) (gh : Fin 32) (gw : Fin 100) (ch : Fin 128) :
    Host.gather gather_S8x128x64x160_S128x32x100x3_S128x32x100x128_3_023_n_n_023_3_112811 x idx (ix4 n gh gw ch)
      = x (ix4 (⟨clampWord 7 (idx (ix4 n gh gw (0 : Fin 3))), Nat.lt_succ_of_le (clampWord_le _ _)⟩ : Fin 8) ch
            (⟨clampWord 63 (idx (ix4 n gh gw (1 : Fin 3))), Nat.lt_succ_of_le (clampWord_le _ _)⟩ : Fin 64)
            (⟨clampWord 159 (idx (ix4 n gh gw (2 : Fin 3))), Nat.lt_succ_of_le (clampWord_le _ _)⟩ : Fin 160)) := by
  unfold Host.gather
  congr 1
  funext a
  apply Fin.ext
  show GD.start (ix4 n gh gw ch) idx a + GD.batchCoord (ix4 n gh gw ch) a + GD.offCoord (ix4 n gh gw ch) a = _
  rw [GatherDims.batchCoord_eq_zero _ _ _ List.not_mem_nil, Nat.add_zero]
  match a with
  | ⟨0, _⟩ => exact (congrArg₂ (· + ·) (start_img _ idx) (off_img _)).trans (by rw [siIdx_at]; rfl)
  | ⟨1, _⟩ => exact (congrArg₂ (· + ·) (start_chan _ idx) (off_chan _)).trans (Nat.zero_add _)
  | ⟨2, _⟩ => exact (congrArg₂ (· + ·) (start_row _ idx) (off_row _)).trans (by rw [siIdx_at]; rfl)
  | ⟨3, _⟩ => exact (congrArg₂ (· + ·) (start_col _ idx) (off_col _)).trans (by rw [siIdx_at]; rfl)

/-- Off the joined (last) axis a table's index (n, gh, gw, 0) and the joined array's index (n, gh, gw, k) agree. -/
private theorem concat_coords (n : Fin 128) (gh : Fin 32) (gw : Fin 100) (k : Fin 3) :
    ∀ e : Fin S128x32x100x1.rank, e.cast (rfl : S128x32x100x1.rank = S128x32x100x3.rank) ≠ (3 : Fin 4) →
      ((ix4 n gh gw (0 : Fin 1) : S128x32x100x1.Idx) e).val
        = ((ix4 n gh gw k : S128x32x100x3.Idx) (e.cast (rfl : S128x32x100x1.rank = S128x32x100x3.rank))).val := by
  intro e he
  match e with
  | ⟨0, _⟩ => rfl
  | ⟨1, _⟩ => rfl
  | ⟨2, _⟩ => rfl
  | ⟨3, _⟩ => exact absurd rfl he

/-- THREE [128, 32, 100, 1] TABLES JOINED along the last axis, at (n, gh, gw, k): table k at (n, gh, gw, 0). -/
theorem concat3_at (a b c : IVec S128x32x100x1 32) (n : Fin 128) (gh : Fin 32) (gw : Fin 100) :
    concatenate S128x32x100x3 3 [⟨S128x32x100x1, a⟩, ⟨S128x32x100x1, b⟩, ⟨S128x32x100x1, c⟩]
        Facts₀.concatenates_S128x32x100x1_S128x32x100x1_S128x32x100x1_S128x32x100x3_d3 (ix4 n gh gw (0 : Fin 3))
      = a (ix4 n gh gw (0 : Fin 1))
    ∧ concatenate S128x32x100x3 3 [⟨S128x32x100x1, a⟩, ⟨S128x32x100x1, b⟩, ⟨S128x32x100x1, c⟩]
        Facts₀.concatenates_S128x32x100x1_S128x32x100x1_S128x32x100x1_S128x32x100x3_d3 (ix4 n gh gw (1 : Fin 3))
      = b (ix4 n gh gw (0 : Fin 1))
    ∧ concatenate S128x32x100x3 3 [⟨S128x32x100x1, a⟩, ⟨S128x32x100x1, b⟩, ⟨S128x32x100x1, c⟩]
        Facts₀.concatenates_S128x32x100x1_S128x32x100x1_S128x32x100x1_S128x32x100x3_d3 (ix4 n gh gw (2 : Fin 3))
      = c (ix4 n gh gw (0 : Fin 1)) := by
  refine ⟨?_, ?_, ?_⟩
  · exact concatenate_apply_piece (3 : Fin 4) [⟨S128x32x100x1, a⟩, ⟨S128x32x100x1, b⟩, ⟨S128x32x100x1, c⟩] _
      (ix4 n gh gw (0 : Fin 3)) 0 (by simp) S128x32x100x1 a rfl rfl 0 rfl
      (ix4 n gh gw (0 : Fin 1)) (concat_coords n gh gw 0) rfl
  · exact concatenate_apply_piece (3 : Fin 4) [⟨S128x32x100x1, a⟩, ⟨S128x32x100x1, b⟩, ⟨S128x32x100x1, c⟩] _
      (ix4 n gh gw (1 : Fin 3)) 1 (by simp) S128x32x100x1 b rfl rfl 1 rfl
      (ix4 n gh gw (0 : Fin 1)) (concat_coords n gh gw 1) rfl
  · exact concatenate_apply_piece (3 : Fin 4) [⟨S128x32x100x1, a⟩, ⟨S128x32x100x1, b⟩, ⟨S128x32x100x1, c⟩] _
      (ix4 n gh gw (2 : Fin 3)) 2 (by simp) S128x32x100x1 c rfl rfl 2 rfl
      (ix4 n gh gw (0 : Fin 1)) (concat_coords n gh gw 2) rfl

/-! ## Words: a small nonnegative word is kept by "add the extent when negative", and by the clamp -/

/-- A word below 2³¹ is not signed-negative, so the select that would add the axis extent to a negative word keeps it. -/
private theorem wrap_keep (w N : BitVec 32) (h : w.toNat < 2 ^ 31) :
    Scalar.select (IntOp.cmpi .slt w 0#32) (IntOp.addi w N) w = w := by
  have hn : ¬ IntOp.cmpi .slt w 0#32 = 1#1 := by
    rw [StableHlo.Predicate.slt_iff_toNat h (by decide)]
    exact Nat.not_lt_zero _
  exact if_neg hn

/-- The word of a natural number k ≤ n (n below 2³¹), read signed and clamped onto 0 … n, is k. -/
private theorem clampWord_ofNat (n k : ℕ) (hk : k ≤ n) (hn : n < 2 ^ 31) : clampWord n (BitVec.ofNat 32 k) = k := by
  unfold clampWord
  rw [StableHlo.Predicate.toInt_ofNat_small k (by omega), Int.toNat_natCast]
  exact Nat.min_eq_left hk

/-- A position k ≤ n as a word, wrapped and clamped: k. -/
private theorem wrapped_pos (n k : ℕ) (N : BitVec 32) (hk : k ≤ n) (hn : n < 2 ^ 31) :
    clampWord n (Scalar.select (IntOp.cmpi .slt (BitVec.ofNat 32 k) 0#32) (IntOp.addi (BitVec.ofNat 32 k) N)
      (BitVec.ofNat 32 k)) = k := by
  have hlt : (BitVec.ofNat 32 k).toNat < 2 ^ 31 := by
    rw [BitVec.toNat_ofNat]
    exact lt_of_le_of_lt (Nat.mod_le _ _) (by omega)
  rw [wrap_keep _ _ hlt]
  exact clampWord_ofNat n k hk hn

/-- An image number below 8, wrapped and clamped onto 0 … 7: itself (and it is its own remainder by 8). -/
private theorem wrapped_img (w N : BitVec 32) (h : w.toNat < 8) :
    clampWord 7 (Scalar.select (IntOp.cmpi .slt w 0#32) (IntOp.addi w N) w) = w.toNat % 8 := by
  rw [wrap_keep _ _ (by omega)]
  unfold clampWord
  rw [StableHlo.Predicate.toInt_eq_toNat_of_lt (by omega), Int.toNat_natCast, Nat.mod_eq_of_lt h]
  exact Nat.min_eq_left (by omega)

variable (fm : FVec Ideal S8x128x64x160 .f32) (gr : FVec Ideal S128x32x100x2 .f32) (bi : IVec S128 32)
variable (hg : ∀ i, ∃ r : ℝ, gr i = (r : EReal)) (hb : ∀ n : Fin 128, (bi (ix1 n)).toNat < 8)
variable (n : Fin 128) (gh : Fin 32) (gw : Fin 100) (ch : Fin 128)
include hg hb

/-- The feature map at image `imgOf bi n`, channel ch, clamped row of `zy`, clamped column of `zx`. -/
def pixel (zy zx : ℤ) : EReal :=
  fm (ix4 (imgOf bi n) ch (⟨clampN 63 zy, Nat.lt_succ_of_le (clampN_le _ _)⟩ : Fin 64)
    (⟨clampN 159 zx, Nat.lt_succ_of_le (clampN_le _ _)⟩ : Fin 160))

omit hg hb in
/-- A gather whose three clamped words at the query are the instance's image number, the clamped row of `zy` and the
    clamped column of `zx` reads that pixel. -/
private theorem gather_pixel (idx : IVec S128x32x100x3 32) (zy zx : ℤ)
    (h0 : clampWord 7 (idx (ix4 n gh gw (0 : Fin 3))) = (bi (ix1 n)).toNat % 8)
    (h1 : clampWord 63 (idx (ix4 n gh gw (1 : Fin 3))) = clampN 63 zy)
    (h2 : clampWord 159 (idx (ix4 n gh gw (2 : Fin 3))) = clampN 159 zx) :
    Host.gather GD fm idx (ix4 n gh gw ch) = pixel fm bi n ch zy zx := by
  have e0 : (⟨clampWord 7 (idx (ix4 n gh gw (0 : Fin 3))), Nat.lt_succ_of_le (clampWord_le _ _)⟩ : Fin 8)
      = imgOf bi n := Fin.ext h0
  have e1 : (⟨clampWord 63 (idx (ix4 n gh gw (1 : Fin 3))), Nat.lt_succ_of_le (clampWord_le _ _)⟩ : Fin 64)
      = ⟨clampN 63 zy, Nat.lt_succ_of_le (clampN_le _ _)⟩ := Fin.ext h1
  have e2 : (⟨clampWord 159 (idx (ix4 n gh gw (2 : Fin 3))), Nat.lt_succ_of_le (clampWord_le _ _)⟩ : Fin 160)
      = ⟨clampN 159 zx, Nat.lt_succ_of_le (clampN_le _ _)⟩ := Fin.ext h2
  rw [gather_at, e0, e1, e2]
  rfl

omit hg in
/-- ONE CORNER. The index table joins three tables that hold, at the query, the instance's image number, the word of
    the corner's clamped row and the word of its clamped column, each passed through "add the axis extent when
    negative". None of the three is negative and each is on its axis already, so the gather reads the corner's pixel. -/
private theorem corner_read (zy zx : ℤ) (t0 t1 t2 : IVec S128x32x100x1 32) (N0 N1 N2 : BitVec 32)
    (h0 : t0 (ix4 n gh gw (0 : Fin 1))
      = Scalar.select (IntOp.cmpi .slt (bi (ix1 n)) 0#32) (IntOp.addi (bi (ix1 n)) N0) (bi (ix1 n)))
    (h1 : t1 (ix4 n gh gw (0 : Fin 1))
      = Scalar.select (IntOp.cmpi .slt (BitVec.ofNat 32 (clampN 63 zy)) 0#32)
          (IntOp.addi (BitVec.ofNat 32 (clampN 63 zy)) N1) (BitVec.ofNat 32 (clampN 63 zy)))
    (h2 : t2 (ix4 n gh gw (0 : Fin 1))
      = Scalar.select (IntOp.cmpi .slt (BitVec.ofNat 32 (clampN 159 zx)) 0#32)
          (IntOp.addi (BitVec.ofNat 32 (clampN 159 zx)) N2) (BitVec.ofNat 32 (clampN 159 zx))) :
    Host.gather GD fm (concatenate S128x32x100x3 3 [⟨S128x32x100x1, t0⟩, ⟨S128x32x100x1, t1⟩, ⟨S128x32x100x1, t2⟩]
        Facts₀.concatenates_S128x32x100x1_S128x32x100x1_S128x32x100x1_S128x32x100x3_d3) (ix4 n gh gw ch)
      = pixel fm bi n ch zy zx := by
  obtain ⟨c0, c1, c2⟩ := concat3_at t0 t1 t2 n gh gw
  refine gather_pixel fm bi n gh gw ch _ zy zx ?_ ?_ ?_
  · rw [c0, h0]
    exact wrapped_img _ _ (hb n)
  · rw [c1, h1]
    exact wrapped_pos 63 _ _ (clampN_le _ _) (by norm_num)
  · rw [c2, h2]
    exact wrapped_pos 159 _ _ (clampN_le _ _) (by norm_num)

omit hg hb in
/-- The image numbers are spread over the query axes and then given a unit last axis: at (n, gh, gw, 0) the spread
    array's index comes from instance n alone. The clamped positions only get the unit last axis. -/
private theorem idx_img (n : Fin 128) (gh : Fin 32) (gw : Fin 100) :
    idx_main_v22 (idx_main_v69 (idx_main_v70 (ix4 n gh gw (0 : Fin 1)))) = ix1 n := by
  funext a
  match a with
  | ⟨0, _⟩ => rfl
omit hg hb in
private theorem idx_pos (n : Fin 128) (gh : Fin 32) (gw : Fin 100) :
    idx_main_v71 (ix4 n gh gw (0 : Fin 1)) = ix3 n gh gw := by
  funext a
  match a with
  | ⟨0, _⟩ => rfl
  | ⟨1, _⟩ => rfl
  | ⟨2, _⟩ => rfl

/-- The four gathers at the query and the channel: corner (row, column) = (y0, x0), (y0, x1), (y1, x0), (y1, x1). -/
theorem v74_at : val_main_v74 (F := Ideal) fm gr bi (ix4 n gh gw ch)
    = pixel fm bi n ch ⌊ty gr n gh gw⌋ ⌊tx gr n gh gw⌋ := by
  unfold val_main_v74 val_main_v73
  refine corner_read fm bi hb n gh gw ch ⌊ty gr n gh gw⌋ ⌊tx gr n gh gw⌋ (val_main_v70 (F := Ideal) bi)
    (val_main_v71 (F := Ideal) gr) (val_main_v72 (F := Ideal) gr) 8#32 64#32 160#32 ?_ ?_ ?_
  · rw [val_main_v70_apply, val_main_v69_apply, val_main_v58_apply, val_main_v55_apply, val_main_v57_apply,
      val_main_v22_apply, idx_img]
    rfl
  · rw [val_main_v71_apply, val_main_v63_apply, val_main_v60_apply, val_main_v62_apply, idx_pos, v53_at gr hg n gh gw]
    rfl
  · rw [val_main_v72_apply, val_main_v68_apply, val_main_v65_apply, val_main_v67_apply]
    rw [show idx_main_v72 (ix4 n gh gw (0 : Fin 1)) = ix3 n gh gw from idx_pos n gh gw, v51_at gr hg n gh gw]
    rfl
theorem v116_at : val_main_v116 (F := Ideal) fm gr bi (ix4 n gh gw ch)
    = pixel fm bi n ch ⌊ty gr n gh gw⌋ (⌊tx gr n gh gw⌋ + 1) := by
  unfold val_main_v116 val_main_v115
  refine corner_read fm bi hb n gh gw ch ⌊ty gr n gh gw⌋ (⌊tx gr n gh gw⌋ + 1) (val_main_v112 (F := Ideal) bi)
    (val_main_v113 (F := Ideal) gr) (val_main_v114 (F := Ideal) gr) 8#32 64#32 160#32 ?_ ?_ ?_
  · rw [val_main_v112_apply, val_main_v111_apply, val_main_v100_apply, val_main_v97_apply, val_main_v99_apply,
      val_main_v22_apply]
    rw [show idx_main_v22 (idx_main_v111 (idx_main_v112 (ix4 n gh gw (0 : Fin 1)))) = ix1 n from idx_img n gh gw]
    rfl
  · rw [val_main_v113_apply, val_main_v105_apply, val_main_v102_apply, val_main_v104_apply]
    rw [show idx_main_v113 (ix4 n gh gw (0 : Fin 1)) = ix3 n gh gw from idx_pos n gh gw, v95_at gr hg n gh gw]
    rfl
  · rw [val_main_v114_apply, val_main_v110_apply, val_main_v107_apply, val_main_v109_apply]
    rw [show idx_main_v114 (ix4 n gh gw (0 : Fin 1)) = ix3 n gh gw from idx_pos n gh gw, v93_at gr hg n gh gw]
    rfl
theorem v159_at : val_main_v159 (F := Ideal) fm gr bi (ix4 n gh gw ch)
    = pixel fm bi n ch (⌊ty gr n gh gw⌋ + 1) ⌊tx gr n gh gw⌋ := by
  unfold val_main_v159 val_main_v158
  refine corner_read fm bi hb n gh gw ch (⌊ty gr n gh gw⌋ + 1) ⌊tx gr n gh gw⌋ (val_main_v155 (F := Ideal) bi)
    (val_main_v156 (F := Ideal) gr) (val_main_v157 (F := Ideal) gr) 8#32 64#32 160#32 ?_ ?_ ?_
  · rw [val_main_v155_apply, val_main_v154_apply, val_main_v143_apply, val_main_v140_apply, val_main_v142_apply,
      val_main_v22_apply]
    rw [show idx_main_v22 (idx_main_v154 (idx_main_v155 (ix4 n gh gw (0 : Fin 1)))) = ix1 n from idx_img n gh gw]
    rfl
  · rw [val_main_v156_apply, val_main_v148_apply, val_main_v145_apply, val_main_v147_apply]
    rw [show idx_main_v156 (ix4 n gh gw (0 : Fin 1)) = ix3 n gh gw from idx_pos n gh gw, v138_at gr hg n gh gw]
    rfl
  · rw [val_main_v157_apply, val_main_v153_apply, val_main_v150_apply, val_main_v152_apply]
    rw [show idx_main_v157 (ix4 n gh gw (0 : Fin 1)) = ix3 n gh gw from idx_pos n gh gw, v136_at gr hg n gh gw]
    rfl
theorem v202_at : val_main_v202 (F := Ideal) fm gr bi (ix4 n gh gw ch)
    = pixel fm bi n ch (⌊ty gr n gh gw⌋ + 1) (⌊tx gr n gh gw⌋ + 1) := by
  unfold val_main_v202 val_main_v201
  refine corner_read fm bi hb n gh gw ch (⌊ty gr n gh gw⌋ + 1) (⌊tx gr n gh gw⌋ + 1) (val_main_v198 (F := Ideal) bi)
    (val_main_v199 (F := Ideal) gr) (val_main_v200 (F := Ideal) gr) 8#32 64#32 160#32 ?_ ?_ ?_
  · rw [val_main_v198_apply, val_main_v197_apply, val_main_v186_apply, val_main_v183_apply, val_main_v185_apply,
      val_main_v22_apply]
    rw [show idx_main_v22 (idx_main_v197 (idx_main_v198 (ix4 n gh gw (0 : Fin 1)))) = ix1 n from idx_img n gh gw]
    rfl
  · rw [val_main_v199_apply, val_main_v191_apply, val_main_v188_apply, val_main_v190_apply]
    rw [show idx_main_v199 (ix4 n gh gw (0 : Fin 1)) = ix3 n gh gw from idx_pos n gh gw, v181_at gr hg n gh gw]
    rfl
  · rw [val_main_v200_apply, val_main_v196_apply, val_main_v193_apply, val_main_v195_apply]
    rw [show idx_main_v200 (ix4 n gh gw (0 : Fin 1)) = ix3 n gh gw from idx_pos n gh gw, v179_at gr hg n gh gw]
    rfl

end Cert.ReferenceIdeal.RefValue

end
-- ==== Proof.RefAssemble.lean ====
/-
  The reference's result at one element (n, ch, gh, gw), at the extended reals, for a finite feature map, finite
  grids and image numbers in [0, 8): the four-corner form of the bilinear sample — the result array `G`.

  Each of the four corner terms of the reference is a product of three factors read at (n, gh, gw, ch): the gathered
  pixel, the "corner inside the image" bit turned into 1 or 0, and the corner's weight. The last two do not depend on
  the channel: they are read through two broadcasts from a value at (n, gh, gw). For a finite feature map all three
  factors are real numbers, so the product and the sum of the four products are taken in the reals, where they are
  literally the four-corner form.
-/
import proofs.«401064_j4922032521570_3_alg».proof.Proof.RefGather

noncomputable section

namespace Cert.ReferenceIdeal.RefValue

open Cert.ReferenceIdeal Cert.ReferenceIdeal.ReadP Idealize.ShloMosaic Idealize.ShloMosaic.ValueIdx Cert.Bilinear

namespace Assemble

/-! ## Where the layout operations read -/

/-- The final transpose reads element (n, ch, gh, gw) of the result at (n, gh, gw, ch) of the sum. -/
theorem idx_v210_at (n : Fin 128) (ch : Fin 128) (gh : Fin 32) (gw : Fin 100) :
    idx_main_v210 (ix4 n ch gh gw) = ix4 n gh gw ch := by
  funext a
  match a with
  | ⟨0, _⟩ => rfl
  | ⟨1, _⟩ => rfl
  | ⟨2, _⟩ => rfl
  | ⟨3, _⟩ => rfl

section Query

variable (fm : FVec Ideal S8x128x64x160 .f32) (gr : FVec Ideal S128x32x100x2 .f32) (bi : IVec S128 32)
variable (n : Fin 128) (gh : Fin 32) (gw : Fin 100) (ch : Fin 128)

/-! ## One corner, in the reals -/

/-- A bit made from a decidable proposition, read as an unsigned number: 1 when it holds, 0 when it does not. -/
theorem toNat_ofBool_decide (p : Prop) [Decidable p] :
    (((BitVec.ofBool (decide p)).toNat : ℝ) : EReal) = (((if p then 1 else 0 : ℝ)) : EReal) := by
  by_cases h : p
  · simp [h]
  · simp [h]

/-- A finite feature map's pixel is the real number the specification's image holds at the clamped position. -/
theorem pixel_eq (hf : ∀ i, ∃ r : ℝ, fm i = (r : EReal)) (zy zx : ℤ) :
    pixel fm bi n ch zy zx = ((img fm (imgOf bi n) ch (clampN 63 zy) (clampN 159 zx) : ℝ) : EReal) := by
  have hh : clampN 63 zy < 64 ∧ clampN 159 zx < 160 :=
    ⟨Nat.lt_succ_of_le (clampN_le _ _), Nat.lt_succ_of_le (clampN_le _ _)⟩
  unfold pixel img
  rw [dif_pos hh]
  obtain ⟨r, hr⟩ := hf (ix4 (imgOf bi n) ch (⟨clampN 63 zy, hh.1⟩ : Fin 64) (⟨clampN 159 zx, hh.2⟩ : Fin 160))
  rw [hr, EReal.toReal_coe]

/-- ONE CORNER TERM: pixel · (inside bit as a number) · weight is the real product the four-corner form adds up. -/
theorem corner_term (hf : ∀ i, ∃ r : ℝ, fm i = (r : EReal)) (zy zx : ℤ) (w : ℝ) :
    pixel fm bi n ch zy zx
        * (((BitVec.ofBool (decide (inside 159 zx ∧ inside 63 zy))).toNat : ℝ) : EReal) * ((w : ℝ) : EReal)
      = ((corner (img fm (imgOf bi n) ch) zy zx * w : ℝ) : EReal) := by
  rw [pixel_eq fm bi n ch hf, toNat_ofBool_decide]
  unfold corner
  rw [EReal.coe_mul, EReal.coe_mul]

/-! ## The four corner terms of the reference

  Each term is (gather · bit-as-number) · weight at (n, gh, gw, ch). The bit and the weight are stored at (n, gh, gw):
  a first broadcast appends a unit axis, a second one spreads that axis over the 128 channels, so at (n, gh, gw, ch)
  both read the stored value at (n, gh, gw).
-/

variable (hf : ∀ i, ∃ r : ℝ, fm i = (r : EReal)) (hg : ∀ i, ∃ r : ℝ, gr i = (r : EReal))
variable (hb : ∀ n : Fin 128, (bi (ix1 n)).toNat < 8)
include hf hg hb

/-- The corner (y0, x0): its term of the sum, at the query and the channel. -/
theorem v80_at : val_main_v80 (F := Ideal) fm gr bi (ix4 n gh gw ch)
    = ((corner (img fm (imgOf bi n) ch) ⌊ty gr n gh gw⌋ ⌊tx gr n gh gw⌋
        * ((((⌊tx gr n gh gw⌋ : ℤ) : ℝ) + 1 - tx gr n gh gw) * (((⌊ty gr n gh gw⌋ : ℤ) : ℝ) + 1 - ty gr n gh gw)) : ℝ) : EReal) := by
  have eb4 : idx_main_v77 (ix4 n gh gw ch) = ix4 n gh gw (0 : Fin 1) := by
    funext a
    match a with
    | ⟨0, _⟩ => rfl
    | ⟨1, _⟩ => rfl
    | ⟨2, _⟩ => rfl
    | ⟨3, _⟩ => rfl
  have eb3 : idx_main_v75 (ix4 n gh gw (0 : Fin 1)) = ix3 n gh gw := by
    funext a
    match a with
    | ⟨0, _⟩ => rfl
    | ⟨1, _⟩ => rfl
    | ⟨2, _⟩ => rfl
  have ew4 : idx_main_v79 (ix4 n gh gw ch) = ix4 n gh gw (0 : Fin 1) := by
    funext a
    match a with
    | ⟨0, _⟩ => rfl
    | ⟨1, _⟩ => rfl
    | ⟨2, _⟩ => rfl
    | ⟨3, _⟩ => rfl
  have ew3 : idx_main_v26 (ix4 n gh gw (0 : Fin 1)) = ix3 n gh gw := by
    funext a
    match a with
    | ⟨0, _⟩ => rfl
    | ⟨1, _⟩ => rfl
    | ⟨2, _⟩ => rfl
  have hpix : val_main_v74 (F := Ideal) fm gr bi (ix4 n gh gw ch)
      = pixel fm bi n ch ⌊ty gr n gh gw⌋ ⌊tx gr n gh gw⌋ := by
    apply v74_at <;> assumption
  have hbit : val_main_v49 (F := Ideal) gr (ix3 n gh gw)
      = BitVec.ofBool (decide (inside 159 ⌊tx gr n gh gw⌋ ∧ inside 63 ⌊ty gr n gh gw⌋)) := by
    apply v49_at <;> assumption
  have hw : val_main_v25 (F := Ideal) gr (ix3 n gh gw)
      = ((((((⌊tx gr n gh gw⌋ : ℤ) : ℝ) + 1 - tx gr n gh gw) * (((⌊ty gr n gh gw⌋ : ℤ) : ℝ) + 1 - ty gr n gh gw)) : ℝ) : EReal) := by
    apply v25_at <;> assumption
  rw [val_main_v80_apply, val_main_v78_apply, val_main_v79_apply, ew4, val_main_v26_apply, ew3, hw,
    val_main_v77_apply, eb4, val_main_v76_apply, val_main_v75_apply, eb3, hbit, hpix]
  exact corner_term fm bi n ch hf _ _ _

/-- The corner (y0, x1): its term of the sum, at the query and the channel. -/
theorem v122_at : val_main_v122 (F := Ideal) fm gr bi (ix4 n gh gw ch)
    = ((corner (img fm (imgOf bi n) ch) ⌊ty gr n gh gw⌋ (⌊tx gr n gh gw⌋ + 1)
        * ((tx gr n gh gw - ((⌊tx gr n gh gw⌋ : ℤ) : ℝ)) * (((⌊ty gr n gh gw⌋ : ℤ) : ℝ) + 1 - ty gr n gh gw)) : ℝ) : EReal) := by
  have eb4 : idx_main_v119 (ix4 n gh gw ch) = ix4 n gh gw (0 : Fin 1) := by
    funext a
    match a with
    | ⟨0, _⟩ => rfl
    | ⟨1, _⟩ => rfl
    | ⟨2, _⟩ => rfl
    | ⟨3, _⟩ => rfl
  have eb3 : idx_main_v117 (ix4 n gh gw (0 : Fin 1)) = ix3 n gh gw := by
    funext a
    match a with
    | ⟨0, _⟩ => rfl
    | ⟨1, _⟩ => rfl
    | ⟨2, _⟩ => rfl
  have ew4 : idx_main_v121 (ix4 n gh gw ch) = ix4 n gh gw (0 : Fin 1) := by
    funext a
    match a with
    | ⟨0, _⟩ => rfl
    | ⟨1, _⟩ => rfl
    | ⟨2, _⟩ => rfl
    | ⟨3, _⟩ => rfl
  have ew3 : idx_main_v30 (ix4 n gh gw (0 : Fin 1)) = ix3 n gh gw := by
    funext a
    match a with
    | ⟨0, _⟩ => rfl
    | ⟨1, _⟩ => rfl
    | ⟨2, _⟩ => rfl
  have hpix : val_main_v116 (F := Ideal) fm gr bi (ix4 n gh gw ch)
      = pixel fm bi n ch ⌊ty gr n gh gw⌋ (⌊tx gr n gh gw⌋ + 1) := by
    apply v116_at <;> assumption
  have hbit : val_main_v91 (F := Ideal) gr (ix3 n gh gw)
      = BitVec.ofBool (decide (inside 159 (⌊tx gr n gh gw⌋ + 1) ∧ inside 63 ⌊ty gr n gh gw⌋)) := by
    apply v91_at <;> assumption
  have hw : val_main_v29 (F := Ideal) gr (ix3 n gh gw)
      = ((((tx gr n gh gw - ((⌊tx gr n gh gw⌋ : ℤ) : ℝ)) * (((⌊ty gr n gh gw⌋ : ℤ) : ℝ) + 1 - ty gr n gh gw)) : ℝ) : EReal) := by
    apply v29_at <;> assumption
  rw [val_main_v122_apply, val_main_v120_apply, val_main_v121_apply, ew4, val_main_v30_apply, ew3, hw,
    val_main_v119_apply, eb4, val_main_v118_apply, val_main_v117_apply, eb3, hbit, hpix]
  exact corner_term fm bi n ch hf _ _ _

/-- The corner (y1, x0): its term of the sum, at the query and the channel. -/
theorem v165_at : val_main_v165 (F := Ideal) fm gr bi (ix4 n gh gw ch)
    = ((corner (img fm (imgOf bi n) ch) (⌊ty gr n gh gw⌋ + 1) ⌊tx gr n gh gw⌋
        * ((((⌊tx gr n gh gw⌋ : ℤ) : ℝ) + 1 - tx gr n gh gw) * (ty gr n gh gw - ((⌊ty gr n gh gw⌋ : ℤ) : ℝ))) : ℝ) : EReal) := by
  have eb4 : idx_main_v162 (ix4 n gh gw ch) = ix4 n gh gw (0 : Fin 1) := by
    funext a
    match a with
    | ⟨0, _⟩ => rfl
    | ⟨1, _⟩ => rfl
    | ⟨2, _⟩ => rfl
    | ⟨3, _⟩ => rfl
  have eb3 : idx_main_v160 (ix4 n gh gw (0 : Fin 1)) = ix3 n gh gw := by
    funext a
    match a with
    | ⟨0, _⟩ => rfl
    | ⟨1, _⟩ => rfl
    | ⟨2, _⟩ => rfl
  have ew4 : idx_main_v164 (ix4 n gh gw ch) = ix4 n gh gw (0 : Fin 1) := by
    funext a
    match a with
    | ⟨0, _⟩ => rfl
    | ⟨1, _⟩ => rfl
    | ⟨2, _⟩ => rfl
    | ⟨3, _⟩ => rfl
  have ew3 : idx_main_v34 (ix4 n gh gw (0 : Fin 1)) = ix3 n gh gw := by
    funext a
    match a with
    | ⟨0, _⟩ => rfl
    | ⟨1, _⟩ => rfl
    | ⟨2, _⟩ => rfl
  have hpix : val_main_v159 (F := Ideal) fm gr bi (ix4 n gh gw ch)
      = pixel fm bi n ch (⌊ty gr n gh gw⌋ + 1) ⌊tx gr n gh gw⌋ := by
    apply v159_at <;> assumption
  have hbit : val_main_v134 (F := Ideal) gr (ix3 n gh gw)
      = BitVec.ofBool (decide (inside 159 ⌊tx gr n gh gw⌋ ∧ inside 63 (⌊ty gr n gh gw⌋ + 1))) := by
    apply v134_at <;> assumption
  have hw : val_main_v33 (F := Ideal) gr (ix3 n gh gw)
      = ((((((⌊tx gr n gh gw⌋ : ℤ) : ℝ) + 1 - tx gr n gh gw) * (ty gr n gh gw - ((⌊ty gr n gh gw⌋ : ℤ) : ℝ))) : ℝ) : EReal) := by
    apply v33_at <;> assumption
  rw [val_main_v165_apply, val_main_v163_apply, val_main_v164_apply, ew4, val_main_v34_apply, ew3, hw,
    val_main_v162_apply, eb4, val_main_v161_apply, val_main_v160_apply, eb3, hbit, hpix]
  exact corner_term fm bi n ch hf _ _ _

/-- The corner (y1, x1): its term of the sum, at the query and the channel. -/
theorem v208_at : val_main_v208 (F := Ideal) fm gr bi (ix4 n gh gw ch)
    = ((corner (img fm (imgOf bi n) ch) (⌊ty gr n gh gw⌋ + 1) (⌊tx gr n gh gw⌋ + 1)
        * ((tx gr n gh gw - ((⌊tx gr n gh gw⌋ : ℤ) : ℝ)) * (ty gr n gh gw - ((⌊ty gr n gh gw⌋ : ℤ) : ℝ))) : ℝ) : EReal) := by
  have eb4 : idx_main_v205 (ix4 n gh gw ch) = ix4 n gh gw (0 : Fin 1) := by
    funext a
    match a with
    | ⟨0, _⟩ => rfl
    | ⟨1, _⟩ => rfl
    | ⟨2, _⟩ => rfl
    | ⟨3, _⟩ => rfl
  have eb3 : idx_main_v203 (ix4 n gh gw (0 : Fin 1)) = ix3 n gh gw := by
    funext a
    match a with
    | ⟨0, _⟩ => rfl
    | ⟨1, _⟩ => rfl
    | ⟨2, _⟩ => rfl
  have ew4 : idx_main_v207 (ix4 n gh gw ch) = ix4 n gh gw (0 : Fin 1) := by
    funext a
    match a with
    | ⟨0, _⟩ => rfl
    | ⟨1, _⟩ => rfl
    | ⟨2, _⟩ => rfl
    | ⟨3, _⟩ => rfl
  have ew3 : idx_main_v38 (ix4 n gh gw (0 : Fin 1)) = ix3 n gh gw := by
    funext a
    match a with
    | ⟨0, _⟩ => rfl
    | ⟨1, _⟩ => rfl
    | ⟨2, _⟩ => rfl
  have hpix : val_main_v202 (F := Ideal) fm gr bi (ix4 n gh gw ch)
      = pixel fm bi n ch (⌊ty gr n gh gw⌋ + 1) (⌊tx gr n gh gw⌋ + 1) := by
    apply v202_at <;> assumption
  have hbit : val_main_v177 (F := Ideal) gr (ix3 n gh gw)
      = BitVec.ofBool (decide (inside 159 (⌊tx gr n gh gw⌋ + 1) ∧ inside 63 (⌊ty gr n gh gw⌋ + 1))) := by
    apply v177_at <;> assumption
  have hw : val_main_v37 (F := Ideal) gr (ix3 n gh gw)
      = ((((tx gr n gh gw - ((⌊tx gr n gh gw⌋ : ℤ) : ℝ)) * (ty gr n gh gw - ((⌊ty gr n gh gw⌋ : ℤ) : ℝ))) : ℝ) : EReal) := by
    apply v37_at <;> assumption
  rw [val_main_v208_apply, val_main_v206_apply, val_main_v207_apply, ew4, val_main_v38_apply, ew3, hw,
    val_main_v205_apply, eb4, val_main_v204_apply, val_main_v203_apply, eb3, hbit, hpix]
  exact corner_term fm bi n ch hf _ _ _

end Query

end Assemble

/-- THE REFERENCE'S RESULT IS `G`. -/
theorem ref_eq_G (fm : FVec Ideal S8x128x64x160 .f32) (gr : FVec Ideal S128x32x100x2 .f32) (bi : IVec S128 32)
    (hf : ∀ i, ∃ r : ℝ, fm i = (r : EReal)) (hg : ∀ i, ∃ r : ℝ, gr i = (r : EReal))
    (hb : ∀ n : Fin 128, (bi (ix1 n)).toNat < 8) :
    val_main_v210 (F := Ideal) fm gr bi = Cert.Bilinear.G fm gr bi := by
  funext j
  obtain ⟨n, ch, gh, gw, rfl⟩ : ∃ (n : Fin 128) (ch : Fin 128) (gh : Fin 32) (gw : Fin 100), j = ix4 n ch gh gw :=
    ⟨j 0, j 1, j 2, j 3, eq_ix4 j⟩
  -- the result at (n, ch, gh, gw) is the left-nested sum of the four corner terms at (n, gh, gw, ch)
  rw [val_main_v210_apply, Assemble.idx_v210_at, val_main_v209_apply, val_main_v166_apply, val_main_v123_apply,
    Assemble.v80_at fm gr bi n gh gw ch hf hg hb, Assemble.v122_at fm gr bi n gh gw ch hf hg hb,
    Assemble.v165_at fm gr bi n gh gw ch hf hg hb, Assemble.v208_at fm gr bi n gh gw ch hf hg hb]
  -- and `G` there is the four-corner form at the same pixel coordinates
  show _ = ((cornerForm (img fm (imgOf bi n) ch) (tx gr n gh gw) (ty gr n gh gw) : ℝ) : EReal)
  unfold cornerForm
  simp only [Ideal.addf_def, EReal.coe_add]

end Cert.ReferenceIdeal.RefValue

end
-- ==== Proof.Tile.lean ====
/-
  What one trip of the kernel's loop stores: a [1, 128, 128] tile of the output block, as ONE function of the
  image slab the kernel loaded, [1, 8192, 160] (row h·128 + c holds row h of channel c), and of the 128 x- and
  y-coordinates of the trip's queries. The tile is a CONTRACTION of the slab against two small arrays of TAPS:
  column taps [160, 128] (position w, query j) made from the x-coordinates, row taps [64, 128] made from the
  y-coordinates. Read at channel c and lane j, at the extended reals, it is the separable form of the bilinear
  sample of channel c at query j.
-/
import proofs.«401064_j4922032521570_3_alg».proof.Proof.Gen.KernelIdeal.Skeleton
import proofs.«401064_j4922032521570_3_alg».proof.Proof.Spec

noncomputable section

namespace Cert.KernelIdeal.Tile

open Cert.KernelIdeal Cert.KernelIdeal.Gen Idealize.ShloMosaic Idealize.ShloMosaic.ValueIdx Cert.Bilinear

variable {F : FTy → Type} [FloatOps F]

/-- The tile a trip stores, from the slab `v0` and the trip's 128 x-coordinates `gx` and y-coordinates `gy`:
    the stored payload over the payloads that make the pixel coordinates, their floors, the validity masks, the
    clamped integer positions and the weights. -/
def tile (v0 : Vec F S1x8192x160 .bf16) (gx gy : Vec F S1x1x128 .f32) : FVec F S1x128x128 .f32 :=
  k0_pay1 v0
    (k0_pay12 (k0_pay2 gx) (k0_pay4 gx) (k0_pay9 gx))
    (k0_pay13 (k0_pay3 gy) (k0_pay7 gy) (k0_pay10 gy) (k0_pay11 gy))
    (k0_pay14 (k0_pay3 gy) (k0_pay5 gy) (k0_pay7 gy))
    (k0_pay15 (k0_pay6 gx))
    (k0_pay16 (k0_pay5 gy))
    (k0_pay17 (k0_pay7 gy))
    (iota .tc S160x128 32 [0] Gen.iota_S160x128_d0_w32)
    (iota .tc S64x128 32 [0] Gen.iota_S64x128_d0_w32)
    (k0_pay18 (k0_pay4 gx))
    (k0_pay19 (k0_pay2 gx) (k0_pay6 gx) (k0_pay8 gx))
    (k0_pay20 (F := F))

/-- THE COLUMN TAPS [160, 128]: at (w, j) the lower neighbour's weight where w is the lower neighbour's clamped
    column, plus the upper neighbour's weight where w is the upper neighbour's clamped column. -/
def colTaps (gx : Vec F S1x1x128 .f32) : FVec F S160x128 .f32 :=
  addf
    (select (k0_pay18 (k0_pay4 gx)) (k0_pay19 (k0_pay2 gx) (k0_pay6 gx) (k0_pay8 gx)) (k0_pay20 (F := F)))
    (select
      (cmpi .eq (iota .tc S160x128 32 [0] Gen.iota_S160x128_d0_w32)
        (broadcastTo S160x128 (k0_pay15 (k0_pay6 gx)) Gen.broadcasts_S1x128_S160x128))
      (broadcastTo S160x128
        (shapeCast S1x128 (k0_pay12 (k0_pay2 gx) (k0_pay4 gx) (k0_pay9 gx)) Gen.shapeCasts_S1x128_S1x128)
        Gen.broadcasts_S1x128_S160x128)
      (broadcast S160x128 (Scalar.ofBits .f32 0x00000000#32)))

/-- THE ROW TAPS [64, 128], the same of the y-coordinates. -/
def rowTaps (gy : Vec F S1x1x128 .f32) : FVec F S64x128 .f32 :=
  addf
    (select
      (cmpi .eq (iota .tc S64x128 32 [0] Gen.iota_S64x128_d0_w32)
        (broadcastTo S64x128 (k0_pay16 (k0_pay5 gy)) Gen.broadcasts_S1x128_S64x128))
      (broadcastTo S64x128
        (shapeCast S1x128 (k0_pay13 (k0_pay3 gy) (k0_pay7 gy) (k0_pay10 gy) (k0_pay11 gy)) Gen.shapeCasts_S1x128_S1x128)
        Gen.broadcasts_S1x128_S64x128)
      (broadcast S64x128 (Scalar.ofBits .f32 0x00000000#32)))
    (select
      (cmpi .eq (iota .tc S64x128 32 [0] Gen.iota_S64x128_d0_w32)
        (broadcastTo S64x128 (k0_pay17 (k0_pay7 gy)) Gen.broadcasts_S1x128_S64x128))
      (broadcastTo S64x128
        (shapeCast S1x128 (k0_pay14 (k0_pay3 gy) (k0_pay5 gy) (k0_pay7 gy)) Gen.shapeCasts_S1x128_S1x128)
        Gen.broadcasts_S1x128_S64x128)
      (broadcast S64x128 (Scalar.ofBits .f32 0x00000000#32)))

/-- THE CONTRACTION: the slab [8192, 160] times the column taps [160, 128] (columns contracted), the product
    re-laid as [64, 128, 128] (row, channel, query), multiplied by the row taps along the channel axis, and summed
    over the rows. -/
def contract (v0 : Vec F S1x8192x160 .bf16) (sx : FVec F S160x128 .f32) (sy : FVec F S64x128 .f32) :
    FVec F S1x128x128 .f32 :=
  shapeCast S1x128x128
    (multiReduction .add [0] S128x128
      (extf .f32
        (mulf
          (shapeCast S64x128x128
            (truncf .bf16
              (matmul Cert.KernelIdeal.dot_S8192x160_S160x128_S8192x128_1_0_0_1_n_n none
                (shapeCast S8192x160 v0 Gen.shapeCasts_S1x8192x160_S8192x160)
                (truncf .bf16 sx Gen.bitsLt_bf16_f32)
                (constant S8192x128 .f32 0x00000000#32))
              Gen.bitsLt_bf16_f32)
            Gen.shapeCasts_S8192x128_S64x128x128)
          (broadcastTo S64x128x128
            (shapeCast S64x1x128 (truncf .bf16 sy Gen.bitsLt_bf16_f32) Gen.shapeCasts_S64x128_S64x1x128)
            Gen.broadcasts_S64x1x128_S64x128x128))
        Gen.bitsLt_bf16_f32)
      0x00000000#32 Gen.reduces_S64x128x128_S128x128 (.inl rfl) rfl)
    Gen.shapeCasts_S128x128_S1x128x128

/-- The tile is the contraction of the slab against the two arrays of taps. -/
theorem tile_eq (v0 : Vec F S1x8192x160 .bf16) (gx gy : Vec F S1x1x128 .f32) :
    tile v0 gx gy = contract v0 (colTaps gx) (rowTaps gy) := rfl

/-- Row h·128 + c, column w of the slab as a real-valued image of channel `c` (zero off the image). -/
def slabImg (v0 : Vec Ideal S1x8192x160 .bf16) (c : Fin 128) (h w : ℕ) : ℝ :=
  if hh : h < 64 ∧ w < 160 then
    (v0 (ix3 (0 : Fin 1) (⟨h * 128 + c.val, by have := c.isLt; omega⟩ : Fin 8192) (⟨w, hh.2⟩ : Fin 160))).toReal
  else 0

end Cert.KernelIdeal.Tile

end
-- ==== Proof.Pieces.lean ====
/-
  What the kernel leaves in its output block. The body runs 25 trips; trip k stores ONE [1, 128, 128] tile at lanes
  128·k … 128·k + 127 of the [1, 128, 3200] block: the tile made from the image slab and from lanes 128·k … of the
  two coordinate rows. So the block is ONE function of its index (0, c, q): the tile of trip q / 128 at (c, q mod 128).
-/
import proofs.«401064_j4922032521570_3_alg».proof.Proof.Gen.KernelIdeal.Frame
import proofs.«401064_j4922032521570_3_alg».proof.Proof.Tile
import Idealize.ShloMosaic.Lib.Pipeline.Value

set_option maxRecDepth 16384

noncomputable section

namespace Cert.KernelIdeal.Pieces

open Cert.KernelIdeal Cert.KernelIdeal.Gen Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The loop runs 25 trips. -/
theorem trips_eq : k0_t1_loop.trips = 25 := by decide

/-- Lanes 128·k … 128·k + 127 of a row of 3200 coordinates. -/
abbrev laneRow (k : Fin k0_t1_loop.trips) (X : Vec F S1x1x3200 .f32) : Vec F S1x1x128 .f32 :=
  View.ld X (Rect.unit (s := S1x1x3200) (k0_off2 k) S1x1x128.size (k0_off2_inb k))

/-- The trip that writes lane `q` of the block. -/
def tripOf (q : Fin 3200) : Fin k0_t1_loop.trips := ⟨q.val / 128, by rw [trips_eq]; have := q.isLt; omega⟩

/-- THE BLOCK: at (0, c, q) the tile of trip q / 128, made from the slab and that trip's lanes of the two
    coordinate rows, at (0, c, q mod 128). -/
def blockFn (v0 : Vec F S1x8192x160 .bf16) (X3 X4 : Vec F S1x1x3200 .f32) : S1x128x3200.Idx → F .f32 :=
  fun y => Tile.tile v0 (laneRow (tripOf (y 2)) X3) (laneRow (tripOf (y 2)) X4)
    (ix3 (0 : Fin 1) (y 1) (⟨(y 2).val % 128, Nat.mod_lt _ (by decide)⟩ : Fin 128))

/-- Trip `k`'s tile at a local index is the block function at the index the trip's rectangle puts it at: the
    embedded lane is 128·k + the local lane, whose quotient by 128 is `k` and whose remainder the local lane. -/
theorem tile_is_block (v0 : Vec F S1x8192x160 .bf16) (x1 x2 : Vec F S1x1x3200 .f32) (k : Fin k0_t1_loop.trips)
    (x : S1x128x128.Idx) :
    Tile.tile v0 (laneRow k x1) (laneRow k x2) x
      = blockFn v0 x1 x2 ((Rect.unit (s := S1x128x3200) (k0_off3 k) S1x128x128.size (k0_off3_inb k)).emb x) := by
  generalize hy : (Rect.unit (s := S1x128x3200) (k0_off3 k) S1x128x128.size (k0_off3_inb k)).emb x = y
  have h1 : (y 1).val = (x 1).val := by
    rw [← hy]; show (k0_off3 k) 1 + 1 * (x 1).val = _; rw [k0_off3_eq]; simp
  have h2 : (y 2).val = 128 * k.val + (x 2).val := by
    rw [← hy]; show (k0_off3 k) 2 + 1 * (x 2).val = _; rw [k0_off3_eq]; simp
  have hx2 : (x 2).val < 128 := (x 2).isLt
  have htrip : tripOf (y 2) = k := Fin.ext (by show (y 2).val / 128 = k.val; rw [h2]; omega)
  unfold blockFn
  rw [htrip]
  refine congrArg _ ?_
  funext a
  match a with
  | ⟨0, _⟩ =>
    refine Fin.ext ?_
    have h0 : (x 0).val < 1 := (x 0).isLt
    show (x 0).val = 0
    omega
  | ⟨1, _⟩ => exact Fin.ext h1.symm
  | ⟨2, _⟩ => exact Fin.ext (by show (x 2).val = (y 2).val % 128; rw [h2]; omega)

section
variable (𝒱 : Variants) (c : Dev nD) (bd : Option 𝒱.V) (i : grid0.Coords) (arg1 : Memref sig .tc .smem S128 .i32) (harg1 : arg1.IsWhole) (arg2 : Memref sig .tc .vmem S1x8192x160 .bf16) (harg2 : arg2.IsWhole) (arg3 : Memref sig .tc .vmem S1x1x3200 .f32) (harg3 : arg3.IsWhole) (arg4 : Memref sig .tc .vmem S1x1x3200 .f32) (harg4 : arg4.IsWhole) (arg5 : Memref sig .tc .vmem S1x128x3200 .f32) (harg5 : arg5.IsWhole) (v0 : Vec F S1x8192x160 .bf16)

/-- Trip `k` leaves one piece: the tile of the slab and of the trip's lanes of the two rows, stored at the trip's
    lanes of the block. -/
theorem tripL_eq (x1 x2 : Vec F S1x1x3200 .f32) (k : Fin k0_t1_loop.trips) :
    tripL_k0_t1 (F := F) 𝒱 c bd i arg1 harg1 arg2 harg2 arg3 harg3 arg4 harg4 arg5 harg5 v0 (harg3.unread x1) (harg4.unread x2) k
      = [⟨Rect.unit (s := S1x128x3200) (k0_off3 k) S1x128x128.size (k0_off3_inb k),
          Tile.tile v0 (laneRow k x1) (laneRow k x2)⟩] := by
  unfold tripL_k0_t1 trip_k0_t1
  dsimp only
  sl_unfold_words
  simp only [View.readAt_eq_ld, harg3.read_unread, harg4.read_unread]
  rfl

/-- Every piece of the first `n` trips is a tile of the block function. -/
theorem pieces_of_block (x1 x2 : Vec F S1x1x3200 .f32) :
    ∀ n : ℕ, n ≤ k0_t1_loop.trips →
      ∀ p ∈ pb_k0_t1 (F := F) 𝒱 c bd i arg1 harg1 arg2 harg2 arg3 harg3 arg4 harg4 arg5 harg5 v0 (harg3.unread x1) (harg4.unread x2) n,
        ∀ x : p.1.shape.Idx, p.2 x = blockFn v0 x1 x2 (p.1.emb x)
  | 0, _ => by intro p hp; simp [pb_k0_t1] at hp
  | n + 1, hn => by
    intro p hp x
    have hlt : n < k0_t1_loop.trips := hn
    have e := pb_k0_t1_succ (F := F) 𝒱 c bd i arg1 harg1 arg2 harg2 arg3 harg3 arg4 harg4 arg5 harg5 v0 (harg3.unread x1) (harg4.unread x2) ⟨n, hlt⟩
    rw [show (⟨n, hlt⟩ : Fin k0_t1_loop.trips).val + 1 = n + 1 from rfl] at e
    rw [e, tripL_eq] at hp
    rcases List.mem_append.mp hp with h1 | h2
    · rw [List.mem_singleton] at h1
      subst h1
      exact tile_is_block v0 x1 x2 ⟨n, hlt⟩ x
    · exact pieces_of_block x1 x2 n (Nat.le_of_lt hlt) p h2 x
end

section
variable (c : Dev nD) (i : grid0.Coords) (arg2 : Memref sig .tc .vmem S1x8192x160 .bf16) (harg2 : arg2.IsWhole) (arg3 : Memref sig .tc .vmem S1x1x3200 .f32) (harg3 : arg3.IsWhole) (arg4 : Memref sig .tc .vmem S1x1x3200 .f32) (harg4 : arg4.IsWhole) (arg5 : Memref sig .tc .vmem S1x128x3200 .f32) (harg5 : arg5.IsWhole)
    (x0 : Vec F S1x8192x160 .bf16) (x1 : Vec F S1x1x3200 .f32) (x2 : Vec F S1x1x3200 .f32) (xt0 : TbBuf0 (F := F) c tbM0_0)

/-- The pieces the whole body leaves are the pieces of its 25 trips, over the slab as loaded whole. -/
theorem run_list :
    (kernelRun0_A c i arg2 harg2 arg3 harg3 arg4 harg4 arg5 harg5 x0 x1 x2 xt0).1
      = pb_k0_t1 (F := F) Variants.none c none i tbM0_0 htbM0_0 arg2 harg2 arg3 harg3 arg4 harg4 arg5 harg5 x0
          (harg3.unread x1) (harg4.unread x2) k0_t1_loop.trips := by
  unfold kernelRun0_A
  dsimp only
  have hz : (![0, 0, 0] : Fin S1x8192x160.rank → Nat) = fun _ => 0 := by funext a; fin_cases a <;> rfl
  rw [View.readAt_eq_ld, harg2.read_unread, View.ld_unit_zero (S := S1x8192x160) hz]

/-- THE OUTPUT BLOCK after the body, at any index: the block function of the slab and the two coordinate rows. -/
theorem out_apply (y : S1x128x3200.Idx) :
    out0_A_3 c i arg2 harg2 arg3 harg3 arg4 harg4 arg5 harg5 x0 x1 x2 xt0 y = blockFn x0 x1 x2 y := by
  unfold out0_A_3
  rw [View.read_writes_junk_eq_canon]
  refine View.canon_apply_of_pieces (blockFn x0 x1 x2) _ ?_ y (cover0_A_3 c i arg2 harg2 arg3 harg3 arg4 harg4 arg5 harg5 x0 x1 x2 xt0 y)
  rw [run_list]
  exact pieces_of_block Variants.none c none i tbM0_0 htbM0_0 arg2 harg2 arg3 harg3 arg4 harg4 arg5 harg5 x0 x1 x2 k0_t1_loop.trips le_rfl
end

end Cert.KernelIdeal.Pieces
end
-- ==== Proof.TileTaps.lean ====
/-
  The kernel's column taps and row taps, read at one position and one query, at the extended reals: for a finite
  coordinate they are the real tap of that position (Spec: `tap`), the weight of each neighbour of the pixel
  coordinate that clamps to the position.

  The road. Everything is first said of ONE lane: for a finite coordinate g the lane holds the real numbers the
  specification names — the pixel coordinate t = (g + 1)·s − 1/2, its floor ⌊t⌋ and ⌊t⌋ + 1 as integers cast to
  reals, the two "inside the axis" bits, the two weights, and the two clamped positions as 32-bit words. Each of
  these is an identity between real numbers (or between small natural numbers), proved once over a real variable
  and an integer variable; the lane lemmas only carry them to the coordinates of the arrays. A tap is then the sum
  of two selections, each keeping a weight exactly where the position equals a clamped neighbour.
-/
import proofs.«401064_j4922032521570_3_alg».proof.Proof.Tile
import Idealize.ShloMosaic.Lib.ValueLayout

noncomputable section

namespace Cert.KernelIdeal.Tile

open Cert.KernelIdeal Cert.KernelIdeal.Gen Idealize.ShloMosaic Idealize.ShloMosaic.ValueIdx Cert.Bilinear

namespace Taps

/-! ## The constants the arithmetic spells, as the reals their patterns denote -/

/-- The pattern of 1.0 is the real 1: significand 2^23 at exponent 0. -/
theorem c_one : Scalar.ofBits (F := Ideal) .f32 0x3F800000#32 = ((1 : ℝ) : EReal) := by
  show Ideal.ofBits .f32 0x3F800000#32 = _
  simp [Ideal.ofBits, Ideal.ieee, -EReal.coe_mul]; norm_num
/-- The pattern of 80.0 is the real 80 = 1.25 · 2^6. -/
theorem c_80 : Scalar.ofBits (F := Ideal) .f32 0x42A00000#32 = ((80 : ℝ) : EReal) := by
  show Ideal.ofBits .f32 0x42A00000#32 = _
  simp [Ideal.ofBits, Ideal.ieee, -EReal.coe_mul]; norm_num
/-- The pattern of 0.5 is the real 1/2. -/
theorem c_half : Scalar.ofBits (F := Ideal) .f32 0x3F000000#32 = ((1 / 2 : ℝ) : EReal) := by
  show Ideal.ofBits .f32 0x3F000000#32 = _
  simp [Ideal.ofBits, Ideal.ieee, -EReal.coe_mul]; norm_num
/-- The pattern of 159.0 is the natural number 159, the last column. -/
theorem c_159 : Scalar.ofBits (F := Ideal) .f32 0x431F0000#32 = (((159 : ℕ) : ℝ) : EReal) := by
  show Ideal.ofBits .f32 0x431F0000#32 = _
  simp [Ideal.ofBits, Ideal.ieee, -EReal.coe_mul]; norm_num
/-- The pattern of 63.0 is the natural number 63, the last row. -/
theorem c_63 : Scalar.ofBits (F := Ideal) .f32 0x427C0000#32 = (((63 : ℕ) : ℝ) : EReal) := by
  show Ideal.ofBits .f32 0x427C0000#32 = _
  simp [Ideal.ofBits, Ideal.ieee, -EReal.coe_mul]; norm_num
/-- The pattern of 32.0 is the real 32 = 2^5. -/
theorem c_32 : Scalar.ofBits (F := Ideal) .f32 0x42000000#32 = ((32 : ℝ) : EReal) := by
  show Ideal.ofBits .f32 0x42000000#32 = _
  simp [Ideal.ofBits, Ideal.ieee, -EReal.coe_mul]; norm_num
/-- The all-zero pattern is the real 0. -/
theorem c_zero : Scalar.ofBits (F := Ideal) .f32 0x00000000#32 = ((0 : ℝ) : EReal) := by
  show Ideal.ofBits .f32 0x00000000#32 = _
  simp [Ideal.ofBits, Ideal.ieee]

/-! ## The arithmetic of one lane, over a real coordinate and an integer pixel -/

/-- The pixel coordinate (g + 1)·s − 1/2 of a finite coordinate: sums, products and differences of finite
    extended reals are those of the reals. -/
theorem pix_coe (s g : ℝ) :
    ((g : EReal) + ((1 : ℝ) : EReal)) * ((s : ℝ) : EReal) - ((1 / 2 : ℝ) : EReal) = ((pix s g : ℝ) : EReal) := by
  unfold pix
  rw [← EReal.coe_add, ← EReal.coe_mul, ← EReal.coe_sub]

/-- The upper neighbour: an integer plus one, on its image in the extended reals. -/
theorem succ_coe (z : ℤ) : (((z : ℤ) : ℝ) : EReal) + ((1 : ℝ) : EReal) = (((z + 1 : ℤ) : ℝ) : EReal) := by
  rw [← EReal.coe_add]; push_cast; rfl

/-- The two comparisons 0 ≤ z and z ≤ n of an integer, made on its image in the extended reals, hold together
    exactly when z lies on the axis 0 … n: the embeddings ℤ → ℝ → [−∞, +∞] keep the order. -/
theorem mask_eq (n : ℕ) (z : ℤ) :
    IntOp.andi (FloatOps.cmpf (F := Ideal) (φ := .f32) .oge (((z : ℤ) : ℝ) : EReal) ((0 : ℝ) : EReal))
        (FloatOps.cmpf (F := Ideal) (φ := .f32) .ole (((z : ℤ) : ℝ) : EReal) (((n : ℕ) : ℝ) : EReal))
      = if inside n z then 1#1 else 0#1 := by
  have h0 : (((0 : ℝ) : EReal) ≤ (((z : ℤ) : ℝ) : EReal)) ↔ 0 ≤ z := by
    rw [EReal.coe_le_coe_iff]; norm_cast
  have h1 : ((((z : ℤ) : ℝ) : EReal) ≤ (((n : ℕ) : ℝ) : EReal)) ↔ z ≤ (n : ℤ) := by
    rw [EReal.coe_le_coe_iff, ← Int.cast_natCast, Int.cast_le]
  show IntOp.andi (BitVec.ofBool (decide _)) (BitVec.ofBool (decide _)) = _
  simp only [h0, h1]
  unfold inside IntOp.andi
  by_cases a : 0 ≤ z <;> by_cases b : z ≤ (n : ℤ) <;> simp [a, b]

/-- A selection on a bit that is 1 exactly when P holds is the choice by P. -/
theorem select_ite {α : Type} (P : Prop) [Decidable P] (a b : α) :
    Scalar.select (if P then 1#1 else 0#1) a b = if P then a else b := by
  by_cases h : P <;> simp [h, Scalar.select]

/-- The integer z clamped between 0 and n at the extended reals, then converted to a 32-bit word, is the word of
    the natural number `clampN n z`. The real min n (max 0 z) is the integer max 0 (min n z) cast (for n ≥ 0 the two
    orders of clamping agree); that integer is its own floor and ceiling, so rounding toward zero returns it; it lies
    between 0 and n < 2^31, so the clamp to the signed 32-bit range does nothing; and the word of a non-negative
    integer is the word of the natural number. -/
theorem clamp_word (n : ℕ) (hn : n < 2 ^ 31) (z : ℤ) :
    FloatOps.fptosi (F := Ideal) (φ := .f32) 32
        (min (((n : ℕ) : ℝ) : EReal) (max ((0 : ℝ) : EReal) (((z : ℤ) : ℝ) : EReal)))
      = BitVec.ofNat 32 (clampN n z) := by
  have hm : min (((n : ℕ) : ℝ) : EReal) (max ((0 : ℝ) : EReal) (((z : ℤ) : ℝ) : EReal))
      = ((((max 0 (min (n : ℤ) z) : ℤ)) : ℝ) : EReal) := by
    rw [← EReal.coe_strictMono.monotone.map_max, ← EReal.coe_strictMono.monotone.map_min]
    congr 1
    push_cast
    rcases le_total z 0 with hz | hz
    · have hz' : (z : ℝ) ≤ 0 := by exact_mod_cast hz
      have hn' : (0 : ℝ) ≤ (n : ℝ) := Nat.cast_nonneg n
      rw [max_eq_left hz', min_eq_right hn', max_eq_left]
      exact le_trans (min_le_right _ _) hz'
    · have hz' : (0 : ℝ) ≤ (z : ℝ) := by exact_mod_cast hz
      have hn' : (0 : ℝ) ≤ (n : ℝ) := Nat.cast_nonneg n
      rw [max_eq_right hz', max_eq_right (le_min hn' hz')]
  rw [hm]
  show BitVec.ofInt 32 (Ideal.toIntClamped _ _ _) = _
  rw [Ideal.toIntClamped_coe]
  simp only [Int.floor_intCast, Int.ceil_intCast, ite_self]
  have h1 : 0 ≤ max 0 (min (n : ℤ) z) := le_max_left _ _
  have h2 : max 0 (min (n : ℤ) z) ≤ n := by omega
  unfold clampN
  generalize max 0 (min (n : ℤ) z) = m at *
  have : max (-((2 ^ (32 - 1) : ℕ) : ℤ)) (min (((2 ^ (32 - 1) : ℕ) : ℤ) - 1) m) = ((m.toNat : ℕ) : ℤ) := by
    have : ((2 ^ (32 - 1) : ℕ) : ℤ) = 2147483648 := by norm_num
    rw [this]; omega
  rw [this, BitVec.ofInt_natCast]

/-- Two positions below 2^32 have equal 32-bit words exactly when they are equal: below 2^32 a number is the
    value of its word. -/
theorem pos_test (w c : ℕ) (hw : w < 2 ^ 32) (hc : c < 2 ^ 32) :
    IntOp.cmpi .eq (BitVec.ofNat 32 w) (BitVec.ofNat 32 c) = if w = c then 1#1 else 0#1 := by
  by_cases h : w = c
  · subst h; simp [IntOp.cmpi]
  · rw [if_neg h]
    have hne : BitVec.ofNat 32 w ≠ BitVec.ofNat 32 c := by
      intro he
      apply h
      have := congrArg BitVec.toNat he
      rwa [BitVec.toNat_ofNat, BitVec.toNat_ofNat, Nat.mod_eq_of_lt hw, Nat.mod_eq_of_lt hc] at this
    show BitVec.ofBool (BitVec.ofNat 32 w == BitVec.ofNat 32 c) = 0#1
    rw [beq_eq_false_iff_ne.mpr hne]; rfl

/-! ## Lane j of the values made from the x-coordinates (axis 0 … 159, half-extent 80) -/

section ColumnLanes
variable (gx : Vec Ideal S1x1x128 .f32) (j : Fin 128) (g : ℝ)
  (hg : gx (ix3 (0 : Fin 1) (0 : Fin 1) j) = (g : EReal))
include hg

/-- The pixel coordinate t = (g + 1)·80 − 1/2. -/
theorem pay2_lane : k0_pay2 (F := Ideal) gx (ix2 (0 : Fin 1) j) = ((pix 80 g : ℝ) : EReal) := by
  show (shapeCast S1x128 gx Gen.shapeCasts_S1x1x128_S1x128 (ix2 (0 : Fin 1) j) + Scalar.ofBits (F := Ideal) .f32 0x3F800000#32)
      * Scalar.ofBits (F := Ideal) .f32 0x42A00000#32 - Scalar.ofBits (F := Ideal) .f32 0x3F000000#32 = _
  rw [shapeCast_1ab_ab_apply, hg, c_one, c_80, c_half, pix_coe]

/-- The lower neighbour ⌊t⌋. -/
theorem pay4_lane : k0_pay4 (F := Ideal) gx (ix2 (0 : Fin 1) j) = (((⌊pix 80 g⌋ : ℤ) : ℝ) : EReal) := by
  show FloatOps.floor (F := Ideal) (φ := .f32) (k0_pay2 (F := Ideal) gx (ix2 (0 : Fin 1) j)) = _
  rw [pay2_lane gx j g hg]; rfl

/-- The upper neighbour ⌊t⌋ + 1. -/
theorem pay6_lane : k0_pay6 (F := Ideal) gx (ix2 (0 : Fin 1) j) = (((⌊pix 80 g⌋ + 1 : ℤ) : ℝ) : EReal) := by
  show k0_pay4 (F := Ideal) gx (ix2 (0 : Fin 1) j) + Scalar.ofBits (F := Ideal) .f32 0x3F800000#32 = _
  rw [pay4_lane gx j g hg, c_one, succ_coe]

/-- The bit "the lower neighbour is a column of the image". -/
theorem pay8_lane : k0_pay8 (F := Ideal) gx (ix2 (0 : Fin 1) j) = if inside 159 ⌊pix 80 g⌋ then 1#1 else 0#1 := by
  show IntOp.andi
      (FloatOps.cmpf (F := Ideal) (φ := .f32) .oge (k0_pay4 (F := Ideal) gx (ix2 (0 : Fin 1) j)) (Scalar.ofBits (F := Ideal) .f32 0x00000000#32))
      (FloatOps.cmpf (F := Ideal) (φ := .f32) .ole (k0_pay4 (F := Ideal) gx (ix2 (0 : Fin 1) j)) (Scalar.ofBits (F := Ideal) .f32 0x431F0000#32)) = _
  rw [pay4_lane gx j g hg, c_zero, c_159]
  exact mask_eq 159 _

/-- The bit "the upper neighbour is a column of the image". -/
theorem pay9_lane : k0_pay9 (F := Ideal) gx (ix2 (0 : Fin 1) j) = if inside 159 (⌊pix 80 g⌋ + 1) then 1#1 else 0#1 := by
  show IntOp.andi
      (FloatOps.cmpf (F := Ideal) (φ := .f32) .oge (k0_pay6 (F := Ideal) gx (ix2 (0 : Fin 1) j)) (Scalar.ofBits (F := Ideal) .f32 0x00000000#32))
      (FloatOps.cmpf (F := Ideal) (φ := .f32) .ole (k0_pay6 (F := Ideal) gx (ix2 (0 : Fin 1) j)) (Scalar.ofBits (F := Ideal) .f32 0x431F0000#32)) = _
  rw [pay6_lane gx j g hg, c_zero, c_159]
  exact mask_eq 159 _

/-- The lower neighbour's weight (⌊t⌋ + 1) − t where that neighbour is inside, copied to every position w. -/
theorem pay19_lane (w : Fin 160) :
    k0_pay19 (F := Ideal) (k0_pay2 gx) (k0_pay6 gx) (k0_pay8 gx) (ix2 w j) = ((wLo 159 (pix 80 g) : ℝ) : EReal) := by
  show broadcastTo S160x128
      (shapeCast S1x128
        (select (k0_pay8 (F := Ideal) gx) (subf (k0_pay6 (F := Ideal) gx) (k0_pay2 (F := Ideal) gx))
          (broadcast S1x128 (Scalar.ofBits (F := Ideal) .f32 0x00000000#32))) Gen.shapeCasts_S1x128_S1x128)
      Gen.broadcasts_S1x128_S160x128 (ix2 w j) = _
  rw [broadcastTo_1b_ab_apply, shapeCast_self]
  show Scalar.select (k0_pay8 (F := Ideal) gx (ix2 (0 : Fin 1) j))
      (k0_pay6 (F := Ideal) gx (ix2 (0 : Fin 1) j) - k0_pay2 (F := Ideal) gx (ix2 (0 : Fin 1) j))
      (Scalar.ofBits (F := Ideal) .f32 0x00000000#32) = _
  rw [pay8_lane gx j g hg, pay6_lane gx j g hg, pay2_lane gx j g hg, c_zero, select_ite]
  unfold wLo
  by_cases h : inside 159 ⌊pix 80 g⌋
  · rw [if_pos h, if_pos h, ← EReal.coe_sub]
    simp only [Int.cast_add, Int.cast_one]
  · rw [if_neg h, if_neg h]

/-- The upper neighbour's weight t − ⌊t⌋ where that neighbour is inside. -/
theorem pay12_lane :
    k0_pay12 (F := Ideal) (k0_pay2 gx) (k0_pay4 gx) (k0_pay9 gx) (ix2 (0 : Fin 1) j) = ((wHi 159 (pix 80 g) : ℝ) : EReal) := by
  show Scalar.select (k0_pay9 (F := Ideal) gx (ix2 (0 : Fin 1) j))
      (k0_pay2 (F := Ideal) gx (ix2 (0 : Fin 1) j) - k0_pay4 (F := Ideal) gx (ix2 (0 : Fin 1) j))
      (Scalar.ofBits (F := Ideal) .f32 0x00000000#32) = _
  rw [pay9_lane gx j g hg, pay2_lane gx j g hg, pay4_lane gx j g hg, c_zero, select_ite]
  unfold wHi
  by_cases h : inside 159 (⌊pix 80 g⌋ + 1)
  · rw [if_pos h, if_pos h, ← EReal.coe_sub]
  · rw [if_neg h, if_neg h]

/-- The upper neighbour's clamped column, as a word. -/
theorem pay15_lane :
    k0_pay15 (F := Ideal) (k0_pay6 gx) (ix2 (0 : Fin 1) j) = BitVec.ofNat 32 (clampN 159 (⌊pix 80 g⌋ + 1)) := by
  show FloatOps.fptosi (F := Ideal) (φ := .f32) 32
      (min (Scalar.ofBits (F := Ideal) .f32 0x431F0000#32)
        (max (Scalar.ofBits (F := Ideal) .f32 0x00000000#32) (k0_pay6 (F := Ideal) gx (ix2 (0 : Fin 1) j)))) = _
  rw [pay6_lane gx j g hg, c_zero, c_159]
  exact clamp_word 159 (by norm_num) _

/-- The bit "position w is the lower neighbour's clamped column": the position's number along the first axis
    against the clamped column's word, both below 2^32. -/
theorem pay18_lane (w : Fin 160) :
    k0_pay18 (F := Ideal) (k0_pay4 gx) (ix2 w j) = if w.val = clampN 159 ⌊pix 80 g⌋ then 1#1 else 0#1 := by
  show IntOp.cmpi .eq (iota .tc S160x128 32 [0] Gen.iota_S160x128_d0_w32 (ix2 w j))
      (broadcastTo S160x128
        (fptosi 32 (minimumf (broadcast S1x128 (Scalar.ofBits (F := Ideal) .f32 0x431F0000#32))
          (maximumf (broadcast S1x128 (Scalar.ofBits (F := Ideal) .f32 0x00000000#32)) (k0_pay4 (F := Ideal) gx))))
        Gen.broadcasts_S1x128_S160x128 (ix2 w j)) = _
  rw [broadcastTo_1b_ab_apply, iota_single_apply]
  show IntOp.cmpi .eq (BitVec.ofNat 32 w.val)
      (FloatOps.fptosi (F := Ideal) (φ := .f32) 32
        (min (Scalar.ofBits (F := Ideal) .f32 0x431F0000#32)
          (max (Scalar.ofBits (F := Ideal) .f32 0x00000000#32) (k0_pay4 (F := Ideal) gx (ix2 (0 : Fin 1) j))))) = _
  rw [pay4_lane gx j g hg, c_zero, c_159, clamp_word 159 (by norm_num) _]
  exact pos_test w.val _ (by have := w.isLt; omega) (lt_of_le_of_lt (clampN_le _ _) (by norm_num))

end ColumnLanes

/-! ## Lane j of the values made from the y-coordinates (axis 0 … 63, half-extent 32) -/

section RowLanes
variable (gy : Vec Ideal S1x1x128 .f32) (j : Fin 128) (g : ℝ)
  (hg : gy (ix3 (0 : Fin 1) (0 : Fin 1) j) = (g : EReal))
include hg

/-- The pixel coordinate t = (g + 1)·32 − 1/2. -/
theorem pay3_lane : k0_pay3 (F := Ideal) gy (ix2 (0 : Fin 1) j) = ((pix 32 g : ℝ) : EReal) := by
  show (shapeCast S1x128 gy Gen.shapeCasts_S1x1x128_S1x128 (ix2 (0 : Fin 1) j) + Scalar.ofBits (F := Ideal) .f32 0x3F800000#32)
      * Scalar.ofBits (F := Ideal) .f32 0x42000000#32 - Scalar.ofBits (F := Ideal) .f32 0x3F000000#32 = _
  rw [shapeCast_1ab_ab_apply, hg, c_one, c_32, c_half, pix_coe]

/-- The lower neighbour ⌊t⌋. -/
theorem pay5_lane : k0_pay5 (F := Ideal) gy (ix2 (0 : Fin 1) j) = (((⌊pix 32 g⌋ : ℤ) : ℝ) : EReal) := by
  show FloatOps.floor (F := Ideal) (φ := .f32) (k0_pay3 (F := Ideal) gy (ix2 (0 : Fin 1) j)) = _
  rw [pay3_lane gy j g hg]; rfl

/-- The upper neighbour ⌊t⌋ + 1. -/
theorem pay7_lane : k0_pay7 (F := Ideal) gy (ix2 (0 : Fin 1) j) = (((⌊pix 32 g⌋ + 1 : ℤ) : ℝ) : EReal) := by
  show k0_pay5 (F := Ideal) gy (ix2 (0 : Fin 1) j) + Scalar.ofBits (F := Ideal) .f32 0x3F800000#32 = _
  rw [pay5_lane gy j g hg, c_one, succ_coe]

/-- The lower neighbour's weight (⌊t⌋ + 1) − t where that neighbour is a row of the image; the two comparisons
    that make the "inside" bit arrive here as separate values and are joined inside this one. -/
theorem pay13_lane :
    k0_pay13 (F := Ideal) (k0_pay3 gy) (k0_pay7 gy) (k0_pay10 gy) (k0_pay11 gy) (ix2 (0 : Fin 1) j)
      = ((wLo 63 (pix 32 g) : ℝ) : EReal) := by
  show Scalar.select
      (IntOp.andi
        (FloatOps.cmpf (F := Ideal) (φ := .f32) .oge (k0_pay5 (F := Ideal) gy (ix2 (0 : Fin 1) j)) (Scalar.ofBits (F := Ideal) .f32 0x00000000#32))
        (FloatOps.cmpf (F := Ideal) (φ := .f32) .ole (k0_pay5 (F := Ideal) gy (ix2 (0 : Fin 1) j)) (Scalar.ofBits (F := Ideal) .f32 0x427C0000#32)))
      (k0_pay7 (F := Ideal) gy (ix2 (0 : Fin 1) j) - k0_pay3 (F := Ideal) gy (ix2 (0 : Fin 1) j))
      (Scalar.ofBits (F := Ideal) .f32 0x00000000#32) = _
  rw [pay5_lane gy j g hg, pay7_lane gy j g hg, pay3_lane gy j g hg, c_zero, c_63, mask_eq 63 _, select_ite]
  unfold wLo
  by_cases h : inside 63 ⌊pix 32 g⌋
  · rw [if_pos h, if_pos h, ← EReal.coe_sub]
    simp only [Int.cast_add, Int.cast_one]
  · rw [if_neg h, if_neg h]

/-- The upper neighbour's weight t − ⌊t⌋ where that neighbour is a row of the image. -/
theorem pay14_lane :
    k0_pay14 (F := Ideal) (k0_pay3 gy) (k0_pay5 gy) (k0_pay7 gy) (ix2 (0 : Fin 1) j)
      = ((wHi 63 (pix 32 g) : ℝ) : EReal) := by
  show Scalar.select
      (IntOp.andi
        (FloatOps.cmpf (F := Ideal) (φ := .f32) .oge (k0_pay7 (F := Ideal) gy (ix2 (0 : Fin 1) j)) (Scalar.ofBits (F := Ideal) .f32 0x00000000#32))
        (FloatOps.cmpf (F := Ideal) (φ := .f32) .ole (k0_pay7 (F := Ideal) gy (ix2 (0 : Fin 1) j)) (Scalar.ofBits (F := Ideal) .f32 0x427C0000#32)))
      (k0_pay3 (F := Ideal) gy (ix2 (0 : Fin 1) j) - k0_pay5 (F := Ideal) gy (ix2 (0 : Fin 1) j))
      (Scalar.ofBits (F := Ideal) .f32 0x00000000#32) = _
  rw [pay7_lane gy j g hg, pay3_lane gy j g hg, pay5_lane gy j g hg, c_zero, c_63, mask_eq 63 _, select_ite]
  unfold wHi
  by_cases h : inside 63 (⌊pix 32 g⌋ + 1)
  · rw [if_pos h, if_pos h, ← EReal.coe_sub]
  · rw [if_neg h, if_neg h]

/-- The lower neighbour's clamped row, as a word. -/
theorem pay16_lane :
    k0_pay16 (F := Ideal) (k0_pay5 gy) (ix2 (0 : Fin 1) j) = BitVec.ofNat 32 (clampN 63 ⌊pix 32 g⌋) := by
  show FloatOps.fptosi (F := Ideal) (φ := .f32) 32
      (min (Scalar.ofBits (F := Ideal) .f32 0x427C0000#32)
        (max (Scalar.ofBits (F := Ideal) .f32 0x00000000#32) (k0_pay5 (F := Ideal) gy (ix2 (0 : Fin 1) j)))) = _
  rw [pay5_lane gy j g hg, c_zero, c_63]
  exact clamp_word 63 (by norm_num) _

/-- The upper neighbour's clamped row, as a word. -/
theorem pay17_lane :
    k0_pay17 (F := Ideal) (k0_pay7 gy) (ix2 (0 : Fin 1) j) = BitVec.ofNat 32 (clampN 63 (⌊pix 32 g⌋ + 1)) := by
  show FloatOps.fptosi (F := Ideal) (φ := .f32) 32
      (min (Scalar.ofBits (F := Ideal) .f32 0x427C0000#32)
        (max (Scalar.ofBits (F := Ideal) .f32 0x00000000#32) (k0_pay7 (F := Ideal) gy (ix2 (0 : Fin 1) j)))) = _
  rw [pay7_lane gy j g hg, c_zero, c_63]
  exact clamp_word 63 (by norm_num) _

end RowLanes

end Taps

open Taps

/-- The column tap of position `w` for query `j`: the real tap on the axis 0 … 159 at the pixel coordinate
    (gx + 1)·80 − 1/2 of the query's x-coordinate. -/
theorem colTaps_apply (gx : Vec Ideal S1x1x128 .f32) (hx : ∀ i, ∃ r : ℝ, gx i = (r : EReal))
    (w : Fin 160) (j : Fin 128) :
    colTaps (F := Ideal) gx (ix2 w j)
      = ((tap 159 (pix 80 (gx (ix3 (0 : Fin 1) (0 : Fin 1) j)).toReal) w.val : ℝ) : EReal) := by
  obtain ⟨g, hg⟩ := hx (ix3 (0 : Fin 1) (0 : Fin 1) j)
  rw [hg, EReal.toReal_coe]
  -- position w, query j: the lower neighbour's selection plus the upper neighbour's
  show Scalar.select (k0_pay18 (F := Ideal) (k0_pay4 gx) (ix2 w j))
        (k0_pay19 (F := Ideal) (k0_pay2 gx) (k0_pay6 gx) (k0_pay8 gx) (ix2 w j))
        (Scalar.ofBits (F := Ideal) .f32 0x00000000#32)
      + Scalar.select
        (IntOp.cmpi .eq (iota .tc S160x128 32 [0] Gen.iota_S160x128_d0_w32 (ix2 w j))
          (broadcastTo S160x128 (k0_pay15 (F := Ideal) (k0_pay6 gx)) Gen.broadcasts_S1x128_S160x128 (ix2 w j)))
        (broadcastTo S160x128
          (shapeCast S1x128 (k0_pay12 (F := Ideal) (k0_pay2 gx) (k0_pay4 gx) (k0_pay9 gx)) Gen.shapeCasts_S1x128_S1x128)
          Gen.broadcasts_S1x128_S160x128 (ix2 w j))
        (Scalar.ofBits (F := Ideal) .f32 0x00000000#32) = _
  rw [broadcastTo_1b_ab_apply, broadcastTo_1b_ab_apply, shapeCast_self, iota_single_apply,
    pay18_lane gx j g hg, pay19_lane gx j g hg, pay15_lane gx j g hg, pay12_lane gx j g hg, c_zero]
  show Scalar.select _ _ _ + Scalar.select (IntOp.cmpi .eq (BitVec.ofNat 32 w.val) _) _ _ = _
  rw [pos_test w.val _ (by have := w.isLt; omega) (lt_of_le_of_lt (clampN_le _ _) (by norm_num)),
    select_ite, select_ite]
  -- both sides are now the sum of the two weights, each kept where w is its neighbour's clamped column
  unfold tap
  rw [EReal.coe_add]
  congr 1 <;> split_ifs <;> rfl

/-- The row tap of position `h` for query `j`: the real tap on the axis 0 … 63 at the pixel coordinate
    (gy + 1)·32 − 1/2 of the query's y-coordinate. -/
theorem rowTaps_apply (gy : Vec Ideal S1x1x128 .f32) (hy : ∀ i, ∃ r : ℝ, gy i = (r : EReal))
    (h : Fin 64) (j : Fin 128) :
    rowTaps (F := Ideal) gy (ix2 h j)
      = ((tap 63 (pix 32 (gy (ix3 (0 : Fin 1) (0 : Fin 1) j)).toReal) h.val : ℝ) : EReal) := by
  obtain ⟨g, hg⟩ := hy (ix3 (0 : Fin 1) (0 : Fin 1) j)
  rw [hg, EReal.toReal_coe]
  -- position h, query j: the lower neighbour's selection plus the upper neighbour's
  show Scalar.select
        (IntOp.cmpi .eq (iota .tc S64x128 32 [0] Gen.iota_S64x128_d0_w32 (ix2 h j))
          (broadcastTo S64x128 (k0_pay16 (F := Ideal) (k0_pay5 gy)) Gen.broadcasts_S1x128_S64x128 (ix2 h j)))
        (broadcastTo S64x128
          (shapeCast S1x128 (k0_pay13 (F := Ideal) (k0_pay3 gy) (k0_pay7 gy) (k0_pay10 gy) (k0_pay11 gy))
            Gen.shapeCasts_S1x128_S1x128)
          Gen.broadcasts_S1x128_S64x128 (ix2 h j))
        (Scalar.ofBits (F := Ideal) .f32 0x00000000#32)
      + Scalar.select
        (IntOp.cmpi .eq (iota .tc S64x128 32 [0] Gen.iota_S64x128_d0_w32 (ix2 h j))
          (broadcastTo S64x128 (k0_pay17 (F := Ideal) (k0_pay7 gy)) Gen.broadcasts_S1x128_S64x128 (ix2 h j)))
        (broadcastTo S64x128
          (shapeCast S1x128 (k0_pay14 (F := Ideal) (k0_pay3 gy) (k0_pay5 gy) (k0_pay7 gy)) Gen.shapeCasts_S1x128_S1x128)
          Gen.broadcasts_S1x128_S64x128 (ix2 h j))
        (Scalar.ofBits (F := Ideal) .f32 0x00000000#32) = _
  rw [broadcastTo_1b_ab_apply, broadcastTo_1b_ab_apply, broadcastTo_1b_ab_apply, broadcastTo_1b_ab_apply,
    shapeCast_self, shapeCast_self, iota_single_apply,
    pay16_lane gy j g hg, pay13_lane gy j g hg, pay17_lane gy j g hg, pay14_lane gy j g hg, c_zero]
  show Scalar.select (IntOp.cmpi .eq (BitVec.ofNat 32 h.val) _) _ _
      + Scalar.select (IntOp.cmpi .eq (BitVec.ofNat 32 h.val) _) _ _ = _
  rw [pos_test h.val (clampN 63 ⌊pix 32 g⌋) (by have := h.isLt; omega) (lt_of_le_of_lt (clampN_le _ _) (by norm_num)),
    pos_test h.val (clampN 63 (⌊pix 32 g⌋ + 1)) (by have := h.isLt; omega) (lt_of_le_of_lt (clampN_le _ _) (by norm_num)),
    select_ite, select_ite]
  -- both sides are now the sum of the two weights, each kept where h is its neighbour's clamped row
  unfold tap
  rw [EReal.coe_add]
  congr 1 <;> split_ifs <;> rfl

end Cert.KernelIdeal.Tile

end
-- ==== Proof.TileContract.lean ====
/-
  The kernel's contraction read at channel c and query j, at the extended reals: the sum over the rows h of
  (the sum over the columns w of slab[h·128 + c, w] · column tap[w, j]) · row tap[h, j].
-/
import proofs.«401064_j4922032521570_3_alg».proof.Proof.Tile
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Tile

open Cert.KernelIdeal Cert.KernelIdeal.Gen Idealize.ShloMosaic Idealize.ShloMosaic.ValueIdx Cert.Bilinear

/-! ## The product's operand indices

The product's record contracts the slab's column axis (left axis 1) with the taps' position axis (right axis 0); the
slab's row axis and the taps' query axis are the result's two axes. Read at a result index and a contraction position,
each operand's index has one coordinate from the result and one from the contraction. -/

/-- Left operand, row axis: the result's row. -/
theorem lhs_dot_0 (j : S8192x128.Idx)
    (k : (Cert.KernelIdeal.dot_S8192x160_S160x128_S8192x128_1_0_0_1_n_n).contr.Idx) :
    ((Cert.KernelIdeal.dot_S8192x160_S160x128_S8192x128_1_0_0_1_n_n).lhsIdx j k 0).val = (j 0).val := by
  simp [DotDims.lhsIdx, Cert.KernelIdeal.dot_S8192x160_S160x128_S8192x128_1_0_0_1_n_n]
  rfl

/-- Left operand, column axis: the contraction position. -/
theorem lhs_dot_1 (j : S8192x128.Idx)
    (k : (Cert.KernelIdeal.dot_S8192x160_S160x128_S8192x128_1_0_0_1_n_n).contr.Idx) :
    ((Cert.KernelIdeal.dot_S8192x160_S160x128_S8192x128_1_0_0_1_n_n).lhsIdx j k 1).val = (k ⟨0, Nat.one_pos⟩).val :=
  DotDims.lhsIdx_val_of_single _ rfl j k

/-- Right operand, position axis: the contraction position. -/
theorem rhs_dot_0 (j : S8192x128.Idx)
    (k : (Cert.KernelIdeal.dot_S8192x160_S160x128_S8192x128_1_0_0_1_n_n).contr.Idx) :
    ((Cert.KernelIdeal.dot_S8192x160_S160x128_S8192x128_1_0_0_1_n_n).rhsIdx j k 0).val = (k ⟨0, Nat.one_pos⟩).val :=
  DotDims.rhsIdx_val_of_single _ rfl j k

/-- Right operand, query axis: the result's column. -/
theorem rhs_dot_1 (j : S8192x128.Idx)
    (k : (Cert.KernelIdeal.dot_S8192x160_S160x128_S8192x128_1_0_0_1_n_n).contr.Idx) :
    ((Cert.KernelIdeal.dot_S8192x160_S160x128_S8192x128_1_0_0_1_n_n).rhsIdx j k 1).val = (j 1).val := by
  simp [DotDims.rhsIdx, Cert.KernelIdeal.dot_S8192x160_S160x128_S8192x128_1_0_0_1_n_n]
  rfl

/-- The product into a zero accumulator, read at row r and query j: the sum over the 160 positions w of
    left[r, w] · right[w, j]. -/
theorem matmul_read (A : FVec Ideal S8192x160 .bf16) (B : FVec Ideal S160x128 .bf16) (r : Fin 8192) (j : Fin 128) :
    matmul Cert.KernelIdeal.dot_S8192x160_S160x128_S8192x128_1_0_0_1_n_n none A B
        (constant (F := Ideal) S8192x128 .f32 0x00000000#32) (ix2 r j)
      = ∑ w : Fin 160, A (ix2 r w) * B (ix2 w j) := by
  show FloatOps.matmul Cert.KernelIdeal.dot_S8192x160_S160x128_S8192x128_1_0_0_1_n_n none A B
        (constant (F := Ideal) S8192x128 .f32 0x00000000#32) (ix2 r j) = _
  rw [Ideal.matmul_constant_zero_apply,
    ← Equiv.sum_comp (contrEquiv1 Cert.KernelIdeal.dot_S8192x160_S160x128_S8192x128_1_0_0_1_n_n 160 rfl rfl).symm]
  refine Finset.sum_congr rfl fun w _ => ?_
  have cw := contrEquiv1_symm_val Cert.KernelIdeal.dot_S8192x160_S160x128_S8192x128_1_0_0_1_n_n 160 rfl rfl w
  have hl : (Cert.KernelIdeal.dot_S8192x160_S160x128_S8192x128_1_0_0_1_n_n).lhsIdx (ix2 r j)
      ((contrEquiv1 Cert.KernelIdeal.dot_S8192x160_S160x128_S8192x128_1_0_0_1_n_n 160 rfl rfl).symm w) = ix2 r w := by
    funext ax; apply Fin.ext
    match ax with
    | ⟨0, _⟩ => exact lhs_dot_0 _ _
    | ⟨1, _⟩ => exact (lhs_dot_1 _ _).trans cw
  have hr : (Cert.KernelIdeal.dot_S8192x160_S160x128_S8192x128_1_0_0_1_n_n).rhsIdx (ix2 r j)
      ((contrEquiv1 Cert.KernelIdeal.dot_S8192x160_S160x128_S8192x128_1_0_0_1_n_n 160 rfl rfl).symm w) = ix2 w j := by
    funext ax; apply Fin.ext
    match ax with
    | ⟨0, _⟩ => exact (rhs_dot_0 _ _).trans cw
    | ⟨1, _⟩ => exact rhs_dot_1 _ _
  rw [hl, hr]

/-! ## The layout operations and the row sum, read at an index -/

/-- The slab viewed without its leading unit axis. -/
theorem slab_read (v0 : Vec Ideal S1x8192x160 .bf16) (r : Fin 8192) (w : Fin 160) :
    shapeCast S8192x160 v0 Gen.shapeCasts_S1x8192x160_S8192x160 (ix2 r w) = v0 (ix3 (0 : Fin 1) r w) :=
  shapeCast_1ab_ab_apply v0 Gen.shapeCasts_S1x8192x160_S8192x160 r w

/-- The [8192, 128] product re-laid as [64, 128, 128]: element (h, c, j) is element (h·128 + c, j), the two having
    the same row-major position. -/
theorem relay_read {α : Type} (P : S8192x128.Idx → α) (h : Fin 64) (c j : Fin 128) :
    shapeCast S64x128x128 P Gen.shapeCasts_S8192x128_S64x128x128 (ix3 h c j)
      = P (ix2 (⟨h.val * 128 + c.val, by have := h.isLt; have := c.isLt; omega⟩ : Fin 8192) j) :=
  shapeCast_apply P Gen.shapeCasts_S8192x128_S64x128x128 _ _ (by
    rw [Shape.rowMajor_val_two, Shape.rowMajor_val_three]
    show (h.val * 128 + c.val) * 128 + j.val = (h.val * 128 + c.val) * 128 + j.val
    rfl)

/-- The row taps [64, 128] given a unit channel axis and broadcast along it: element (h, c, j) is tap (h, j). -/
theorem rowbc_read {α : Type} (T : S64x128.Idx → α) (h : Fin 64) (c j : Fin 128) :
    broadcastTo S64x128x128 (shapeCast S64x1x128 T Gen.shapeCasts_S64x128_S64x1x128)
        Gen.broadcasts_S64x1x128_S64x128x128 (ix3 h c j)
      = T (ix2 h j) := by
  refine (broadcastTo_apply _ Gen.broadcasts_S64x1x128_S64x128x128 (ix3 h c j) (ix3 h (0 : Fin 1) j) fun ax => ?_).trans ?_
  · match ax with
    | ⟨0, _⟩ => rfl
    | ⟨1, _⟩ => rfl
    | ⟨2, _⟩ => rfl
  · exact shapeCast_apply T Gen.shapeCasts_S64x128_S64x1x128 _ _ (by
      rw [Shape.rowMajor_val_two, Shape.rowMajor_val_three]
      show h.val * 128 + j.val = (h.val * 1 + 0) * 128 + j.val
      omega)

/-- The sum over the row axis of a [64, 128, 128] array, read at channel c and query j. -/
theorem rowsum_read (X : FVec Ideal S64x128x128 .f32) (hacc : (0x00000000#32 : BitVec 32) = 0x00000000#32)
    (c j : Fin 128) :
    multiReduction .add [0] S128x128 X 0x00000000#32 Gen.reduces_S64x128x128_S128x128 (.inl rfl) hacc (ix2 c j)
      = ∑ h : Fin 64, X (ix3 h c j) := by
  refine (Ideal.multiReduction_add_single X 0x00000000#32 Gen.reduces_S64x128x128_S128x128 (.inl rfl) hacc (ix2 c j)).trans ?_
  refine Finset.sum_congr rfl fun h _ => congrArg X ?_
  funext ax; apply Fin.ext
  match ax with
  | ⟨0, _⟩ => rfl
  | ⟨1, _⟩ => rfl
  | ⟨2, _⟩ => rfl

/-- The result given its leading unit axis. -/
theorem out_read {α : Type} (R : S128x128.Idx → α) (c j : Fin 128) :
    shapeCast S1x128x128 R Gen.shapeCasts_S128x128_S1x128x128 (ix3 (0 : Fin 1) c j) = R (ix2 c j) :=
  shapeCast_ab_1ab_apply R Gen.shapeCasts_S128x128_S1x128x128 0 c j

/-- The contraction at (0, c, j): columns against the column taps first, rows against the row taps second. -/
theorem contract_apply (v0 : Vec Ideal S1x8192x160 .bf16) (sx : FVec Ideal S160x128 .f32) (sy : FVec Ideal S64x128 .f32)
    (c j : Fin 128) :
    contract (F := Ideal) v0 sx sy (ix3 (0 : Fin 1) c j)
      = ∑ h : Fin 64, (∑ w : Fin 160,
          v0 (ix3 (0 : Fin 1) (⟨h.val * 128 + c.val, by have := h.isLt; have := c.isLt; omega⟩ : Fin 8192) w) * sx (ix2 w j))
            * sy (ix2 h j) := by
  unfold contract
  rw [out_read, rowsum_read]
  refine Finset.sum_congr rfl fun h _ => ?_
  rw [extf_apply, mulf_apply, rowbc_read, relay_read, truncf_apply, matmul_read]
  refine congrArg (· * _) (Finset.sum_congr rfl fun w _ => ?_)
  rw [slab_read, truncf_apply]

end Cert.KernelIdeal.Tile

end
-- ==== Proof.LibERealCoe.lean ====
/-
  Reals inside the extended reals: the coercion goes through finite sums and maxima, and the ideal division
  of a real by a real clamped below by one is the real quotient.
-/
import Idealize.ShloMosaic.PureOps.Ideal
import Mathlib.Data.EReal.Basic
import Mathlib.Data.EReal.Operations
import Mathlib.Algebra.BigOperators.Group.Finset.Basic
import Mathlib.Tactic.Linarith

noncomputable section

open scoped BigOperators

namespace Cert.ERealCoe

open Idealize.ShloMosaic

/-- The coercion of a finite sum of reals is the sum of the coercions (induction on the index set, the
coercion being additive). -/
theorem coe_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The coercion of a maximum of reals is the maximum of the coercions (the coercion is monotone). -/
theorem coe_max (a b : ℝ) : ((max a b : ℝ) : EReal) = max (a : EReal) (b : EReal) :=
  EReal.coe_strictMono.monotone.map_max

/-- The ideal division of a real by a real clamped below by one (so not zero) is the real quotient. -/
theorem div_coe_max_one (a n : ℝ) :
    Ideal.div (a : EReal) ((max n 1 : ℝ) : EReal) = ((a * (1 / max n 1) : ℝ) : EReal) := by
  have h : max n 1 ≠ 0 := by
    have := le_max_right n 1
    linarith
  rw [Ideal.div_coe h, ← EReal.coe_mul]

end Cert.ERealCoe

end
-- ==== Proof.TileApply.lean ====
/-
  The tile at channel c and query j, at the extended reals, for a finite slab and finite coordinates: the separable
  form of the bilinear sample. The contraction is a double sum of products of three factors — a slab entry, a column
  tap and a row tap — each of which is a real number; the coercion of reals into the extended reals goes through
  products and finite sums, so the double sum is the coercion of the real double sum.
-/
import proofs.«401064_j4922032521570_3_alg».proof.Proof.TileTaps
import proofs.«401064_j4922032521570_3_alg».proof.Proof.TileContract
import proofs.«401064_j4922032521570_3_alg».proof.Proof.LibERealCoe

noncomputable section

open scoped BigOperators

namespace Cert.KernelIdeal.Tile

open Cert.KernelIdeal Cert.KernelIdeal.Gen Idealize.ShloMosaic Idealize.ShloMosaic.ValueIdx Cert.Bilinear

/-- A finite slab's entry at row h·128 + c, column w is the real image of channel c at (h, w). -/
theorem slab_coe (v0 : Vec Ideal S1x8192x160 .bf16) (hv : ∀ i, ∃ r : ℝ, v0 i = (r : EReal)) (c : Fin 128)
    (h : Fin 64) (w : Fin 160) :
    v0 (ix3 (0 : Fin 1) (⟨h.val * 128 + c.val, by have := h.isLt; have := c.isLt; omega⟩ : Fin 8192) w)
      = ((slabImg v0 c h.val w.val : ℝ) : EReal) := by
  obtain ⟨r, hr⟩ := hv (ix3 (0 : Fin 1) (⟨h.val * 128 + c.val, by have := h.isLt; have := c.isLt; omega⟩ : Fin 8192) w)
  unfold slabImg
  rw [dif_pos ⟨h.isLt, w.isLt⟩]
  show v0 (ix3 (0 : Fin 1) (⟨h.val * 128 + c.val, _⟩ : Fin 8192) w) = _
  rw [hr, EReal.toReal_coe]

/-- THE TILE AT AN INDEX: the separable form of the bilinear sample of channel c at query j. -/
theorem tile_apply (v0 : Vec Ideal S1x8192x160 .bf16) (gx gy : Vec Ideal S1x1x128 .f32)
    (hv : ∀ i, ∃ r : ℝ, v0 i = (r : EReal)) (hx : ∀ i, ∃ r : ℝ, gx i = (r : EReal)) (hy : ∀ i, ∃ r : ℝ, gy i = (r : EReal))
    (c : Fin 128) (j : Fin 128) :
    tile (F := Ideal) v0 gx gy (ix3 (0 : Fin 1) c j)
      = ((sepForm (slabImg v0 c) (pix 80 (gx (ix3 (0 : Fin 1) (0 : Fin 1) j)).toReal)
          (pix 32 (gy (ix3 (0 : Fin 1) (0 : Fin 1) j)).toReal) : ℝ) : EReal) := by
  rw [tile_eq, contract_apply]
  simp only [colTaps_apply gx hx, rowTaps_apply gy hy, slab_coe v0 hv c]
  unfold sepForm
  rw [Cert.ERealCoe.coe_sum]
  refine Finset.sum_congr rfl fun h _ => ?_
  rw [EReal.coe_mul, Cert.ERealCoe.coe_sum]
  refine congrArg (· * _) ?_
  refine Finset.sum_congr rfl fun w _ => ?_
  rw [EReal.coe_mul]

end Cert.KernelIdeal.Tile

end
-- ==== Proof.HostOps.lean ====
/-
  The host operations around the kernel's region, as functions of the arrays they read, and each read at an index.
  Before the region: the feature map [8, 128, 64, 160] is transposed to [8, 64, 128, 160] and re-laid as
  [8, 8192, 160] — row h·128 + c of image b is row h of channel c — (and narrowed, which changes nothing at the
  extended reals); component 0 (resp. 1) of the grids [128, 32, 100, 2] is sliced out and re-laid as [128, 1, 3200],
  query gh·100 + gw. After the region: the kernel's result [128, 128, 3200] is re-laid as [128, 128, 32, 100].
-/
import proofs.«401064_j4922032521570_3_alg».proof.Proof.Gen.KernelIdeal
import Idealize.ShloMosaic.Lib.ValueIdx
import Idealize.ShloMosaic.Lib.Pipeline.Value

noncomputable section

namespace Cert.KernelIdeal.HostOps

open Cert.KernelIdeal Idealize.ShloMosaic Idealize.ShloMosaic.ValueIdx

variable {F : FTy → Type} [FloatOps F]

/-- The slab array [8, 8192, 160] made from the feature map. -/
def slabArr (a0 : FVec F S8x128x64x160 .f32) : FVec F S8x8192x160 .bf16 :=
  truncf .bf16
    (shapeCast S8x8192x160
      (transpose S8x64x128x160 [0, 2, 1, 3] a0 Gen.transposes_S8x128x64x160_S8x64x128x160_0_2_1_3)
      Gen.shapeCasts_S8x64x128x160_S8x8192x160)
    Gen.bitsLt_bf16_f32

/-- The x-coordinate array [128, 1, 3200] made from the grids: component 0. -/
def gxArr (a1 : FVec F S128x32x100x2 .f32) : FVec F S128x1x3200 .f32 :=
  shapeCast S128x1x3200
    (shapeCast S128x32x100
      (extractStridedSlice S128x32x100x1 ![0, 0, 0, 0] a1 Gen.slices_S128x32x100x2_S128x32x100x1_0_0_0_0)
      Gen.shapeCasts_S128x32x100x1_S128x32x100)
    Gen.shapeCasts_S128x32x100_S128x1x3200

/-- The y-coordinate array [128, 1, 3200] made from the grids: component 1. -/
def gyArr (a1 : FVec F S128x32x100x2 .f32) : FVec F S128x1x3200 .f32 :=
  shapeCast S128x1x3200
    (shapeCast S128x32x100
      (extractStridedSlice S128x32x100x1 ![0, 0, 0, 1] a1 Gen.slices_S128x32x100x2_S128x32x100x1_0_0_0_1)
      Gen.shapeCasts_S128x32x100x1_S128x32x100)
    Gen.shapeCasts_S128x32x100_S128x1x3200

/-- The result [128, 128, 32, 100] made from the kernel's output [128, 128, 3200]. -/
def outArr (v9 : FVec F S128x128x3200 .f32) : FVec F S128x128x32x100 .f32 :=
  shapeCast S128x128x32x100 v9 Gen.shapeCasts_S128x128x3200_S128x128x32x100

/-- The slab array at image b, row h·128 + c, column w: the feature map at (b, c, h, w). -/
theorem slabArr_apply (a0 : FVec Ideal S8x128x64x160 .f32) (b : Fin 8) (h : Fin 64) (c : Fin 128) (w : Fin 160) :
    slabArr (F := Ideal) a0 (ix3 b (⟨h.val * 128 + c.val, by have := h.isLt; have := c.isLt; omega⟩ : Fin 8192) w)
      = a0 (ix4 b c h w) := by
  -- Narrowing changes nothing at the extended reals; what remains is a re-layout of a transposed array.
  unfold slabArr
  rw [truncf_apply]
  -- The re-layout [8, 64, 128, 160] → [8, 8192, 160] keeps the row-major position: row h·128 + c comes from (h, c).
  refine (shapeCast_apply _ Gen.shapeCasts_S8x64x128x160_S8x8192x160 _ (ix4 b h c w) ?_).trans ?_
  · rewrite [Shape.rowMajor_val_four, Shape.rowMajor_val_three]
    have hb : b.val < 8 := b.isLt
    have hh : h.val < 64 := h.isLt
    have hc : c.val < 128 := c.isLt
    have hw : w.val < 160 := w.isLt
    show ((b.val * 64 + h.val) * 128 + c.val) * 160 + w.val = (b.val * 8192 + (h.val * 128 + c.val)) * 160 + w.val
    omega
  -- The transpose swaps the two middle axes: (b, h, c, w) of the result is (b, c, h, w) of the feature map.
  · exact transpose_apply [0, 2, 1, 3] a0 Gen.transposes_S8x128x64x160_S8x64x128x160_0_2_1_3 (ix4 b h c w) (ix4 b c h w)
      (fun e => match e with
        | ⟨0, _⟩ => rfl
        | ⟨1, _⟩ => rfl
        | ⟨2, _⟩ => rfl
        | ⟨3, _⟩ => rfl)

/-- The x-coordinate array at instance n, query q: component 0 of the grids at (n, q / 100, q mod 100). -/
theorem gxArr_apply (a1 : FVec F S128x32x100x2 .f32) (n : Fin 128) (q : Fin 3200) :
    gxArr a1 (ix3 n (0 : Fin 1) q)
      = a1 (ix4 n (⟨q.val / 100, by have := q.isLt; omega⟩ : Fin 32) (⟨q.val % 100, Nat.mod_lt _ (by decide)⟩ : Fin 100) (0 : Fin 2)) := by
  unfold gxArr
  have hq : q.val < 3200 := q.isLt
  have hn : n.val < 128 := n.isLt
  -- [128, 32, 100] → [128, 1, 3200]: query q sits at grid row q / 100, grid column q mod 100.
  refine (shapeCast_apply _ Gen.shapeCasts_S128x32x100_S128x1x3200 _
    (ix3 n (⟨q.val / 100, by omega⟩ : Fin 32) (⟨q.val % 100, Nat.mod_lt _ (by decide)⟩ : Fin 100)) ?_).trans ?_
  · rewrite [Shape.rowMajor_val_three, Shape.rowMajor_val_three]
    show (n.val * 32 + q.val / 100) * 100 + q.val % 100 = (n.val * 1 + 0) * 3200 + q.val
    omega
  -- [128, 32, 100, 1] → [128, 32, 100]: the trailing unit axis is dropped.
  refine (shapeCast_apply _ Gen.shapeCasts_S128x32x100x1_S128x32x100 _
    (ix4 n (⟨q.val / 100, by omega⟩ : Fin 32) (⟨q.val % 100, Nat.mod_lt _ (by decide)⟩ : Fin 100) (0 : Fin 1)) ?_).trans ?_
  · rewrite [Shape.rowMajor_val_four, Shape.rowMajor_val_three]
    show ((n.val * 32 + q.val / 100) * 100 + q.val % 100) * 1 + 0 = (n.val * 32 + q.val / 100) * 100 + q.val % 100
    omega
  -- The slice keeps the first three coordinates and shifts the last by the component's offset 0.
  exact extractStridedSlice_apply ![0, 0, 0, 0] a1 Gen.slices_S128x32x100x2_S128x32x100x1_0_0_0_0 _ _
    (fun a => match a with
      | ⟨0, _⟩ => by show n.val = 0 + n.val; omega
      | ⟨1, _⟩ => by show q.val / 100 = 0 + q.val / 100; omega
      | ⟨2, _⟩ => by show q.val % 100 = 0 + q.val % 100; omega
      | ⟨3, _⟩ => by show 0 = 0 + 0; omega)

/-- The y-coordinate array at instance n, query q: component 1 of the grids at (n, q / 100, q mod 100). -/
theorem gyArr_apply (a1 : FVec F S128x32x100x2 .f32) (n : Fin 128) (q : Fin 3200) :
    gyArr a1 (ix3 n (0 : Fin 1) q)
      = a1 (ix4 n (⟨q.val / 100, by have := q.isLt; omega⟩ : Fin 32) (⟨q.val % 100, Nat.mod_lt _ (by decide)⟩ : Fin 100) (1 : Fin 2)) := by
  unfold gyArr
  have hq : q.val < 3200 := q.isLt
  have hn : n.val < 128 := n.isLt
  -- [128, 32, 100] → [128, 1, 3200]: query q sits at grid row q / 100, grid column q mod 100.
  refine (shapeCast_apply _ Gen.shapeCasts_S128x32x100_S128x1x3200 _
    (ix3 n (⟨q.val / 100, by omega⟩ : Fin 32) (⟨q.val % 100, Nat.mod_lt _ (by decide)⟩ : Fin 100)) ?_).trans ?_
  · rewrite [Shape.rowMajor_val_three, Shape.rowMajor_val_three]
    show (n.val * 32 + q.val / 100) * 100 + q.val % 100 = (n.val * 1 + 0) * 3200 + q.val
    omega
  -- [128, 32, 100, 1] → [128, 32, 100]: the trailing unit axis is dropped.
  refine (shapeCast_apply _ Gen.shapeCasts_S128x32x100x1_S128x32x100 _
    (ix4 n (⟨q.val / 100, by omega⟩ : Fin 32) (⟨q.val % 100, Nat.mod_lt _ (by decide)⟩ : Fin 100) (0 : Fin 1)) ?_).trans ?_
  · rewrite [Shape.rowMajor_val_four, Shape.rowMajor_val_three]
    show ((n.val * 32 + q.val / 100) * 100 + q.val % 100) * 1 + 0 = (n.val * 32 + q.val / 100) * 100 + q.val % 100
    omega
  -- The slice keeps the first three coordinates and shifts the last by the component's offset 1.
  exact extractStridedSlice_apply ![0, 0, 0, 1] a1 Gen.slices_S128x32x100x2_S128x32x100x1_0_0_0_1 _ _
    (fun a => match a with
      | ⟨0, _⟩ => by show n.val = 0 + n.val; omega
      | ⟨1, _⟩ => by show q.val / 100 = 0 + q.val / 100; omega
      | ⟨2, _⟩ => by show q.val % 100 = 0 + q.val % 100; omega
      | ⟨3, _⟩ => by show 1 = 1 + 0; omega)

/-- The result at (n, c, gh, gw): the kernel's output at (n, c, gh·100 + gw). -/
theorem outArr_apply (v9 : FVec F S128x128x3200 .f32) (n : Fin 128) (c : Fin 128) (gh : Fin 32) (gw : Fin 100) :
    outArr v9 (ix4 n c gh gw)
      = v9 (ix3 n c (⟨gh.val * 100 + gw.val, by have := gh.isLt; have := gw.isLt; omega⟩ : Fin 3200)) := by
  unfold outArr
  have hn : n.val < 128 := n.isLt
  have hc : c.val < 128 := c.isLt
  have hgh : gh.val < 32 := gh.isLt
  have hgw : gw.val < 100 := gw.isLt
  -- [128, 128, 3200] → [128, 128, 32, 100] keeps the row-major position: (gh, gw) comes from query gh·100 + gw.
  refine shapeCast_apply v9 Gen.shapeCasts_S128x128x3200_S128x128x32x100 _ _ ?_
  rewrite [Shape.rowMajor_val_three, Shape.rowMajor_val_four]
  show (n.val * 128 + c.val) * 3200 + (gh.val * 100 + gw.val) = ((n.val * 128 + c.val) * 32 + gh.val) * 100 + gw.val
  omega

end Cert.KernelIdeal.HostOps

end
-- ==== Proof.Algebra.lean ====
/-
  The separable form of a bilinear sample is its four-corner form.

  On one axis the taps are two indicator functions of a position, each scaled by a weight. A sum over all the
  positions of the axis against an indicator of one position keeps exactly the term at that position, so a sum
  against the taps is the value at the clamped lower neighbour times the lower weight plus the value at the
  clamped upper neighbour times the upper weight. Nothing is assumed about the two clamped positions being
  different: when they coincide both terms simply sit at the same position. Doing this on the columns and then on
  the rows leaves four products of a column weight and a row weight, and each such product is the corresponding
  corner term, because a corner is inside the image exactly when its column is inside and its row is inside.
-/
import proofs.«401064_j4922032521570_3_alg».proof.Proof.Spec

noncomputable section

open scoped BigOperators

namespace Cert.Bilinear

/-- A sum over the positions `0 … n` against the indicator of one position `p ≤ n`, scaled by `a`, keeps the
    single term at `p`. -/
theorem sum_mul_indicator (n p : ℕ) (hp : p ≤ n) (f : ℕ → ℝ) (a : ℝ) :
    ∑ w : Fin (n + 1), f w.val * (if w.val = p then a else 0) = f p * a := by
  have hp' : p < n + 1 := Nat.lt_succ_of_le hp
  have hterm : ∀ w : Fin (n + 1),
      f w.val * (if w.val = p then a else 0) = if w = (⟨p, hp'⟩ : Fin (n + 1)) then f p * a else 0 := by
    intro w
    by_cases h : w.val = p
    · have hw : w = (⟨p, hp'⟩ : Fin (n + 1)) := Fin.ext h
      rw [if_pos h, if_pos hw, h]
    · have hw : w ≠ (⟨p, hp'⟩ : Fin (n + 1)) := fun e => h (by rw [e])
      rw [if_neg h, if_neg hw, mul_zero]
  rw [Finset.sum_congr rfl (fun w _ => hterm w)]
  rw [Finset.sum_ite_eq' Finset.univ (⟨p, hp'⟩ : Fin (n + 1)) (fun _ => f p * a)]
  simp

/-- A sum over the positions of an axis against the taps of a pixel coordinate: the value at the clamped lower
    neighbour times its weight plus the value at the clamped upper neighbour times its weight. -/
theorem sum_mul_tap (n : ℕ) (t : ℝ) (f : ℕ → ℝ) :
    ∑ w : Fin (n + 1), f w.val * tap n t w.val
      = f (clampN n ⌊t⌋) * wLo n t + f (clampN n (⌊t⌋ + 1)) * wHi n t := by
  unfold tap
  simp only [mul_add, Finset.sum_add_distrib]
  rw [sum_mul_indicator n _ (clampN_le n _) f, sum_mul_indicator n _ (clampN_le n _) f]

/-- The separable form is the four-corner form, for every image and every pair of pixel coordinates. -/
theorem sepForm_eq_cornerForm (v : ℕ → ℕ → ℝ) (tx ty : ℝ) : sepForm v tx ty = cornerForm v tx ty := by
  -- the column contraction of any row, and the row contraction of any column of numbers
  have hx : ∀ f : ℕ → ℝ, ∑ w : Fin 160, f w.val * tap 159 tx w.val
      = f (clampN 159 ⌊tx⌋) * wLo 159 tx + f (clampN 159 (⌊tx⌋ + 1)) * wHi 159 tx :=
    fun f => sum_mul_tap 159 tx f
  have hy : ∀ f : ℕ → ℝ, ∑ h : Fin 64, f h.val * tap 63 ty h.val
      = f (clampN 63 ⌊ty⌋) * wLo 63 ty + f (clampN 63 (⌊ty⌋ + 1)) * wHi 63 ty :=
    fun f => sum_mul_tap 63 ty f
  have hsep : sepForm v tx ty
      = (v (clampN 63 ⌊ty⌋) (clampN 159 ⌊tx⌋) * wLo 159 tx
          + v (clampN 63 ⌊ty⌋) (clampN 159 (⌊tx⌋ + 1)) * wHi 159 tx) * wLo 63 ty
        + (v (clampN 63 (⌊ty⌋ + 1)) (clampN 159 ⌊tx⌋) * wLo 159 tx
          + v (clampN 63 (⌊ty⌋ + 1)) (clampN 159 (⌊tx⌋ + 1)) * wHi 159 tx) * wHi 63 ty := by
    unfold sepForm
    rw [Finset.sum_congr rfl (fun h _ => by rw [hx (v h.val)])]
    exact hy (fun h => v h (clampN 159 ⌊tx⌋) * wLo 159 tx + v h (clampN 159 (⌊tx⌋ + 1)) * wHi 159 tx)
  rw [hsep]
  unfold cornerForm corner wLo wHi
  -- a corner is inside exactly when its column and its row are: split on the four memberships
  by_cases h1 : inside 159 ⌊tx⌋ <;> by_cases h2 : inside 159 (⌊tx⌋ + 1) <;>
    by_cases h3 : inside 63 ⌊ty⌋ <;> by_cases h4 : inside 63 (⌊ty⌋ + 1) <;>
    simp only [h1, h2, h3, h4, if_true, if_false, and_self, and_true, and_false, true_and, false_and] <;>
    ring

end Cert.Bilinear

end
-- ==== Proof.PreDecodeOkIdeal.lean ====
/-
  The side condition of the table of image numbers: at every instance n the slab the kernel fetches, block
  (image number of n, 0, 0) of the [8, 8192, 160] array in blocks of [1, 8192, 160], lies inside the array, and
  its transfer moves whole words (it takes every row of the slab). It holds as soon as every image number, read
  unsigned, is below 8.
-/
import proofs.«401064_j4922032521570_3_alg».proof.Proof.Gen.KernelIdeal.Frame
import Idealize.ShloMosaic.Lib.ValueIdx

set_option maxRecDepth 16384

noncomputable section

namespace Cert.KernelIdeal.OkOfLt

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- Grid point i's instance number, as a number below 128. -/
def inst (i : grid0.Coords) : Fin 128 := ⟨(i 0).val, (i 0).isLt⟩

/-- The one index of the one-entry rectangle at offset (instance number of i) of the [128] table is that instance's:
    the offset is the instance number itself (a number below 128 survives the passage through a 32-bit word), and
    the rectangle's one index has coordinate 0. -/
theorem idx_eq (i : grid0.Coords) (inb : ∀ a, (k0_off1 i) a + S1.size a ≤ S128.size a)
    (h1 : 0 < (Rect.unit (s := S128) (k0_off1 i) S1.size inb).shape.numel) :
    (Rect.unit (s := S128) (k0_off1 i) S1.size inb).emb (Shape.Idx.first h1) = ix1 (inst i) := by
  funext a
  apply Fin.ext
  fin_cases a
  show (k0_off1 i) 0 + 1 * (Shape.Idx.first h1 (0 : Fin 1)).val = (i 0).val
  have hk : (k0_off1 i) 0 = (i 0).val := by
    show (BitVec.ofNat 32 (i 0).val).toNat = (i 0).val
    have hi : (i 0).val < 128 := (i 0).isLt
    rw [BitVec.toNat_ofNat]; omega
  have hf : (Shape.Idx.first h1 (0 : Fin 1)).val < 1 := (Shape.Idx.first h1 (0 : Fin 1)).isLt
  omega

/-- The block index the first window's index map computes at grid point i, whatever the table holds: the word at
    instance (number of i), read unsigned, then 0 and 0. -/
theorem tr_eq (pf : pre0.Contents (Elt Ideal)) (i : grid0.Coords) :
    cc0_transform_0 k0_off1_inb numel1_S1 pf i = ![(pf 0 (ix1 (inst i))).toNat, 0, 0] := by
  have e : cc0_transform_0 k0_off1_inb numel1_S1 pf i
      = ![(pf 0 ((Rect.unit (s := S128) (k0_off1 i) S1.size (k0_off1_inb i)).emb (Shape.Idx.first (numel1_S1.symm ▸ Nat.one_pos)))).toNat, 0, 0] := rfl
  rw [e, idx_eq i (k0_off1_inb i)]

/-- With the table a variable: if every word of the table is below 8 read unsigned, then at every grid point the
    fetched slab — block (word, 0, 0) in blocks of [1, 8192, 160] — ends inside the [8, 8192, 160] array (word + 1 ≤ 8
    along the first axis; one whole extent along the other two), and the slab takes every row: on the row axis (the
    middle one) it starts at 0 · 8192 = 0, has unit stride, and is 8192 long, the array's own extent there. -/
theorem ok_of_lt_pf (pf : pre0.Contents (Elt Ideal)) (hlt : ∀ n : Fin 128, (pf 0 (ix1 n)).toNat < 8) : ok0 pf := by
  intro i
  obtain ⟨w, hw, e⟩ : ∃ w : BitVec 32, w.toNat < 8 ∧ cc0_transform_0 k0_off1_inb numel1_S1 pf i = ![w.toNat, 0, 0] :=
    ⟨_, hlt _, tr_eq pf i⟩
  have hin : ∀ a, (cc0_transform_0 k0_off1_inb numel1_S1 pf i a + 1) * S1x8192x160.size a ≤ S8x8192x160.size a := by
    intro a
    rw [e]
    fin_cases a <;> simp [S1x8192x160, S8x8192x160] <;> omega
  refine ⟨hin, Or.inr (Or.inr ⟨by decide, rfl, ?_, rfl⟩)⟩
  show cc0_transform_0 k0_off1_inb numel1_S1 pf i (S8x8192x160.rowAx (by decide)) * S1x8192x160.size (S8x8192x160.rowAx (by decide)) = 0
  rw [e]
  exact Nat.zero_mul _

/-- Every image number below 8 (unsigned) gives the side condition of the table. -/
theorem ok_of_lt (hlt : ∀ n : Fin 128, (m (((0 : Dev nD) : Thread nD τ).loc main_arg2) (ix1 n)).toNat < 8) : Ok m := by
  -- the table the index map reads is the launch contents of the image-number buffer on device 0
  have ht : tbl m 0 = m (((0 : Dev nD) : Thread nD τ).loc main_arg2) := V_main_arg2 m 0
  exact ok_of_lt_pf (tbl m) (fun n => by rw [ht]; exact hlt n)

end Cert.KernelIdeal.OkOfLt

end
-- ==== Proof.KernelArray.lean ====
/-
  The idealized kernel's result. At grid point t the pipeline hands the body three blocks: the slab of the image whose
  number the table holds at instance t, and the x- and y-coordinate rows of instance t; the body leaves in the output
  block, at (0, c, q), the bilinear sample of channel c of that image at query q of instance t. The blocks written
  back tile the [128, 128, 3200] output array, so the array ends holding the result in that layout, and the host's
  last re-laying makes it the result array [128, 128, 32, 100].
-/
import proofs.«401064_j4922032521570_3_alg».proof.Proof.Gen.KernelIdeal.Frame
import proofs.«401064_j4922032521570_3_alg».proof.Proof.Spec
import proofs.«401064_j4922032521570_3_alg».proof.Proof.Pieces
import proofs.«401064_j4922032521570_3_alg».proof.Proof.TileApply
import proofs.«401064_j4922032521570_3_alg».proof.Proof.HostOps
import proofs.«401064_j4922032521570_3_alg».proof.Proof.Algebra
import proofs.«401064_j4922032521570_3_alg».proof.Proof.PreDecodeOkIdeal
import Idealize.ShloMosaic.Lib.Pipeline.Value
import Idealize.ShloMosaic.Lib.StableHlo.Run

set_option maxRecDepth 16384

noncomputable section

namespace Cert.KernelIdeal.Arr

open Cert.KernelIdeal Cert.KernelIdeal.Gen Idealize.ShloMosaic.ValueIdx Idealize.ShloMosaic.StableHlo

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The block index of the three windows whose index maps read no table, at point t: (t, 0, 0). -/
theorem idx3 : ∀ t : Fin grid0.N, cc0_transform_3 (grid0.coords t) = ![t.val, 0, 0] := by decide +kernel
theorem idx1 : ∀ t : Fin grid0.N, cc0_transform_1 (grid0.coords t) = ![t.val, 0, 0] := by decide +kernel
theorem idx2 : ∀ t : Fin grid0.N, cc0_transform_2 (grid0.coords t) = ![t.val, 0, 0] := by decide +kernel

/-- The output window's block at point t puts its index y at (t, y 1, y 2) of the array. -/
theorem blk3_emb (a : (pcfg0 (F := F)).Adm) (t : Fin (cfg0 a).N) (y : S1x128x3200.Idx) :
    (((cfg0 a).win 3).blk t).view.emb y = (ix3 (⟨t.val, t.isLt⟩ : Fin 128) (y 1) (y 2) : S128x128x3200.Idx) := by
  have hi := idx3 t
  funext b
  apply Fin.ext
  match b with
  | ⟨0, _⟩ =>
    show cc0_transform_3 (grid0.coords t) 0 * 1 + 1 * (y 0).val = t.val
    have h0 : (y 0).val < 1 := (y 0).isLt
    rw [hi]; simp; omega
  | ⟨1, _⟩ =>
    show cc0_transform_3 (grid0.coords t) 1 * 128 + 1 * (y 1).val = (y 1).val
    rw [hi]; simp
  | ⟨2, _⟩ =>
    show cc0_transform_3 (grid0.coords t) 2 * 3200 + 1 * (y 2).val = (y 2).val
    rw [hi]; simp

/-- The output window's block at point t, read back from an array: rows (t, ·, ·) of the array. -/
theorem blk3_read (a : (pcfg0 (F := F)).Adm) (t : Fin (cfg0 a).N) (f : S128x128x3200.Idx → Elt F .f32) (y : S1x128x3200.Idx) :
    (((cfg0 a).win 3).blk t).view.read (Elt F) f y = f (ix3 (⟨t.val, t.isLt⟩ : Fin 128) (y 1) (y 2)) := by
  show f ((((cfg0 a).win 3).blk t).view.emb y) = _
  rw [blk3_emb a t y]

/-- The x-coordinate window's block at point t: row (t, 0, ·) of the [128, 1, 3200] array. -/
theorem blk1_read (a : (pcfg0 (F := F)).Adm) (t : Fin (cfg0 a).N) (f : S128x1x3200.Idx → Elt F .f32) (y : S1x1x3200.Idx) :
    (((cfg0 a).win 1).blk t).view.read (Elt F) f y = f (ix3 (⟨t.val, t.isLt⟩ : Fin 128) (0 : Fin 1) (y 2)) := by
  have hi := idx1 t
  show f ((((cfg0 a).win 1).blk t).view.emb y) = _
  refine congrArg f ?_
  funext b
  apply Fin.ext
  match b with
  | ⟨0, _⟩ =>
    show cc0_transform_1 (grid0.coords t) 0 * 1 + 1 * (y 0).val = t.val
    have h0 : (y 0).val < 1 := (y 0).isLt
    rw [hi]; simp; omega
  | ⟨1, _⟩ =>
    show cc0_transform_1 (grid0.coords t) 1 * 1 + 1 * (y 1).val = 0
    have h0 : (y 1).val < 1 := (y 1).isLt
    rw [hi]; simp; omega
  | ⟨2, _⟩ =>
    show cc0_transform_1 (grid0.coords t) 2 * 3200 + 1 * (y 2).val = (y 2).val
    rw [hi]; simp

/-- The y-coordinate window's block at point t, likewise. -/
theorem blk2_read (a : (pcfg0 (F := F)).Adm) (t : Fin (cfg0 a).N) (f : S128x1x3200.Idx → Elt F .f32) (y : S1x1x3200.Idx) :
    (((cfg0 a).win 2).blk t).view.read (Elt F) f y = f (ix3 (⟨t.val, t.isLt⟩ : Fin 128) (0 : Fin 1) (y 2)) := by
  have hi := idx2 t
  show f ((((cfg0 a).win 2).blk t).view.emb y) = _
  refine congrArg f ?_
  funext b
  apply Fin.ext
  match b with
  | ⟨0, _⟩ =>
    show cc0_transform_2 (grid0.coords t) 0 * 1 + 1 * (y 0).val = t.val
    have h0 : (y 0).val < 1 := (y 0).isLt
    rw [hi]; simp; omega
  | ⟨1, _⟩ =>
    show cc0_transform_2 (grid0.coords t) 1 * 1 + 1 * (y 1).val = 0
    have h0 : (y 1).val < 1 := (y 1).isLt
    rw [hi]; simp; omega
  | ⟨2, _⟩ =>
    show cc0_transform_2 (grid0.coords t) 2 * 3200 + 1 * (y 2).val = (y 2).val
    rw [hi]; simp

/-- A grid point's one coordinate is its number. -/
theorem coord0 : ∀ t : Fin grid0.N, ((grid0.coords t) 0).val = t.val := by decide +kernel

/-- The slab window's block at point t, for ANY contents of the table of image numbers: when the table's word at
    instance t, read unsigned, is `b`, the block is image b of the [8, 8192, 160] array. -/
theorem blk0_read (a : (pcfg0 (F := Ideal)).Adm) (t : Fin (cfg0 a).N) (f : S8x8192x160.Idx → Elt Ideal .bf16)
    (y : S1x8192x160.Idx) (b : Fin 8) (hb : (a.1 0 (ix1 (⟨t.val, t.isLt⟩ : Fin 128))).toNat = b.val) :
    (((cfg0 a).win 0).blk t).view.read (Elt Ideal) f y = f (ix3 b (y 1) (y 2)) := by
  have hi : cc0_transform_0 k0_off1_inb numel1_S1 a.1 (grid0.coords t) = ![b.val, 0, 0] := by
    rw [OkOfLt.tr_eq a.1 (grid0.coords t)]
    have e : OkOfLt.inst (grid0.coords t) = (⟨t.val, t.isLt⟩ : Fin 128) := Fin.ext (coord0 t)
    rw [e, hb]
  show f ((((cfg0 a).win 0).blk t).view.emb y) = _
  refine congrArg f ?_
  funext d
  apply Fin.ext
  match d with
  | ⟨0, _⟩ =>
    show cc0_transform_0 k0_off1_inb numel1_S1 a.1 (grid0.coords t) 0 * 1 + 1 * (y 0).val = b.val
    have h0 : (y 0).val < 1 := (y 0).isLt
    rw [hi]; simp; omega
  | ⟨1, _⟩ =>
    show cc0_transform_0 k0_off1_inb numel1_S1 a.1 (grid0.coords t) 1 * 8192 + 1 * (y 1).val = (y 1).val
    rw [hi]; simp
  | ⟨2, _⟩ =>
    show cc0_transform_0 k0_off1_inb numel1_S1 a.1 (grid0.coords t) 2 * 160 + 1 * (y 2).val = (y 2).val
    rw [hi]; simp

/-! ## What the region finds in its input arrays -/

section
variable (m : (ℓ : Loc nD τ sig) → Buf (Elt Ideal) ℓ)

/-- The slab array at region entry: the host's re-laying of the feature map. -/
theorem V_slab (c : Dev nD) : V m c main_v2 = HostOps.slabArr (F := Ideal) (m ((c : Thread nD τ).loc main_arg0)) := by
  show StableHlo.after hostOps0 (fun b => m (c, b)) (Proc.devRef .tc main_v2) = _
  after_results
  rfl

/-- The x-coordinate array at region entry. -/
theorem V_gx (c : Dev nD) : V m c main_v5 = HostOps.gxArr (F := Ideal) (m ((c : Thread nD τ).loc main_arg1)) := by
  show StableHlo.after hostOps0 (fun b => m (c, b)) (Proc.devRef .tc main_v5) = _
  after_results
  rfl

/-- The y-coordinate array at region entry. -/
theorem V_gy (c : Dev nD) : V m c main_v8 = HostOps.gyArr (F := Ideal) (m ((c : Thread nD τ).loc main_arg1)) := by
  show StableHlo.after hostOps0 (fun b => m (c, b)) (Proc.devRef .tc main_v8) = _
  after_results
  rfl

/-- The three input blocks at point t, by their literal types. -/
abbrev slabBlk (hO : Ok m) (c : Dev nD) (t : Fin (cfgM m hO).N) : Vec Ideal S1x8192x160 .bf16 := iblk m hO c 0 t
abbrev gxBlk (hO : Ok m) (c : Dev nD) (t : Fin (cfgM m hO).N) : Vec Ideal S1x1x3200 .f32 := iblk m hO c 1 t
abbrev gyBlk (hO : Ok m) (c : Dev nD) (t : Fin (cfgM m hO).N) : Vec Ideal S1x1x3200 .f32 := iblk m hO c 2 t

/-- The instance of point t. -/
abbrev instOf (hO : Ok m) (t : Fin (cfgM m hO).N) : Fin 128 := ⟨t.val, t.isLt⟩

theorem gxBlk_apply (hO : Ok m) (c : Dev nD) (t : Fin (cfgM m hO).N) (a b : Fin 1) (q : Fin 3200) :
    gxBlk m hO c t (ix3 a b q) = HostOps.gxArr (F := Ideal) (m ((c : Thread nD τ).loc main_arg1)) (ix3 (instOf m hO t) (0 : Fin 1) q) := by
  show (((cfg0 (adm m hO)).win 1).blk t).view.read (Elt Ideal) (V m c main_v5) (ix3 a b q) = _
  rw [blk1_read (adm m hO) t, V_gx]

theorem gyBlk_apply (hO : Ok m) (c : Dev nD) (t : Fin (cfgM m hO).N) (a b : Fin 1) (q : Fin 3200) :
    gyBlk m hO c t (ix3 a b q) = HostOps.gyArr (F := Ideal) (m ((c : Thread nD τ).loc main_arg1)) (ix3 (instOf m hO t) (0 : Fin 1) q) := by
  show (((cfg0 (adm m hO)).win 2).blk t).view.read (Elt Ideal) (V m c main_v8) (ix3 a b q) = _
  rw [blk2_read (adm m hO) t, V_gy]

theorem slabBlk_apply (hO : Ok m) (c : Dev nD) (t : Fin (cfgM m hO).N) (a : Fin 1) (r : Fin 8192) (w : Fin 160) (b : Fin 8)
    (hb : (tbl m 0 (ix1 (instOf m hO t))).toNat = b.val) :
    slabBlk m hO c t (ix3 a r w) = HostOps.slabArr (F := Ideal) (m ((c : Thread nD τ).loc main_arg0)) (ix3 b r w) := by
  show (((cfg0 (adm m hO)).win 0).blk t).view.read (Elt Ideal) (V m c main_v2) (ix3 a r w) = _
  rw [blk0_read (adm m hO) t (V m c main_v2) (ix3 a r w) b hb, V_slab]
end

/-! ## The output block after point t -/

section
variable (m : (ℓ : Loc nD τ sig) → Buf (Elt Ideal) ℓ)

/-- The three argument arrays on core c. -/
abbrev fmOf (c : Dev nD) : FVec Ideal S8x128x64x160 .f32 := m ((c : Thread nD τ).loc main_arg0)
abbrev grOf (c : Dev nD) : FVec Ideal S128x32x100x2 .f32 := m ((c : Thread nD τ).loc main_arg1)
abbrev biOf (c : Dev nD) : IVec S128 32 := m ((c : Thread nD τ).loc main_arg2)

/-- THE RESULT IN THE KERNEL'S LAYOUT [128, 128, 3200]: element (n, c, q) is the result at (n, c, q / 100, q mod 100). -/
def Garr (c : Dev nD) : S128x128x3200.Idx → EReal := fun j =>
  Cert.Bilinear.G (fmOf m c) (grOf m c) (biOf m c)
    (ix4 (j 0) (j 1) (⟨(j 2).val / 100, by have h : (j 2).val < 3200 := (j 2).isLt; omega⟩ : Fin 32)
      (⟨(j 2).val % 100, Nat.mod_lt _ (by decide)⟩ : Fin 100))

/-- Lane j of trip k's lanes of a row of 3200 coordinates is coordinate 128·k + j of the row. -/
theorem laneRow_apply (k : Fin k0_t1_loop.trips) (X : Vec Ideal S1x1x3200 .f32) (x : S1x1x128.Idx) :
    Pieces.laneRow k X x = X (ix3 (0 : Fin 1) (0 : Fin 1)
      (⟨128 * k.val + (x 2).val, by have hk : k.val < 25 := Nat.lt_of_lt_of_le k.isLt (le_of_eq Pieces.trips_eq)
                                    have hx : (x 2).val < 128 := (x 2).isLt
                                    omega⟩ : Fin 3200)) := by
  show X ((Rect.unit (s := S1x1x3200) (k0_off2 k) S1x1x128.size (k0_off2_inb k)).idx x) = _
  refine congrArg X ?_
  funext d
  apply Fin.ext
  match d with
  | ⟨0, _⟩ =>
    show (k0_off2 k) 0 + 1 * (x 0).val = 0
    have h0 : (x 0).val < 1 := (x 0).isLt
    rw [k0_off2_eq]; simp; omega
  | ⟨1, _⟩ =>
    show (k0_off2 k) 1 + 1 * (x 1).val = 0
    have h0 : (x 1).val < 1 := (x 1).isLt
    rw [k0_off2_eq]; simp; omega
  | ⟨2, _⟩ =>
    show (k0_off2 k) 2 + 1 * (x 2).val = 128 * k.val + (x 2).val
    rw [k0_off2_eq]; simp

/-- The table of image numbers the region reads is the launch contents of the image-number buffer. -/
theorem tbl_eq (c : Dev nD) : tbl m 0 = biOf m c := by
  obtain rfl : c = 0 := Subsingleton.elim _ _
  exact V_main_arg2 m 0

end

section
variable (m : (ℓ : Loc nD τ sig) → Buf (Elt Ideal) ℓ)
variable (hf : ∀ (c : Dev nD) (i : S8x128x64x160.Idx), ∃ r : ℝ, fmOf m c i = (r : EReal))
variable (hg : ∀ (c : Dev nD) (i : S128x32x100x2.Idx), ∃ r : ℝ, grOf m c i = (r : EReal))
variable (hlt : ∀ (c : Dev nD) (n : Fin 128), (biOf m c (ix1 n)).toNat < 8)

include hlt in
/-- The table's word at instance n, read unsigned, is the image number `imgOf` (the word is below 8). -/
theorem tbl_word (c : Dev nD) (n : Fin 128) : (tbl m 0 (ix1 n)).toNat = (Cert.Bilinear.imgOf (biOf m c) n).val := by
  rw [tbl_eq m c]
  show _ = (biOf m c (ix1 n)).toNat % 8
  have := hlt c n
  omega

include hf hlt in
/-- The slab block at point t is finite, -/
theorem slabBlk_fin (hO : Ok m) (c : Dev nD) (t : Fin (cfgM m hO).N) (y : S1x8192x160.Idx) :
    ∃ r : ℝ, slabBlk m hO c t y = (r : EReal) := by
  obtain ⟨a, r, w, rfl⟩ : ∃ (a : Fin 1) (r : Fin 8192) (w : Fin 160), y = ix3 a r w := ⟨y 0, y 1, y 2, eq_ix3 y⟩
  rw [slabBlk_apply m hO c t a r w _ (tbl_word m hlt c (instOf m hO t))]
  have h1 : r.val < 8192 := r.isLt
  have e : r = (⟨(r.val / 128) * 128 + r.val % 128, by omega⟩ : Fin 8192) :=
    Fin.ext (by show r.val = (r.val / 128) * 128 + r.val % 128; omega)
  rw [e]
  rw [HostOps.slabArr_apply (fmOf m c) _ (⟨r.val / 128, by omega⟩ : Fin 64) (⟨r.val % 128, Nat.mod_lt _ (by decide)⟩ : Fin 128) w]
  exact hf c _

include hg in
/-- and so are the two coordinate blocks. -/
theorem gxBlk_fin (hO : Ok m) (c : Dev nD) (t : Fin (cfgM m hO).N) (y : S1x1x3200.Idx) :
    ∃ r : ℝ, gxBlk m hO c t y = (r : EReal) := by
  obtain ⟨a, b, q, rfl⟩ : ∃ (a : Fin 1) (b : Fin 1) (q : Fin 3200), y = ix3 a b q := ⟨y 0, y 1, y 2, eq_ix3 y⟩
  rw [gxBlk_apply, HostOps.gxArr_apply]; exact hg c _
include hg in
theorem gyBlk_fin (hO : Ok m) (c : Dev nD) (t : Fin (cfgM m hO).N) (y : S1x1x3200.Idx) :
    ∃ r : ℝ, gyBlk m hO c t y = (r : EReal) := by
  obtain ⟨a, b, q, rfl⟩ : ∃ (a : Fin 1) (b : Fin 1) (q : Fin 3200), y = ix3 a b q := ⟨y 0, y 1, y 2, eq_ix3 y⟩
  rw [gyBlk_apply, HostOps.gyArr_apply]; exact hg c _

include hlt in
/-- The slab block's image of channel ch is image `imgOf n`, channel ch of the feature map. -/
theorem slabImg_eq (hO : Ok m) (c : Dev nD) (t : Fin (cfgM m hO).N) (ch : Fin 128) :
    Tile.slabImg (slabBlk m hO c t) ch = Cert.Bilinear.img (fmOf m c) (Cert.Bilinear.imgOf (biOf m c) (instOf m hO t)) ch := by
  funext h w
  unfold Tile.slabImg Cert.Bilinear.img
  by_cases hh : h < 64 ∧ w < 160
  · rw [dif_pos hh, dif_pos hh]
    rw [slabBlk_apply m hO c t (0 : Fin 1) _ _ _ (tbl_word m hlt c (instOf m hO t))]
    exact congrArg EReal.toReal (HostOps.slabArr_apply (fmOf m c) _ (⟨h, hh.1⟩ : Fin 64) ch (⟨w, hh.2⟩ : Fin 160))
  · rw [dif_neg hh, dif_neg hh]
end

section
variable (m : (ℓ : Loc nD τ sig) → Buf (Elt Ideal) ℓ)
variable (hf : ∀ (c : Dev nD) (i : S8x128x64x160.Idx), ∃ r : ℝ, fmOf m c i = (r : EReal))
variable (hg : ∀ (c : Dev nD) (i : S128x32x100x2.Idx), ∃ r : ℝ, grOf m c i = (r : EReal))
variable (hlt : ∀ (c : Dev nD) (n : Fin 128), (biOf m c (ix1 n)).toNat < 8)

include hf hg hlt in
/-- THE OUTPUT BLOCK AFTER POINT t, at (0, ch, q): the result array at (t, ch, q). The block function is trip q / 128's
    tile at (ch, q mod 128); the tile is the separable form of the bilinear sample of the slab's channel ch at the
    query whose coordinates are lane q of the two coordinate rows; the separable form is the four-corner form; the slab
    is image `imgOf t` of the feature map and the coordinate rows are the grids of instance t. -/
theorem outs_apply (hO : Ok m) (c : Dev nD) (t : Fin (cfgM m hO).N) (a : Fin 1) (ch : Fin 128) (q : Fin 3200) :
    outsAt0 m hO c t (ix3 a ch q) = Garr m c (ix3 (instOf m hO t) ch q) := by
  unfold outsAt0
  refine (Pieces.out_apply (F := Ideal) c (grid0.coords t) (ms0_0 m hO t) (hs0_0 m hO t) (ms0_1 m hO t) (hs0_1 m hO t)
    (ms0_2 m hO t) (hs0_2 m hO t) (ms0_3 m hO t) (hs0_3 m hO t) (slabBlk m hO c t) (gxBlk m hO c t) (gyBlk m hO c t)
    (tbl m 0) (ix3 a ch q)).trans ?_
  show Tile.tile (slabBlk m hO c t) (Pieces.laneRow (Pieces.tripOf q) (gxBlk m hO c t)) (Pieces.laneRow (Pieces.tripOf q) (gyBlk m hO c t))
      (ix3 (0 : Fin 1) ch (⟨q.val % 128, Nat.mod_lt _ (by decide)⟩ : Fin 128)) = _
  rw [Tile.tile_apply _ _ _ (slabBlk_fin m hf hlt hO c t)
    (fun i => by rw [laneRow_apply]; exact gxBlk_fin m hg hO c t _)
    (fun i => by rw [laneRow_apply]; exact gyBlk_fin m hg hO c t _)]
  rw [Cert.Bilinear.sepForm_eq_cornerForm, slabImg_eq m hlt hO c t ch]
  have hq : (⟨128 * (Pieces.tripOf q).val + q.val % 128, by
      have h : q.val < 3200 := q.isLt
      show 128 * (q.val / 128) + q.val % 128 < 3200
      omega⟩ : Fin 3200) = q := Fin.ext (by show 128 * (q.val / 128) + q.val % 128 = q.val; omega)
  have ex : Pieces.laneRow (Pieces.tripOf q) (gxBlk m hO c t) (ix3 (0 : Fin 1) (0 : Fin 1) (⟨q.val % 128, Nat.mod_lt _ (by decide)⟩ : Fin 128))
      = grOf m c (ix4 (instOf m hO t) (⟨q.val / 100, by have h : q.val < 3200 := q.isLt; omega⟩ : Fin 32) (⟨q.val % 100, Nat.mod_lt _ (by decide)⟩ : Fin 100) (0 : Fin 2)) := by
    rw [laneRow_apply]
    show gxBlk m hO c t (ix3 (0 : Fin 1) (0 : Fin 1) (⟨128 * (Pieces.tripOf q).val + q.val % 128, _⟩ : Fin 3200)) = _
    rw [hq, gxBlk_apply, HostOps.gxArr_apply]
  have ey : Pieces.laneRow (Pieces.tripOf q) (gyBlk m hO c t) (ix3 (0 : Fin 1) (0 : Fin 1) (⟨q.val % 128, Nat.mod_lt _ (by decide)⟩ : Fin 128))
      = grOf m c (ix4 (instOf m hO t) (⟨q.val / 100, by have h : q.val < 3200 := q.isLt; omega⟩ : Fin 32) (⟨q.val % 100, Nat.mod_lt _ (by decide)⟩ : Fin 100) (1 : Fin 2)) := by
    rw [laneRow_apply]
    show gyBlk m hO c t (ix3 (0 : Fin 1) (0 : Fin 1) (⟨128 * (Pieces.tripOf q).val + q.val % 128, _⟩ : Fin 3200)) = _
    rw [hq, gyBlk_apply, HostOps.gyArr_apply]
  rw [ex, ey]
  rfl
end

section
variable (m : (ℓ : Loc nD τ sig) → Buf (Elt Ideal) ℓ)
variable (hf : ∀ (c : Dev nD) (i : S8x128x64x160.Idx), ∃ r : ℝ, fmOf m c i = (r : EReal))
variable (hg : ∀ (c : Dev nD) (i : S128x32x100x2.Idx), ∃ r : ℝ, grOf m c i = (r : EReal))
variable (hlt : ∀ (c : Dev nD) (n : Fin 128), (biOf m c (ix1 n)).toNat < 8)

include hf hg hlt in
/-- The output block after point t, as a function: rows (t, ·, ·) of the result array. -/
theorem outs_eq (hO : Ok m) (c : Dev nD) (t : Fin (cfgM m hO).N) :
    outsAt0 m hO c t = fun y : S1x128x3200.Idx => Garr m c (ix3 (instOf m hO t) (y 1) (y 2)) := by
  funext y
  obtain ⟨a, ch, q, rfl⟩ : ∃ (a : Fin 1) (ch : Fin 128) (q : Fin 3200), y = ix3 a ch q := ⟨y 0, y 1, y 2, eq_ix3 y⟩
  exact outs_apply m hf hg hlt hO c t a ch q

include hf hg hlt in
/-- What point t writes back is block t of the result array. -/
theorem flushed_eq (hO : Ok m) (c : Dev nD) (t : Fin (cfgM m hO).N) (_ : ((cfgM m hO).win 3).flush t = true) :
    (dats m hO 0 c).flushed 3 t = (((cfgM m hO).win 3).blk t).view.read (Elt Ideal) (Garr m c) := by
  show ((cfgM m hO).win 3).cut (grid0.coords t) ((dats m hO 0 c).after 3 t) = _
  rw [after0_3, outs_eq m hf hg hlt hO c t]
  funext y
  exact (blk3_read (adm m hO) t (Garr m c) y).symm

/-- The blocks cover the [128, 128, 3200] array: index (n, c, q) is index (0, c, q) of block n. -/
theorem cover (hO : Ok m) (i : S128x128x3200.Idx) :
    ∃ t : Fin (cfgM m hO).N, ((cfgM m hO).win 3).flush t = true ∧ i ∈ (((cfgM m hO).win 3).blk t).view.set := by
  have h0 : (i 0).val < 128 := (i 0).isLt
  let t : Fin (cfg0 (adm m hO)).N := ⟨(i 0).val, h0⟩
  refine ⟨t, flush0_3 (adm m hO) t, ?_⟩
  have hm := (((cfg0 (adm m hO)).win 3).blk t).view.emb_mem_set (ix3 (0 : Fin 1) (i 1) (i 2) : S1x128x3200.Idx)
  rw [blk3_emb (adm m hO) t] at hm
  have e : i = (ix3 (⟨t.val, t.isLt⟩ : Fin 128) (i 1) (i 2) : S128x128x3200.Idx) := eq_ix3 i
  rw [e]
  exact hm

include hf hg hlt in
/-- THE KERNEL'S OUTPUT ARRAY after the region is the result array in the kernel's layout. -/
theorem final (hO : Ok m) (c : Dev nD) : (dats m hO 0 c).arrAt 3 (cfgM m hO).N = Garr m c :=
  (dats m hO 0 c).arrAt_eq_of_cover 3 (Garr m c) (flushed_eq m hf hg hlt hO c) (cover m hO)
end

section
variable (m : (ℓ : Loc nD τ sig) → Buf (Elt Ideal) ℓ) (ρ : Dev nD → PrngReg)
variable (hf : ∀ (c : Dev nD) (i : S8x128x64x160.Idx), ∃ r : ℝ, fmOf m c i = (r : EReal))
variable (hg : ∀ (c : Dev nD) (i : S128x32x100x2.Idx), ∃ r : ℝ, grOf m c i = (r : EReal))
variable (hlt : ∀ (c : Dev nD) (n : Fin 128), (biOf m c (ix1 n)).toNat < 8)

include hf hg hlt in
/-- THE RESULT after the host's re-laying of the kernel's output array: the result array `G`. -/
theorem tail_eq (hO : Ok m) (c : Dev nD) :
    Pipeline.afterTail pcfgs (fun _ => adm m hO) (dats m hO) 0 (V0 m) [hostOps1] c main_v10
      = Cert.Bilinear.G (fmOf m c) (grOf m c) (biOf m c) := by
  unfold Pipeline.afterTail
  show StableHlo.after hostOps1 _ (Proc.devRef .tc main_v10) = _
  after_results
  have hw : Pipeline.withArrays (Pipeline.pin pcfgs (fun _ => adm m hO) 0).spec c (V0 m c)
      (fun w => (dats m hO 0 c).arrAt w (Pipeline.pin pcfgs (fun _ => adm m hO) 0).N) (Proc.devRef .tc main_v9) = Garr m c :=
    (Pipeline.withArrays_arr spec0 winFacts0.arr_inj c _ _ 3).trans (final m hf hg hlt hO c)
  funext j
  show HostOps.outArr (F := Ideal) (Pipeline.withArrays (Pipeline.pin pcfgs (fun _ => adm m hO) 0).spec c (V0 m c)
      (fun w => (dats m hO 0 c).arrAt w (Pipeline.pin pcfgs (fun _ => adm m hO) 0).N) (Proc.devRef .tc main_v9)) j = _
  rw [hw]
  obtain ⟨n, ch, gh, gw, rfl⟩ : ∃ (n : Fin 128) (ch : Fin 128) (gh : Fin 32) (gw : Fin 100), j = ix4 n ch gh gw :=
    ⟨j 0, j 1, j 2, j 3, eq_ix4 j⟩
  rw [HostOps.outArr_apply]
  unfold Garr
  have hgh : gh.val < 32 := gh.isLt
  have hgw : gw.val < 100 := gw.isLt
  refine congrArg (Cert.Bilinear.G (fmOf m c) (grOf m c) (biOf m c)) ?_
  funext d
  match d with
  | ⟨0, _⟩ => rfl
  | ⟨1, _⟩ => rfl
  | ⟨2, _⟩ => exact Fin.ext (by show (gh.val * 100 + gw.val) / 100 = gh.val; omega)
  | ⟨3, _⟩ => exact Fin.ext (by show (gh.val * 100 + gw.val) % 100 = gw.val; omega)
end

section
variable (m : (ℓ : Loc nD τ sig) → Buf (Elt Ideal) ℓ) (ρ : Dev nD → PrngReg)
variable (hf : ∀ (c : Dev nD) (i : S8x128x64x160.Idx), ∃ r : ℝ, fmOf m c i = (r : EReal))
variable (hg : ∀ (c : Dev nD) (i : S128x32x100x2.Idx), ∃ r : ℝ, grOf m c i = (r : EReal))
variable (hlt : ∀ (c : Dev nD) (n : Fin 128), (biOf m c (ix1 n)).toNat < 8)

include hf hg hlt in
/-- THE KERNEL'S RUN with its result named: every weakly fair execution terminates with the result buffer at `G` of
    the argument arrays and the arguments as launched. -/
theorem run (hO : Ok m) :
    θ_run defs (onTc (τ := τ) (main (F := Ideal))) ⟨m, fun _ => 0, ρ⟩ (fun r => ∀ c : Dev nD,
      r.2.mem ((c.tc : Thread nD τ).loc main_v10) = Cert.Bilinear.G (fmOf m c) (grOf m c) (biOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun _ h c => ?_) (run_main m ρ hO)
  refine ⟨((h c).2 main_v10 (by decide : main_v10 ∈ Pipeline.restRefs sig spec0)).trans (tail_eq m hf hg hlt hO c),
    ((h c).2 main_arg0 (by decide : main_arg0 ∈ Pipeline.restRefs sig spec0)).trans (W_main_arg0 m hO (dats m hO) c),
    ((h c).2 main_arg1 (by decide : main_arg1 ∈ Pipeline.restRefs sig spec0)).trans (W_main_arg1 m hO (dats m hO) c),
    ((h c).2 main_arg2 (by decide : main_arg2 ∈ Pipeline.restRefs sig spec0)).trans (W_main_arg2 m hO (dats m hO) c),
    ((h c).2 main_arg3 (by decide : main_arg3 ∈ Pipeline.restRefs sig spec0)).trans (W_main_arg3 m hO (dats m hO) c)⟩
end

end Cert.KernelIdeal.Arr
end
-- ==== Proof.PreDecode.lean ====
/-
  The precondition read: every entry of the feature map and of the sampling grids is a real number, and every
  instance's image number is a word in [0, 8) — read unsigned, below 8.
-/
import proofs.«401064_j4922032521570_3_alg».proof.Pre_finite_inputs
import proofs.«401064_j4922032521570_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Cert.Pre_finite_inputs Idealize.ShloMosaic Idealize.ShloMosaic.ValueIdx

/-- The scalar shape has a single index. -/
instance : Subsingleton S_.Idx := ⟨fun a b => funext fun d => d.elim0⟩

/-- A 32-bit word that is at least 0 and below 8 as a signed number is below 8 as an unsigned number: were its top
    bit set, its signed value would be negative. -/
theorem word_lt (w : BitVec 32) (h0 : IntOp.cmpi .sge w 0#32 = 1#1) (h8 : IntOp.cmpi .slt w 8#32 = 1#1) :
    w.toNat < 8 := by
  rw [IntOp.cmpi_sge] at h0
  rw [IntOp.cmpi_slt] at h8
  have z : (0#32 : BitVec 32).toInt = 0 := by decide
  have e : (8#32 : BitVec 32).toInt = 8 := by decide
  rw [z] at h0
  rw [e] at h8
  have hw := w.isLt
  rw [BitVec.toInt_eq_toNat_cond] at h0 h8
  split at h0 <;> omega

/-- An extended real whose absolute value — the larger of it and its negative — is strictly below the value the bit
    pattern of positive infinity denotes is a real number: +∞ is its own absolute value, and −∞ has +∞ for its. -/
theorem real_of_abs_lt (x : EReal)
    (hx : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at hx
  simp only [Ideal.cmp, StableHlo.Predicate.ofBool_eq_one_iff, decide_eq_true_eq] at hx
  induction x using EReal.rec with
  | bot => simp at hx
  | coe r => exact ⟨r, rfl⟩
  | top => simp at hx

/-- Under the precondition, at any float instance, instance `n`'s image number read unsigned is below 8
    (the precondition says 0 ≤ it < 8, signed). -/
theorem idx_lt {F : FTy → Type} [FloatOps F] (a0 : FVec F S8x128x64x160 .f32) (a1 : FVec F S128x32x100x2 .f32)
    (a2 : IVec S128 32) (a3 : IVec S128x25 32)
    (h : Cert.Pre_finite_inputs.fn (F := F) a0 a1 a2 a3 = fun _ => 1#1) (n : Fin 128) :
    (a2 (ix1 n)).toNat < 8 := by
  -- the result's one entry is the conjunction of three all-reductions; the last is the range test of the image numbers
  have e := congrFun h ix0
  dsimp only [Cert.Pre_finite_inputs.fn] at e
  obtain ⟨-, e14⟩ := IntOp.andi_eq_one.1 e
  -- an all-reduction by "and" that came out 1 had a 1 at every entry: at instance n, both comparisons hold
  have en := Host.reduce_andi_all _ _ _ _ _ e14 (ix1 n)
  obtain ⟨h0, h8⟩ := IntOp.andi_eq_one.1 en
  exact word_lt _ h0 h8

/-- Under the precondition at the extended reals, every entry of the feature map is a real number. -/
theorem finite_feat (a0 : FVec Ideal S8x128x64x160 .f32) (a1 : FVec Ideal S128x32x100x2 .f32)
    (a2 : IVec S128 32) (a3 : IVec S128x25 32)
    (h : Cert.Pre_finite_inputs.fn (F := Ideal) a0 a1 a2 a3 = fun _ => 1#1) (i : S8x128x64x160.Idx) :
    ∃ r : ℝ, a0 i = (r : EReal) := by
  -- the first of the three conjuncts: |feature map| < +∞ at every entry
  have e := congrFun h ix0
  dsimp only [Cert.Pre_finite_inputs.fn] at e
  obtain ⟨e8, -⟩ := IntOp.andi_eq_one.1 e
  obtain ⟨e3, -⟩ := IntOp.andi_eq_one.1 e8
  exact real_of_abs_lt _ (Host.reduce_andi_all _ _ _ _ _ e3 i)

/-- Under the precondition at the extended reals, every entry of the sampling grids is a real number. -/
theorem finite_grid (a0 : FVec Ideal S8x128x64x160 .f32) (a1 : FVec Ideal S128x32x100x2 .f32)
    (a2 : IVec S128 32) (a3 : IVec S128x25 32)
    (h : Cert.Pre_finite_inputs.fn (F := Ideal) a0 a1 a2 a3 = fun _ => 1#1) (i : S128x32x100x2.Idx) :
    ∃ r : ℝ, a1 i = (r : EReal) := by
  -- the second of the three conjuncts: |grids| < +∞ at every entry
  have e := congrFun h ix0
  dsimp only [Cert.Pre_finite_inputs.fn] at e
  obtain ⟨e8, -⟩ := IntOp.andi_eq_one.1 e
  obtain ⟨-, e7⟩ := IntOp.andi_eq_one.1 e8
  exact real_of_abs_lt _ (Host.reduce_andi_all _ _ _ _ _ e7 i)

end Cert.PreDecode

end
-- ==== Proof.PreDecodeOkBits.lean ====
/-
  The side condition of the table of image numbers: at every instance n the slab the kernel fetches, block
  (image number of n, 0, 0) of the [8, 8192, 160] array in blocks of [1, 8192, 160], lies inside the array, and
  its transfer moves whole words (it takes every row of the slab). It holds as soon as every image number, read
  unsigned, is below 8.
-/
import proofs.«401064_j4922032521570_3_alg».proof.Proof.Gen.Kernel.Frame
import Idealize.ShloMosaic.Lib.ValueIdx
import Idealize.ShloMosaic.PureOps.BitExact

set_option maxRecDepth 16384

noncomputable section

namespace Cert.Kernel.OkOfLt

open Cert.Kernel Cert.Kernel.Gen
open Idealize.ShloMosaic Idealize.ShloMosaic.TcCoe Idealize.SL.Sem Idealize.ShloMosaic.ValueIdx

variable (m : (ℓ : Loc nD τ sig) → Buf (Elt Bits) ℓ)

/-- Grid point i's instance number, as a number below 128. -/
def inst (i : grid0.Coords) : Fin 128 := ⟨(i 0).val, (i 0).isLt⟩

/-- The one index of the one-entry rectangle at offset (instance number of i) of the [128] table is that instance's:
    the offset is the instance number itself (a number below 128 survives the passage through a 32-bit word), and
    the rectangle's one index has coordinate 0. -/
theorem idx_eq (i : grid0.Coords) (inb : ∀ a, (k0_off1 i) a + S1.size a ≤ S128.size a)
    (h1 : 0 < (Rect.unit (s := S128) (k0_off1 i) S1.size inb).shape.numel) :
    (Rect.unit (s := S128) (k0_off1 i) S1.size inb).emb (Shape.Idx.first h1) = ix1 (inst i) := by
  funext a
  apply Fin.ext
  fin_cases a
  show (k0_off1 i) 0 + 1 * (Shape.Idx.first h1 (0 : Fin 1)).val = (i 0).val
  have hk : (k0_off1 i) 0 = (i 0).val := by
    show (BitVec.ofNat 32 (i 0).val).toNat = (i 0).val
    have hi : (i 0).val < 128 := (i 0).isLt
    rw [BitVec.toNat_ofNat]; omega
  have hf : (Shape.Idx.first h1 (0 : Fin 1)).val < 1 := (Shape.Idx.first h1 (0 : Fin 1)).isLt
  omega

/-- The block index the first window's index map computes at grid point i, whatever the table holds: the word at
    instance (number of i), read unsigned, then 0 and 0. -/
theorem tr_eq (pf : pre0.Contents (Elt Bits)) (i : grid0.Coords) :
    cc0_transform_0 k0_off1_inb numel1_S1 pf i = ![(pf 0 (ix1 (inst i))).toNat, 0, 0] := by
  have e : cc0_transform_0 k0_off1_inb numel1_S1 pf i
      = ![(pf 0 ((Rect.unit (s := S128) (k0_off1 i) S1.size (k0_off1_inb i)).emb (Shape.Idx.first (numel1_S1.symm ▸ Nat.one_pos)))).toNat, 0, 0] := rfl
  rw [e, idx_eq i (k0_off1_inb i)]

/-- With the table a variable: if every word of the table is below 8 read unsigned, then at every grid point the
    fetched slab — block (word, 0, 0) in blocks of [1, 8192, 160] — ends inside the [8, 8192, 160] array (word + 1 ≤ 8
    along the first axis; one whole extent along the other two), and the slab takes every row: on the row axis (the
    middle one) it starts at 0 · 8192 = 0, has unit stride, and is 8192 long, the array's own extent there. -/
theorem ok_of_lt_pf (pf : pre0.Contents (Elt Bits)) (hlt : ∀ n : Fin 128, (pf 0 (ix1 n)).toNat < 8) : ok0 pf := by
  intro i
  obtain ⟨w, hw, e⟩ : ∃ w : BitVec 32, w.toNat < 8 ∧ cc0_transform_0 k0_off1_inb numel1_S1 pf i = ![w.toNat, 0, 0] :=
    ⟨_, hlt _, tr_eq pf i⟩
  have hin : ∀ a, (cc0_transform_0 k0_off1_inb numel1_S1 pf i a + 1) * S1x8192x160.size a ≤ S8x8192x160.size a := by
    intro a
    rw [e]
    fin_cases a <;> simp [S1x8192x160, S8x8192x160] <;> omega
  refine ⟨hin, Or.inr (Or.inr ⟨by decide, rfl, ?_, rfl⟩)⟩
  show cc0_transform_0 k0_off1_inb numel1_S1 pf i (S8x8192x160.rowAx (by decide)) * S1x8192x160.size (S8x8192x160.rowAx (by decide)) = 0
  rw [e]
  exact Nat.zero_mul _

/-- Every image number below 8 (unsigned) gives the side condition of the table. -/
theorem ok_of_lt (hlt : ∀ n : Fin 128, (m (((0 : Dev nD) : Thread nD τ).loc main_arg2) (ix1 n)).toNat < 8) : Ok m := by
  -- the table the index map reads is the launch contents of the image-number buffer on device 0
  have ht : tbl m 0 = m (((0 : Dev nD) : Thread nD τ).loc main_arg2) := V_main_arg2 m 0
  exact ok_of_lt_pf (tbl m) (fun n => by rw [ht]; exact hlt n)

end Cert.Kernel.OkOfLt

end
-- ==== Proof.lean ====
/-
  A separable bilinear grid sampler against the four-corner one, over the extended reals.

  Both programs compute, for every text instance n, channel c and grid point (gh, gw), the bilinear sample of channel c
  of image batch_idx[n] of the feature map at the pixel coordinates tx = (gx + 1)·80 − 1/2, ty = (gy + 1)·32 − 1/2 of
  the grid point, with zero padding outside the image. The reference gathers the four neighbouring pixels (clamped onto
  the image, multiplied by 0 when the neighbour is outside it) and adds them with the products of a column weight and a
  row weight. The kernel makes, per query, a column of 160 taps and a column of 64 taps — the weight of each neighbour
  at its clamped position — contracts the image's columns against the first (a matrix product) and the rows against the
  second (a sum over rows). The two are one real number because the weight and the "inside" test of a corner both factor
  into a column part and a row part, and sums over positions are linear (Algebra). Finite inputs are needed for that:
  on the extended reals a product does not distribute over a sum at the infinities. The image number must name an image,
  0 ≤ batch_idx[n] < 8: the kernel fetches block batch_idx[n] of the image array, and the reference indexes the same axis.

  The frames of the two kernel programs are the generated ones under the side condition of the table of image numbers,
  which the precondition gives (PreDecode, PreDecodeOkBits, PreDecodeOkIdeal); the reference's is its run with the result
  dropped. The idealized kernel differs from the kernel by one narrowing-and-widening of a value, the identity at the
  extended reals. For the equality of results: the kernel's run ends with the result buffer at `G` of the arguments
  (KernelArray, over Pieces, Tile, TileTaps, TileContract, TileApply, HostOps), the reference's at the same `G`
  (RefAssemble over RefLane, RefGather).
-/
import proofs.«401064_j4922032521570_3_alg».proof.Defs
import proofs.«401064_j4922032521570_3_alg».proof.Proof.Gen.Kernel
import proofs.«401064_j4922032521570_3_alg».proof.Proof.Gen.Kernel.Frame
import proofs.«401064_j4922032521570_3_alg».proof.Proof.Gen.KernelIdeal
import proofs.«401064_j4922032521570_3_alg».proof.Proof.Gen.KernelIdeal.Frame
import proofs.«401064_j4922032521570_3_alg».proof.Proof.Gen.ReferenceIdeal
import proofs.«401064_j4922032521570_3_alg».proof.Proof.Gen.Pre_finite_inputs
import proofs.«401064_j4922032521570_3_alg».proof.Proof.RefRun
import proofs.«401064_j4922032521570_3_alg».proof.Proof.RefRead
import proofs.«401064_j4922032521570_3_alg».proof.Proof.RefAssemble
import proofs.«401064_j4922032521570_3_alg».proof.Proof.KernelArray
import proofs.«401064_j4922032521570_3_alg».proof.Proof.PreDecode
import proofs.«401064_j4922032521570_3_alg».proof.Proof.PreDecodeOkIdeal
import proofs.«401064_j4922032521570_3_alg».proof.Proof.PreDecodeOkBits
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments: the generated frame, its table's side condition from the
    precondition's range of the image numbers. -/
theorem frame_k : Cert.frame_Kernel := fun m ρ h =>
  Cert.Kernel.Gen.frame m ρ (Cert.Kernel.OkOfLt.ok_of_lt m fun n => Cert.PreDecode.idx_lt _ _ _ _ (h 0) n)

/-- The idealized kernel likewise. -/
theorem frame_ki : Cert.frame_KernelIdeal := fun m ρ h =>
  Cert.KernelIdeal.Gen.frame m ρ (Cert.KernelIdeal.OkOfLt.ok_of_lt m fun n => Cert.PreDecode.idx_lt _ _ _ _ (h 0) n)

/-- The reference runs and leaves its arguments: its run with the result dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The one rewrite of the idealization: a value narrowed and widened again is itself at the extended reals. -/
theorem preserves : Cert.preserves_Kernel_KernelIdeal :=
  IdealRules.truncf_extf.statement Cert.KernelIdeal.S128x128 .f32 .bf16

/-- Both programs end with the result buffer at `G` of the argument arrays, which agree. -/
theorem algebraic : Cert.algebraic_KernelIdeal_ReferenceIdeal := by
  intro m ρ m' ρ' hpre hagree
  have hf : ∀ (c : Dev Cert.KernelIdeal.nD) (i : Cert.KernelIdeal.S8x128x64x160.Idx), ∃ r : ℝ, Cert.KernelIdeal.Arr.fmOf m c i = (r : EReal) :=
    fun c i => Cert.PreDecode.finite_feat _ _ _ _ (hpre c) i
  have hg : ∀ (c : Dev Cert.KernelIdeal.nD) (i : Cert.KernelIdeal.S128x32x100x2.Idx), ∃ r : ℝ, Cert.KernelIdeal.Arr.grOf m c i = (r : EReal) :=
    fun c i => Cert.PreDecode.finite_grid _ _ _ _ (hpre c) i
  have hlt : ∀ (c : Dev Cert.KernelIdeal.nD) (n : Fin 128), (Cert.KernelIdeal.Arr.biOf m c (ix1 n)).toNat < 8 :=
    fun c n => Cert.PreDecode.idx_lt _ _ _ _ (hpre c) n
  have hO : Cert.KernelIdeal.Gen.Ok m := Cert.KernelIdeal.OkOfLt.ok_of_lt m (hlt 0)
  refine ⟨fun c => Cert.Bilinear.G (Cert.KernelIdeal.Arr.fmOf m c) (Cert.KernelIdeal.Arr.grOf m c) (Cert.KernelIdeal.Arr.biOf m c),
    fun c => m ((c.tc : Thread Cert.KernelIdeal.nD Cert.KernelIdeal.τ).loc Cert.KernelIdeal.main_arg3), ?_, ?_⟩
  · refine (θ_run Cert.KernelIdeal.defs _ _).mono (fun _ h c => ?_) (Cert.KernelIdeal.Arr.run m ρ hf hg hlt hO)
    exact ⟨(h c).1, (h c).2.2.2.2, (h c).2.1, (h c).2.2.1, (h c).2.2.2.1, (h c).2.2.2.2⟩
  · refine (θ_run Cert.ReferenceIdeal.defs _ _).mono (fun _ h c => ?_) (Cert.ReferenceIdeal.ValueP.run (F := Ideal) m' ρ')
    refine ⟨?_, (h c).2.1.trans (hagree c).2.2.2, (h c).2.2.1, (h c).2.2.2.1, (h c).2.2.2.2.1, (h c).2.2.2.2.2⟩
    rw [(h c).1, Cert.ReferenceIdeal.ReadP.val_main_v210_eq, (hagree c).1, (hagree c).2.1, (hagree c).2.2.1]
    exact Cert.ReferenceIdeal.RefValue.ref_eq_G _ _ _ (hf c) (hg c) (hlt c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
